-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v42_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v42_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg12 : FVec F S128 .f32) (main_arg13 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg13
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000x3 .f32) (main_arg2 : IVec S2x600000 32) (main_arg3 : FVec F S257x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x3 : Shape := ⟨2, ![600000, 3]⟩
abbrev S1x128 : Shape := ⟨2, ![1, 128]⟩
abbrev S4000x128 : Shape := ⟨2, ![4000, 128]⟩
abbrev S4000x3 : Shape := ⟨2, ![4000, 3]⟩
abbrev S4000 : Shape := ⟨1, ![4000]⟩
abbrev S4000x1 : Shape := ⟨2, ![4000, 1]⟩
abbrev S50000x1 : Shape := ⟨2, ![50000, 1]⟩
abbrev S2000x128 : Shape := ⟨2, ![2000, 128]⟩
abbrev S2000x3 : Shape := ⟨2, ![2000, 3]⟩
abbrev S2000x1 : Shape := ⟨2, ![2000, 1]⟩

abbrev nBuf : Space → Nat
  | .hbm => 88
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S50000x128, .bf16⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .bf16⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .bf16⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x3, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x3, .f32⟩
  | .hbm, ⟨55, _⟩ => ⟨S600000x3, .f32⟩
  | .hbm, ⟨56, _⟩ => ⟨S128x128, .f32⟩
  | .hbm, ⟨57, _⟩ => ⟨S128x128, .bf16⟩
  | .hbm, ⟨58, _⟩ => ⟨S128x128, .f32⟩
  | .hbm, ⟨59, _⟩ => ⟨S128x128, .bf16⟩
  | .hbm, ⟨60, _⟩ => ⟨S1x128, .f32⟩
  | .hbm, ⟨61, _⟩ => ⟨S128x128, .bf16⟩
  | .hbm, ⟨62, _⟩ => ⟨S128x128, .bf16⟩
  | .hbm, ⟨63, _⟩ => ⟨S128x1, .bf16⟩
  | .hbm, ⟨64, _⟩ => ⟨S600000x128, .f32⟩
  | .hbm, ⟨65, _⟩ => ⟨S600000x3, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S_, .f32⟩
  | .hbm, ⟨71, _⟩ => ⟨S50000x3, .f32⟩
  | .hbm, ⟨72, _⟩ => ⟨S600000x1, .i32⟩
  | .hbm, ⟨73, _⟩ => ⟨S50000x3, .f32⟩
  | .hbm, ⟨74, _⟩ => ⟨S_, .f32⟩
  | .hbm, ⟨75, _⟩ => ⟨S600000x1, .f32⟩
  | .hbm, ⟨76, _⟩ => ⟨S_, .f32⟩
  | .hbm, ⟨77, _⟩ => ⟨S50000x1, .f32⟩
  | .hbm, ⟨78, _⟩ => ⟨S600000x1, .i32⟩
  | .hbm, ⟨79, _⟩ => ⟨S50000x1, .f32⟩
  | .hbm, ⟨80, _⟩ => ⟨S50000x128, .bf16⟩
  | .hbm, ⟨81, _⟩ => ⟨S128x128, .f32⟩
  | .hbm, ⟨82, _⟩ => ⟨S128x128, .bf16⟩
  | .hbm, ⟨83, _⟩ => ⟨S128x128, .f32⟩
  | .hbm, ⟨84, _⟩ => ⟨S128x128, .bf16⟩
  | .hbm, ⟨85, _⟩ => ⟨S128x128, .bf16⟩
  | .hbm, ⟨86, _⟩ => ⟨S50000x128, .f32⟩
  | .hbm, ⟨87, _⟩ => ⟨S50000x3, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x3, .f32⟩
  | .local _ .vmem, ⟨5, _⟩ => ⟨S4000x3, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S128x1, .bf16⟩
  | .local _ .vmem, ⟨15, _⟩ => ⟨S4000x128, .f32⟩
  | .local _ .vmem, ⟨16, _⟩ => ⟨S4000x128, .f32⟩
  | .local _ .vmem, ⟨17, _⟩ => ⟨S4000x3, .f32⟩
  | .local _ .vmem, ⟨18, _⟩ => ⟨S4000x3, .f32⟩
  | .local _ .vmem, ⟨19, _⟩ => ⟨S2000x128, .f32⟩
  | .local _ .vmem, ⟨20, _⟩ => ⟨S2000x128, .f32⟩
  | .local _ .vmem, ⟨21, _⟩ => ⟨S2000x128, .bf16⟩
  | .local _ .vmem, ⟨22, _⟩ => ⟨S2000x128, .bf16⟩
  | .local _ .vmem, ⟨23, _⟩ => ⟨S2000x128, .bf16⟩
  | .local _ .vmem, ⟨24, _⟩ => ⟨S2000x128, .bf16⟩
  | .local _ .vmem, ⟨25, _⟩ => ⟨S2000x3, .f32⟩
  | .local _ .vmem, ⟨26, _⟩ => ⟨S2000x3, .f32⟩
  | .local _ .vmem, ⟨27, _⟩ => ⟨S2000x3, .f32⟩
  | .local _ .vmem, ⟨28, _⟩ => ⟨S2000x3, .f32⟩
  | .local _ .vmem, ⟨29, _⟩ => ⟨S2000x1, .f32⟩
  | .local _ .vmem, ⟨30, _⟩ => ⟨S2000x1, .f32⟩
  | .local _ .vmem, ⟨31, _⟩ => ⟨S128x128, .bf16⟩
  | .local _ .vmem, ⟨32, _⟩ => ⟨S128x128, .bf16⟩
  | .local _ .vmem, ⟨33, _⟩ => ⟨S128, .f32⟩
  | .local _ .vmem, ⟨34, _⟩ => ⟨S128x128, .bf16⟩
  | .local _ .vmem, ⟨35, _⟩ => ⟨S128, .f32⟩
  | .local _ .vmem, ⟨36, _⟩ => ⟨S2000x128, .f32⟩
  | .local _ .vmem, ⟨37, _⟩ => ⟨S2000x128, .f32⟩
  | .local _ .vmem, ⟨38, _⟩ => ⟨S2000x3, .f32⟩
  | .local _ .vmem, ⟨39, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_cst : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59_0 : Ref sig .tc := ⟨.hbm, 86, rfl⟩
abbrev main_v59_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem11_0 : DmaSem sig := 36
abbrev cc1_sem11_1 : DmaSem sig := 37
abbrev cc1_sem12_0 : DmaSem sig := 38
abbrev cc1_sem12_1 : DmaSem sig := 39

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x3 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128_S128_0 : ∀ a, (![0] : Fin 1 → Nat) a + S128.size a ≤ S128.size a
  h_S128 : 0 < S128.numel
  shapeCasts_S128_S1x128 : S128.ShapeCasts S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S4000x1_S4000x3 : S4000x1.Broadcasts S4000x3
  bcast_S_S50000x128 : S_.BroadcastsInDim S50000x128 (![] : Fin 0 → Fin S50000x128.rank)
  bcast_S_S50000x3 : S_.BroadcastsInDim S50000x3 (![] : Fin 0 → Fin S50000x3.rank)
  bcast_S_S600000x1 : S_.BroadcastsInDim S600000x1 (![] : Fin 0 → Fin S600000x1.rank)
  bcast_S_S50000x1 : S_.BroadcastsInDim S50000x1 (![] : Fin 0 → Fin S50000x1.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x3 : S2000x1.Broadcasts S2000x3
  gather_S50000x128_S600000x1_S600000x128_1_0_n_n_0_1_1128_wf : GatherDims.WF S50000x128 S600000x1 S600000x128 [1] [0] [] [0] [] 1 ![1, 128]
  gather_S50000x3_S600000x1_S600000x3_1_0_n_n_0_1_13_wf : GatherDims.WF S50000x3 S600000x1 S600000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S600000x1_S600000x128_1_0_0_1_wf : ScatterDims.WF S50000x128 S600000x1 S600000x128 [1] [0] [0] 1
  scatter_S50000x3_S600000x1_S600000x3_1_0_0_1_wf : ScatterDims.WF S50000x3 S600000x1 S600000x3 [1] [0] [0] 1
  scatter_S50000x1_S600000x1_S600000x1_1_0_0_1_wf : ScatterDims.WF S50000x1 S600000x1 S600000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .bf16 = 32 ∨ (Rect.block (s := S600000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .bf16 = 32 ∨ (Rect.block (s := S600000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S600000x3.size a
  hwx0_2 : ∀ i : grid0.Coords, EltTy.bits .f32 = 32 ∨ (Rect.block (s := S600000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .bf16 = 32 ∨ (Rect.block (s := S128x1) S128x1.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S600000x128.size a
  hwx0_12 : ∀ i : grid0.Coords, EltTy.bits .f32 = 32 ∨ (Rect.block (s := S600000x128) S4000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x3.size a ≤ S600000x3.size a
  hwx0_13 : ∀ i : grid0.Coords, EltTy.bits .f32 = 32 ∨ (Rect.block (s := S600000x3) S4000x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x3.size a ≤ S50000x3.size a
  hwx1_4 : ∀ i : grid1.Coords, EltTy.bits .f32 = 32 ∨ (Rect.block (s := S50000x3) S2000x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .bf16 = 32 ∨ (Rect.block (s := S128x128) S128x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x3.size a ≤ S50000x3.size a
  hwx1_12 : ∀ i : grid1.Coords, EltTy.bits .f32 = 32 ∨ (Rect.block (s := S50000x3) S2000x3.size (cc1_transform_12 i) (hinb1_12 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42_0) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v42_1) S4000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2000x3.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v52) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v55) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v58) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg10) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v59_0) S2000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v59_1) S2000x3.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x257 : Shape := ⟨2, ![600000, 257]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S50000x3, .f32⟩
  | 2 => ⟨S2x600000, .i32⟩
  | 3 => ⟨S257x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1x600000, .i32⟩
  | 15 => ⟨S600000, .i32⟩
  | 16 => ⟨S1x600000, .i32⟩
  | 17 => ⟨S600000, .i32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x3, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x3, .f32⟩
  | 36 => ⟨S600000x3, .f32⟩
  | 37 => ⟨S600000x3, .f32⟩
  | 38 => ⟨S_, .f32⟩
  | 39 => ⟨S600000, .f32⟩
  | 40 => ⟨S600000x1, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x257, .f32⟩
  | 60 => ⟨S600000x128, .f32⟩
  | 61 => ⟨S1x128, .f32⟩
  | 62 => ⟨S600000x128, .f32⟩
  | 63 => ⟨S600000x128, .f32⟩
  | 64 => ⟨S600000x128, .f32⟩
  | 65 => ⟨S600000x128, .f32⟩
  | 66 => ⟨S_, .f32⟩
  | 67 => ⟨S600000x128, .f32⟩
  | 68 => ⟨S600000x128, .f32⟩
  | 69 => ⟨S_, .f32⟩
  | 70 => ⟨S600000x128, .f32⟩
  | 71 => ⟨S600000x128, .f32⟩
  | 72 => ⟨S600000x128, .f32⟩
  | 73 => ⟨S600000x128, .f32⟩
  | 74 => ⟨S1x128, .f32⟩
  | 75 => ⟨S600000x128, .f32⟩
  | 76 => ⟨S600000x128, .f32⟩
  | 77 => ⟨S600000x128, .f32⟩
  | 78 => ⟨S600000x128, .f32⟩
  | 79 => ⟨S_, .f32⟩
  | 80 => ⟨S600000x128, .f32⟩
  | 81 => ⟨S600000x128, .f32⟩
  | 82 => ⟨S_, .f32⟩
  | 83 => ⟨S600000x128, .f32⟩
  | 84 => ⟨S600000x128, .f32⟩
  | 85 => ⟨S600000x128, .f32⟩
  | 86 => ⟨S600000x128, .f32⟩
  | 87 => ⟨S1x128, .f32⟩
  | 88 => ⟨S600000x128, .f32⟩
  | 89 => ⟨S600000x128, .f32⟩
  | 90 => ⟨S600000x128, .f32⟩
  | 91 => ⟨S600000x128, .f32⟩
  | 92 => ⟨S_, .f32⟩
  | 93 => ⟨S600000x128, .f32⟩
  | 94 => ⟨S600000x128, .f32⟩
  | 95 => ⟨S_, .f32⟩
  | 96 => ⟨S600000x128, .f32⟩
  | 97 => ⟨S600000x128, .f32⟩
  | 98 => ⟨S600000x128, .f32⟩
  | 99 => ⟨S600000x1, .f32⟩
  | 100 => ⟨S600000x3, .f32⟩
  | 101 => ⟨S600000x3, .f32⟩
  | 102 => ⟨S_, .f32⟩
  | 103 => ⟨S50000x3, .f32⟩
  | 104 => ⟨S600000x1, .i32⟩
  | 105 => ⟨S50000x3, .f32⟩
  | 106 => ⟨S_, .f32⟩
  | 107 => ⟨S600000x1, .f32⟩
  | 108 => ⟨S_, .f32⟩
  | 109 => ⟨S50000x1, .f32⟩
  | 110 => ⟨S600000x1, .i32⟩
  | 111 => ⟨S50000x1, .f32⟩
  | 112 => ⟨S_, .f32⟩
  | 113 => ⟨S50000x1, .f32⟩
  | 114 => ⟨S50000x1, .f32⟩
  | 115 => ⟨S50000x3, .f32⟩
  | 116 => ⟨S50000x3, .f32⟩
  | 117 => ⟨S50000x3, .f32⟩
  | 118 => ⟨S_, .f32⟩
  | 119 => ⟨S50000x128, .f32⟩
  | 120 => ⟨S600000x1, .i32⟩
  | 121 => ⟨S50000x128, .f32⟩
  | 122 => ⟨S50000x256, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_7 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_8 : Ref sig .tc := ⟨.hbm, 106, rfl⟩
abbrev main_v58 : Ref sig .tc := ⟨.hbm, 107, rfl⟩
abbrev main_cst_9 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_10 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_11 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_call3_v0 : Ref sig .tc := ⟨.hbm, 127, rfl⟩
abbrev main_call3_v1 : Ref sig .tc := ⟨.hbm, 128, rfl⟩
abbrev main_call3_cst : Ref sig .tc := ⟨.hbm, 129, rfl⟩
abbrev main_call3_v2 : Ref sig .tc := ⟨.hbm, 130, rfl⟩
abbrev main_call3_v3 : Ref sig .tc := ⟨.hbm, 131, rfl⟩
abbrev main_call3_cst_0 : Ref sig .tc := ⟨.hbm, 132, rfl⟩
abbrev main_call3_v4 : Ref sig .tc := ⟨.hbm, 133, rfl⟩
abbrev main_call3_v5 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x128_S600000x128_S600000x1_S600000x257_d1 : Shape.Concatenates [S600000x128, S600000x128, S600000x1] S600000x257 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S600000x1_S600000x3_0_1 : S600000x1.BroadcastsInDim S600000x3 (![0, 1] : Fin 2 → Fin S600000x3.rank)
  bcast_S_S50000x3 : S_.BroadcastsInDim S50000x3 (![] : Fin 0 → Fin S50000x3.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S50000x3_S600000x1_S600000x3_1_0_0_1_wf : ScatterDims.WF S50000x3 S600000x1 S600000x3 [1] [0] [0] 1
  scatter_S50000x1_S600000x1_S600000x1_1_0_0_1_wf : ScatterDims.WF S50000x1 S600000x1 S600000x1 [1] [0] [0] 1
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefRun.lean ====
/-
  The reference program's run, stage by stage.

  The reference is one straight line of 127 tensor operations.  Its stages `val_main_vN` (one per operation, each
  a function of the arguments of @main it depends on, defined from the stages before it) are the values the
  operations write.  The line is cut into twelve stretches; running the stretches one after the other is running the
  line (`after_append`).  For each stretch: every buffer it writes is in a short list (`wrA` … `wrL`), so any other
  buffer keeps its contents across it (`keep`), and each buffer a later stretch or the result reads holds its stage once
  the buffers the stretch reads held theirs.  Chained, the three results of @main hold `val_main_v80`,
  `val_main_v66`, `val_main_v46` of the launch contents of the arguments, and the arguments are unchanged.
-/
import proofs.«167930_j21560735826057_1_alg».proof.Proof.RefRead
import Idealize.ShloMosaic.Lib.StableHlo.Run

noncomputable section

namespace Cert.ReferenceIdeal.StageRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## Stretches in a row, and buffers a stretch leaves alone -/

/-- Running two stretches in a row is running the second from where the first ended. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation whose one written buffer is in a list writes inside the list. -/
theorem writes_sub {op : HloOp τ sig (Elt F)} {y : Ref sig .tc} {L : List (Ref sig .tc)}
    (hw : op.writes = {Proc.devRef .tc y}) (hy : y ∈ L) :
    op.writes ⊆ (L.map (Proc.devRef (τ := τ) .tc)).toFinset := by
  rw [hw, Finset.singleton_subset_iff, List.mem_toFinset]
  exact List.mem_map_of_mem hy

/-- A buffer outside the list of a stretch's written buffers holds after the stretch what it held before. -/
theorem keep {ops : List (HloOp τ sig (Elt F))} {L : List (Ref sig .tc)}
    (hW : ops.Forall fun op => op.writes ⊆ (L.map (Proc.devRef (τ := τ) .tc)).toFinset)
    {V : Valuation τ sig (Elt F)} {r : Ref sig .tc} (hr : r ∉ L)
    {v : (Proc.devRef (τ := τ) .tc r).ty.Contents (Elt F)} (h : V (Proc.devRef .tc r) = v) :
    after ops V (Proc.devRef .tc r) = v :=
  (after_of_writes_sub ops V hW hr).trans h

/-! ## The twelve stretches -/

/-- Operations 1 to 13: the two index rows of the edge list, and the coordinates of each edge's first node. -/
def opsA : List (HloOp τ sig (Elt F)) :=
  [ unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg1 main_v9 main_v10 ((fun x i => Host.gather gather_S50000x3_S600000x1_S600000x3_1_0_n_n_0_1_13 x i) : (⟨S50000x3, .f32⟩ : BufTy).Contents (Elt F) → (⟨S600000x1, .i32⟩ : BufTy).Contents (Elt F) → (⟨S600000x3, .f32⟩ : BufTy).Contents (Elt F)) ]

/-- The buffers operations 1 to 13 write. -/
def wrA : List (Ref sig .tc) := [main_v0, main_v1, main_v2, main_v3, main_c, main_v4, main_v5, main_c_0, main_v6, main_v7, main_v8, main_v9, main_v10]

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl⟩

theorem opsA_wr : (opsA : List (HloOp τ sig (Elt F))).Forall fun op =>
    op.writes ⊆ (wrA.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- Operations 14 to 27: the coordinates of each edge's second node, the coordinate difference and its squared length. -/
def opsB : List (HloOp τ sig (Elt F)) :=
  [ nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v3 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v13 (broadcastInDim S600000 ![] bcast_S_S600000 : (⟨S_, .i32⟩ : BufTy).Contents (Elt F) → (⟨S600000, .i32⟩ : BufTy).Contents (Elt F)),
    binary main_v3 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg1 main_v16 main_v17 ((fun x i => Host.gather gather_S50000x3_S600000x1_S600000x3_1_0_n_n_0_1_13 x i) : (⟨S50000x3, .f32⟩ : BufTy).Contents (Elt F) → (⟨S600000x1, .i32⟩ : BufTy).Contents (Elt F) → (⟨S600000x3, .f32⟩ : BufTy).Contents (Elt F)),
    binary main_v10 main_v17 main_v18 (subf : (⟨S600000x3, .f32⟩ : BufTy).Contents (Elt F) → (⟨S600000x3, .f32⟩ : BufTy).Contents (Elt F) → (⟨S600000x3, .f32⟩ : BufTy).Contents (Elt F)),
    binary main_v18 main_v18 main_v19 (mulf : (⟨S600000x3, .f32⟩ : BufTy).Contents (Elt F) → (⟨S600000x3, .f32⟩ : BufTy).Contents (Elt F) → (⟨S600000x3, .f32⟩ : BufTy).Contents (Elt F)),
    nullary main_cst (constant S_ .f32 0x00000000#32),
    binary main_v19 main_cst main_v20 ((fun x v => Host.reduceAdd x v reducesTo_S600000x3_S600000_d1 h_S_) : (⟨S600000x3, .f32⟩ : BufTy).Contents (Elt F) → (⟨S_, .f32⟩ : BufTy).Contents (Elt F) → (⟨S600000, .f32⟩ : BufTy).Contents (Elt F)),
    unary main_v20 main_v21 (broadcastInDim S600000x1 ![0] bcast_S600000_S600000x1_0 : (⟨S600000, .f32⟩ : BufTy).Contents (Elt F) → (⟨S600000x1, .f32⟩ : BufTy).Contents (Elt F)) ]

/-- The buffers operations 14 to 27 write. -/
def wrB : List (Ref sig .tc) := [main_c_1, main_v11, main_v12, main_c_2, main_v13, main_v14, main_v15, main_v16, main_v17, main_v18, main_v19, main_cst, main_v20, main_v21]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl⟩

theorem opsB_wr : (opsB : List (HloOp τ sig (Elt F))).Forall fun op =>
    op.writes ⊆ (wrB.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- Operations 28 to 36: the features of each edge's first node. -/
def opsC : List (HloOp τ sig (Elt F)) :=
  [ nullary main_c_3 (constantI S_ 32 0#32),
    unary main_c_3 main_v22 (broadcastInDim S600000 ![] bcast_S_S600000 : (⟨S_, .i32⟩ : BufTy).Contents (Elt F) → (⟨S600000, .i32⟩ : BufTy).Contents (Elt F)),
    binary main_v1 main_v22 main_v23 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v24 (broadcastInDim S600000 ![] bcast_S_S600000 : (⟨S_, .i32⟩ : BufTy).Contents (Elt F) → (⟨S600000, .i32⟩ : BufTy).Contents (Elt F)),
    binary main_v1 main_v24 main_v25 (addi : (⟨S600000, .i32⟩ : BufTy).Contents (Elt F) → (⟨S600000, .i32⟩ : BufTy).Contents (Elt F) → (⟨S600000, .i32⟩ : BufTy).Contents (Elt F)),
    ternary main_v23 main_v25 main_v1 main_v26 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v26 main_v27 (broadcastInDim S600000x1 ![0] bcast_S600000_S600000x1_0 : (⟨S600000, .i32⟩ : BufTy).Contents (Elt F) → (⟨S600000x1, .i32⟩ : BufTy).Contents (Elt F)),
    binary main_arg0 main_v27 main_v28 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- The buffers operations 28 to 36 write. -/
def wrC : List (Ref sig .tc) := [main_c_3, main_v22, main_v23, main_c_4, main_v24, main_v25, main_v26, main_v27, main_v28]

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem opsC_fresh : (opsC : List (HloOp τ sig (Elt F))).Forall fun op => op.fresh = ∅ :=
  ⟨rfl, rfl, rfl, rfl, rfl, rfl, rfl, rfl, rfl⟩

theorem opsC_wr : (opsC : List (HloOp τ sig (Elt F))).Forall fun op =>
    op.writes ⊆ (wrC.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide)⟩

/-- Operations 37 to 45: the features of each edge's second node. -/
def opsD : List (HloOp τ sig (Elt F)) :=
  [ nullary main_c_5 (constantI S_ 32 0#32),
    unary main_c_5 main_v29 (broadcastInDim S600000 ![] bcast_S_S600000 : (⟨S_, .i32⟩ : BufTy).Contents (Elt F) → (⟨S600000, .i32⟩ : BufTy).Contents (Elt F)),
    binary main_v3 main_v29 main_v30 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v31 (broadcastInDim S600000 ![] bcast_S_S600000 : (⟨S_, .i32⟩ : BufTy).Contents (Elt F) → (⟨S600000, .i32⟩ : BufTy).Contents (Elt F)),
    binary main_v3 main_v31 main_v32 (addi : (⟨S600000, .i32⟩ : BufTy).Contents (Elt F) → (⟨S600000, .i32⟩ : BufTy).Contents (Elt F) → (⟨S600000, .i32⟩ : BufTy).Contents (Elt F)),
    ternary main_v30 main_v32 main_v3 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v33 main_v34 (broadcastInDim S600000x1 ![0] bcast_S600000_S600000x1_0 : (⟨S600000, .i32⟩ : BufTy).Contents (Elt F) → (⟨S600000x1, .i32⟩ : BufTy).Contents (Elt F)),
    binary main_arg0 main_v34 main_v35 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- The buffers operations 37 to 45 write. -/
def wrD : List (Ref sig .tc) := [main_c_5, main_v29, main_v30, main_c_6, main_v31, main_v32, main_v33, main_v34, main_v35]

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

theorem opsD_fresh : (opsD : List (HloOp τ sig (Elt F))).Forall fun op => op.fresh = ∅ :=
  ⟨rfl, rfl, rfl, rfl, rfl, rfl, rfl, rfl, rfl⟩

theorem opsD_wr : (opsD : List (HloOp τ sig (Elt F))).Forall fun op =>
    op.writes ⊆ (wrD.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide)⟩

/-- Operations 46 to 50: the joined row through the first edge layer's matrix, plus its bias. -/
def opsE : List (HloOp τ sig (Elt F)) :=
  [ nary ![main_v28, main_v35, main_v21] main_v36 (fun u => concatenate S600000x257 1 [⟨S600000x128, u 0⟩, ⟨S600000x128, u 1⟩, ⟨S600000x1, u 2⟩] concatenates_S600000x128_S600000x128_S600000x1_S600000x257_d1),
    binary main_v36 main_arg3 main_v37 ((fun l r => Host.dotGeneral dot_S600000x257_S257x128_S600000x128_1_0_0_1_n_n none l r) : (⟨S600000x257, .f32⟩ : BufTy).Contents (Elt F) → (⟨S257x128, .f32⟩ : BufTy).Contents (Elt F) → (⟨S600000x128, .f32⟩ : BufTy).Contents (Elt F)),
    unary main_arg4 main_v38 (broadcastInDim S1x128 ![1] bcast_S128_S1x128_1 : (⟨S128, .f32⟩ : BufTy).Contents (Elt F) → (⟨S1x128, .f32⟩ : BufTy).Contents (Elt F)),
    unary main_v38 main_v39 (broadcastInDim S600000x128 ![0, 1] bcast_S1x128_S600000x128_0_1 : (⟨S1x128, .f32⟩ : BufTy).Contents (Elt F) → (⟨S600000x128, .f32⟩ : BufTy).Contents (Elt F)),
    binary main_v37 main_v39 main_v40 (addf : (⟨S600000x128, .f32⟩ : BufTy).Contents (Elt F) → (⟨S600000x128, .f32⟩ : BufTy).Contents (Elt F) → (⟨S600000x128, .f32⟩ : BufTy).Contents (Elt F)) ]

/-- The buffers operations 46 to 50 write. -/
def wrE : List (Ref sig .tc) := [main_v36, main_v37, main_v38, main_v39, main_v40]

theorem opsE_sub : (opsE : List (HloOp τ sig (Elt F))).Forall fun op => op.bufs ⊆ tcRefs τ sig :=
  ⟨nary_bufs_sub .., binary_bufs_sub .., unary_bufs_sub .., unary_bufs_sub .., binary_bufs_sub ..⟩

theorem opsE_fresh : (opsE : List (HloOp τ sig (Elt F))).Forall fun op => op.fresh = ∅ :=
  ⟨rfl, rfl, rfl, rfl, rfl⟩

theorem opsE_wr : (opsE : List (HloOp τ sig (Elt F))).Forall fun op =>
    op.writes ⊆ (wrE.map (Proc.devRef (τ := τ) .tc)).toFinset :=
  ⟨writes_sub rfl (by decide), writes_sub rfl (by decide), writes_sub rfl (by decide), writes_sub rfl (by decide), writes_sub rfl (by decide)⟩

/-- Operations 51 to 63: the first activation, the second edge layer and its bias. -/
def opsF : List (HloOp τ sig (Elt F)) :=
  [ TRef.unary (TRef.of (T := ⟨S600000x128, .f32⟩) main_v40) (TRef.of (T := ⟨S600000x128, .f32⟩) main_call0_v0) Host.negf,
    TRef.unary (TRef.of (T := ⟨S600000x128, .f32⟩) main_call0_v0) (TRef.of (T := ⟨S600000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S600000x128, .f32⟩) main_call0_v2) (broadcastInDim S600000x128 ![] bcast_S_S600000x128),
    TRef.binary (TRef.of (T := ⟨S600000x128, .f32⟩) main_call0_v2) (TRef.of (T := ⟨S600000x128, .f32⟩) main_call0_v1) (TRef.of (T := ⟨S600000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S600000x128, .f32⟩) main_call0_v4) (broadcastInDim S600000x128 ![] bcast_S_S600000x128),
    TRef.binary (TRef.of (T := ⟨S600000x128, .f32⟩) main_call0_v4) (TRef.of (T := ⟨S600000x128, .f32⟩) main_call0_v3) (TRef.of (T := ⟨S600000x128, .f32⟩) main_call0_v5) Host.divf,
    TRef.binary (TRef.of (T := ⟨S600000x128, .f32⟩) main_v40) (TRef.of (T := ⟨S600000x128, .f32⟩) main_call0_v5) (TRef.of (T := ⟨S600000x128, .f32⟩) main_v41) mulf,
    binary main_v41 main_arg5 main_v42 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg6 main_v43 (broadcastInDim S1x128 ![1] bcast_S128_S1x128_1 : (⟨S128, .f32⟩ : BufTy).Contents (Elt F) → (⟨S1x128, .f32⟩ : BufTy).Contents (Elt F)),
    unary main_v43 main_v44 (broadcastInDim S600000x128 ![0, 1] bcast_S1x128_S600000x128_0_1 : (⟨S1x128, .f32⟩ : BufTy).Contents (Elt F) → (⟨S600000x128, .f32⟩ : BufTy).Contents (Elt F)),
    binary main_v42 main_v44 main_v45 (addf : (⟨S600000x128, .f32⟩ : BufTy).Contents (Elt F) → (⟨S600000x128, .f32⟩ : BufTy).Contents (Elt F) → (⟨S600000x128, .f32⟩ : BufTy).Contents (Elt F)) ]

/-- The buffers operations 51 to 63 write. -/
def wrF : List (Ref sig .tc) := [main_call0_v0, main_call0_v1, main_call0_cst, main_call0_v2, main_call0_v3, main_call0_cst_0, main_call0_v4, main_call0_v5, main_v41, main_v42, main_v43, main_v44, main_v45]

theorem opsF_sub : (opsF : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

theorem opsF_fresh : (opsF : List (HloOp τ sig (Elt F))).Forall fun op => op.fresh = ∅ :=
  ⟨rfl, rfl, rfl, rfl, rfl, rfl, rfl, rfl, rfl, rfl, rfl, rfl, rfl⟩

theorem opsF_wr : (opsF : List (HloOp τ sig (Elt F))).Forall fun op =>
    op.writes ⊆ (wrF.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- Operations 64 to 76: the second activation (the edge feature), the first coordinate layer and its bias. -/
def opsG : List (HloOp τ sig (Elt F)) :=
  [ TRef.unary (TRef.of (T := ⟨S600000x128, .f32⟩) main_v45) (TRef.of (T := ⟨S600000x128, .f32⟩) main_call1_v0) Host.negf,
    TRef.unary (TRef.of (T := ⟨S600000x128, .f32⟩) main_call1_v0) (TRef.of (T := ⟨S600000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S600000x128, .f32⟩) main_call1_v2) (broadcastInDim S600000x128 ![] bcast_S_S600000x128),
    TRef.binary (TRef.of (T := ⟨S600000x128, .f32⟩) main_call1_v2) (TRef.of (T := ⟨S600000x128, .f32⟩) main_call1_v1) (TRef.of (T := ⟨S600000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S600000x128, .f32⟩) main_call1_v4) (broadcastInDim S600000x128 ![] bcast_S_S600000x128),
    TRef.binary (TRef.of (T := ⟨S600000x128, .f32⟩) main_call1_v4) (TRef.of (T := ⟨S600000x128, .f32⟩) main_call1_v3) (TRef.of (T := ⟨S600000x128, .f32⟩) main_call1_v5) Host.divf,
    TRef.binary (TRef.of (T := ⟨S600000x128, .f32⟩) main_v45) (TRef.of (T := ⟨S600000x128, .f32⟩) main_call1_v5) (TRef.of (T := ⟨S600000x128, .f32⟩) main_v46) mulf,
    binary main_v46 main_arg11 main_v47 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg12 main_v48 (broadcastInDim S1x128 ![1] bcast_S128_S1x128_1 : (⟨S128, .f32⟩ : BufTy).Contents (Elt F) → (⟨S1x128, .f32⟩ : BufTy).Contents (Elt F)),
    unary main_v48 main_v49 (broadcastInDim S600000x128 ![0, 1] bcast_S1x128_S600000x128_0_1 : (⟨S1x128, .f32⟩ : BufTy).Contents (Elt F) → (⟨S600000x128, .f32⟩ : BufTy).Contents (Elt F)),
    binary main_v47 main_v49 main_v50 (addf : (⟨S600000x128, .f32⟩ : BufTy).Contents (Elt F) → (⟨S600000x128, .f32⟩ : BufTy).Contents (Elt F) → (⟨S600000x128, .f32⟩ : BufTy).Contents (Elt F)) ]

/-- The buffers operations 64 to 76 write. -/
def wrG : List (Ref sig .tc) := [main_call1_v0, main_call1_v1, main_call1_cst, main_call1_v2, main_call1_v3, main_call1_cst_0, main_call1_v4, main_call1_v5, main_v46, main_v47, main_v48, main_v49, main_v50]

theorem opsG_sub : (opsG : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

theorem opsG_fresh : (opsG : List (HloOp τ sig (Elt F))).Forall fun op => op.fresh = ∅ :=
  ⟨rfl, rfl, rfl, rfl, rfl, rfl, rfl, rfl, rfl, rfl, rfl, rfl, rfl⟩

theorem opsG_wr : (opsG : List (HloOp τ sig (Elt F))).Forall fun op =>
    op.writes ⊆ (wrG.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- Operations 77 to 88: the third activation, the coordinate weight, and the translation of each edge. -/
def opsH : List (HloOp τ sig (Elt F)) :=
  [ TRef.unary (TRef.of (T := ⟨S600000x128, .f32⟩) main_v50) (TRef.of (T := ⟨S600000x128, .f32⟩) main_call2_v0) Host.negf,
    TRef.unary (TRef.of (T := ⟨S600000x128, .f32⟩) main_call2_v0) (TRef.of (T := ⟨S600000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S600000x128, .f32⟩) main_call2_v2) (broadcastInDim S600000x128 ![] bcast_S_S600000x128),
    TRef.binary (TRef.of (T := ⟨S600000x128, .f32⟩) main_call2_v2) (TRef.of (T := ⟨S600000x128, .f32⟩) main_call2_v1) (TRef.of (T := ⟨S600000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S600000x128, .f32⟩) main_call2_v4) (broadcastInDim S600000x128 ![] bcast_S_S600000x128),
    TRef.binary (TRef.of (T := ⟨S600000x128, .f32⟩) main_call2_v4) (TRef.of (T := ⟨S600000x128, .f32⟩) main_call2_v3) (TRef.of (T := ⟨S600000x128, .f32⟩) main_call2_v5) Host.divf,
    TRef.binary (TRef.of (T := ⟨S600000x128, .f32⟩) main_v50) (TRef.of (T := ⟨S600000x128, .f32⟩) main_call2_v5) (TRef.of (T := ⟨S600000x128, .f32⟩) main_v51) mulf,
    binary main_v51 main_arg13 main_v52 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    unary main_v52 main_v53 (broadcastInDim S600000x3 ![0, 1] bcast_S600000x1_S600000x3_0_1 : (⟨S600000x1, .f32⟩ : BufTy).Contents (Elt F) → (⟨S600000x3, .f32⟩ : BufTy).Contents (Elt F)),
    binary main_v18 main_v53 main_v54 (mulf : (⟨S600000x3, .f32⟩ : BufTy).Contents (Elt F) → (⟨S600000x3, .f32⟩ : BufTy).Contents (Elt F) → (⟨S600000x3, .f32⟩ : BufTy).Contents (Elt F)) ]

/-- The buffers operations 77 to 88 write. -/
def wrH : List (Ref sig .tc) := [main_call2_v0, main_call2_v1, main_call2_cst, main_call2_v2, main_call2_v3, main_call2_cst_0, main_call2_v4, main_call2_v5, main_v51, main_v52, main_v53, main_v54]

theorem opsH_sub : (opsH : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub ..⟩

theorem opsH_fresh : (opsH : List (HloOp τ sig (Elt F))).Forall fun op => op.fresh = ∅ :=
  ⟨rfl, rfl, rfl, rfl, rfl, rfl, rfl, rfl, rfl, rfl, rfl, rfl⟩

theorem opsH_wr : (opsH : List (HloOp τ sig (Elt F))).Forall fun op =>
    op.writes ⊆ (wrH.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- Operations 89 to 104: the translations summed per node, the edge counts, and the new coordinates. -/
def opsI : List (HloOp τ sig (Elt F)) :=
  [ nullary main_cst_7 (constant S_ .f32 0x00000000#32),
    unary main_cst_7 main_v55 (broadcastInDim S50000x3 ![] bcast_S_S50000x3 : (⟨S_, .f32⟩ : BufTy).Contents (Elt F) → (⟨S50000x3, .f32⟩ : BufTy).Contents (Elt F)),
    unary main_v1 main_v56 (broadcastInDim S600000x1 ![0] bcast_S600000_S600000x1_0 : (⟨S600000, .i32⟩ : BufTy).Contents (Elt F) → (⟨S600000x1, .i32⟩ : BufTy).Contents (Elt F)),
    ternary main_v55 main_v56 main_v54 main_v57 ((fun x i u => Host.scatterAdd scatter_S50000x3_S600000x1_S600000x3_1_0_0_1 x i u) : (⟨S50000x3, .f32⟩ : BufTy).Contents (Elt F) → (⟨S600000x1, .i32⟩ : BufTy).Contents (Elt F) → (⟨S600000x3, .f32⟩ : BufTy).Contents (Elt F) → (⟨S50000x3, .f32⟩ : BufTy).Contents (Elt F)),
    nullary main_cst_8 (constant S_ .f32 0x3F800000#32),
    unary main_cst_8 main_v58 (broadcastInDim S600000x1 ![] bcast_S_S600000x1 : (⟨S_, .f32⟩ : BufTy).Contents (Elt F) → (⟨S600000x1, .f32⟩ : BufTy).Contents (Elt F)),
    nullary main_cst_9 (constant S_ .f32 0x00000000#32),
    unary main_cst_9 main_v59 (broadcastInDim S50000x1 ![] bcast_S_S50000x1 : (⟨S_, .f32⟩ : BufTy).Contents (Elt F) → (⟨S50000x1, .f32⟩ : BufTy).Contents (Elt F)),
    unary main_v1 main_v60 (broadcastInDim S600000x1 ![0] bcast_S600000_S600000x1_0 : (⟨S600000, .i32⟩ : BufTy).Contents (Elt F) → (⟨S600000x1, .i32⟩ : BufTy).Contents (Elt F)),
    ternary main_v59 main_v60 main_v58 main_v61 ((fun x i u => Host.scatterAdd scatter_S50000x1_S600000x1_S600000x1_1_0_0_1 x i u) : (⟨S50000x1, .f32⟩ : BufTy).Contents (Elt F) → (⟨S600000x1, .i32⟩ : BufTy).Contents (Elt F) → (⟨S600000x1, .f32⟩ : BufTy).Contents (Elt F) → (⟨S50000x1, .f32⟩ : BufTy).Contents (Elt F)),
    nullary main_cst_10 (constant S_ .f32 0x3F800000#32),
    unary main_cst_10 main_v62 (broadcastInDim S50000x1 ![] bcast_S_S50000x1 : (⟨S_, .f32⟩ : BufTy).Contents (Elt F) → (⟨S50000x1, .f32⟩ : BufTy).Contents (Elt F)),
    binary main_v61 main_v62 main_v63 (maximumf : (⟨S50000x1, .f32⟩ : BufTy).Contents (Elt F) → (⟨S50000x1, .f32⟩ : BufTy).Contents (Elt F) → (⟨S50000x1, .f32⟩ : BufTy).Contents (Elt F)),
    unary main_v63 main_v64 (broadcastInDim S50000x3 ![0, 1] bcast_S50000x1_S50000x3_0_1 : (⟨S50000x1, .f32⟩ : BufTy).Contents (Elt F) → (⟨S50000x3, .f32⟩ : BufTy).Contents (Elt F)),
    binary main_v57 main_v64 main_v65 (Host.divf : (⟨S50000x3, .f32⟩ : BufTy).Contents (Elt F) → (⟨S50000x3, .f32⟩ : BufTy).Contents (Elt F) → (⟨S50000x3, .f32⟩ : BufTy).Contents (Elt F)),
    binary main_arg1 main_v65 main_v66 (addf : (⟨S50000x3, .f32⟩ : BufTy).Contents (Elt F) → (⟨S50000x3, .f32⟩ : BufTy).Contents (Elt F) → (⟨S50000x3, .f32⟩ : BufTy).Contents (Elt F)) ]

/-- The buffers operations 89 to 104 write. -/
def wrI : List (Ref sig .tc) := [main_cst_7, main_v55, main_v56, main_v57, main_cst_8, main_v58, main_cst_9, main_v59, main_v60, main_v61, main_cst_10, main_v62, main_v63, main_v64, main_v65, main_v66]

theorem opsI_sub : (opsI : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub ..⟩

theorem opsI_fresh : (opsI : List (HloOp τ sig (Elt F))).Forall fun op => op.fresh = ∅ :=
  ⟨rfl, rfl, rfl, rfl, rfl, rfl, rfl, rfl, rfl, rfl, rfl, rfl, rfl, rfl, rfl, rfl⟩

theorem opsI_wr : (opsI : List (HloOp τ sig (Elt F))).Forall fun op =>
    op.writes ⊆ (wrI.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-- Operations 105 to 108: the edge features summed per node. -/
def opsJ : List (HloOp τ sig (Elt F)) :=
  [ nullary main_cst_11 (constant S_ .f32 0x00000000#32),
    unary main_cst_11 main_v67 (broadcastInDim S50000x128 ![] bcast_S_S50000x128 : (⟨S_, .f32⟩ : BufTy).Contents (Elt F) → (⟨S50000x128, .f32⟩ : BufTy).Contents (Elt F)),
    unary main_v1 main_v68 (broadcastInDim S600000x1 ![0] bcast_S600000_S600000x1_0 : (⟨S600000, .i32⟩ : BufTy).Contents (Elt F) → (⟨S600000x1, .i32⟩ : BufTy).Contents (Elt F)),
    ternary main_v67 main_v68 main_v46 main_v69 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- The buffers operations 105 to 108 write. -/
def wrJ : List (Ref sig .tc) := [main_cst_11, main_v67, main_v68, main_v69]

theorem opsJ_sub : (opsJ : List (HloOp τ sig (Elt F))).Forall fun op => op.bufs ⊆ tcRefs τ sig :=
  ⟨nullary_bufs_sub .., unary_bufs_sub .., unary_bufs_sub .., ternary_bufs_sub ..⟩

theorem opsJ_fresh : (opsJ : List (HloOp τ sig (Elt F))).Forall fun op => op.fresh = ∅ :=
  ⟨rfl, rfl, rfl, rfl⟩

theorem opsJ_wr : (opsJ : List (HloOp τ sig (Elt F))).Forall fun op =>
    op.writes ⊆ (wrJ.map (Proc.devRef (τ := τ) .tc)).toFinset :=
  ⟨writes_sub rfl (by decide), writes_sub rfl (by decide), writes_sub rfl (by decide), writes_sub rfl (by decide)⟩

/-- Operations 109 to 113: the node's joined row through the first node layer's matrix, plus its bias. -/
def opsK : List (HloOp τ sig (Elt F)) :=
  [ binary main_arg0 main_v69 main_v70 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v70 main_arg7 main_v71 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg8 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)) ]

/-- The buffers operations 109 to 113 write. -/
def wrK : List (Ref sig .tc) := [main_v70, main_v71, main_v72, main_v73, main_v74]

theorem opsK_sub : (opsK : List (HloOp τ sig (Elt F))).Forall fun op => op.bufs ⊆ tcRefs τ sig :=
  ⟨binary_bufs_sub .., binary_bufs_sub .., unary_bufs_sub .., unary_bufs_sub .., binary_bufs_sub ..⟩

theorem opsK_fresh : (opsK : List (HloOp τ sig (Elt F))).Forall fun op => op.fresh = ∅ :=
  ⟨rfl, rfl, rfl, rfl, rfl⟩

theorem opsK_wr : (opsK : List (HloOp τ sig (Elt F))).Forall fun op =>
    op.writes ⊆ (wrK.map (Proc.devRef (τ := τ) .tc)).toFinset :=
  ⟨writes_sub rfl (by decide), writes_sub rfl (by decide), writes_sub rfl (by decide), writes_sub rfl (by decide), writes_sub rfl (by decide)⟩

/-- Operations 114 to 127: the node activation, the second node layer, its bias and the residual. -/
def opsL : List (HloOp τ sig (Elt F)) :=
  [ TRef.unary (TRef.of (T := ⟨S50000x128, .f32⟩) main_v74) (TRef.of (T := ⟨S50000x128, .f32⟩) main_call3_v0) Host.negf,
    TRef.unary (TRef.of (T := ⟨S50000x128, .f32⟩) main_call3_v0) (TRef.of (T := ⟨S50000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S50000x128, .f32⟩) main_call3_v2) (broadcastInDim S50000x128 ![] bcast_S_S50000x128),
    TRef.binary (TRef.of (T := ⟨S50000x128, .f32⟩) main_call3_v2) (TRef.of (T := ⟨S50000x128, .f32⟩) main_call3_v1) (TRef.of (T := ⟨S50000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S50000x128, .f32⟩) main_call3_v4) (broadcastInDim S50000x128 ![] bcast_S_S50000x128),
    TRef.binary (TRef.of (T := ⟨S50000x128, .f32⟩) main_call3_v4) (TRef.of (T := ⟨S50000x128, .f32⟩) main_call3_v3) (TRef.of (T := ⟨S50000x128, .f32⟩) main_call3_v5) Host.divf,
    TRef.binary (TRef.of (T := ⟨S50000x128, .f32⟩) main_v74) (TRef.of (T := ⟨S50000x128, .f32⟩) main_call3_v5) (TRef.of (T := ⟨S50000x128, .f32⟩) main_v75) mulf,
    binary main_v75 main_arg9 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    binary main_arg0 main_v79 main_v80 (addf : (⟨S50000x128, .f32⟩ : BufTy).Contents (Elt F) → (⟨S50000x128, .f32⟩ : BufTy).Contents (Elt F) → (⟨S50000x128, .f32⟩ : BufTy).Contents (Elt F)) ]

/-- The buffers operations 114 to 127 write. -/
def wrL : List (Ref sig .tc) := [main_call3_v0, main_call3_v1, main_call3_cst, main_call3_v2, main_call3_v3, main_call3_cst_0, main_call3_v4, main_call3_v5, main_v75, main_v76, main_v77, main_v78, main_v79, main_v80]

theorem opsL_sub : (opsL : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub ..⟩

theorem opsL_fresh : (opsL : List (HloOp τ sig (Elt F))).Forall fun op => op.fresh = ∅ :=
  ⟨rfl, rfl, rfl, rfl, rfl, rfl, rfl, rfl, rfl, rfl, rfl, rfl, rfl, rfl⟩

theorem opsL_wr : (opsL : List (HloOp τ sig (Elt F))).Forall fun op =>
    op.writes ⊆ (wrL.map (Proc.devRef (τ := τ) .tc)).toFinset :=
  ⟨writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide), writes_sub rfl (by decide)⟩

/-! ## The whole line -/

/-- @main's 127 operations, in order: the twelve stretches in a row. -/
abbrev ops : List (HloOp τ sig (Elt F)) :=
  opsA ++ opsB ++ opsC ++ opsD ++ opsE ++ opsF ++ opsG ++ opsH ++ opsI ++ opsJ ++ opsK ++ opsL

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## What each stretch writes, from what it reads

Each lemma: unfold the stretch, compute every operation's result at the buffer asked for (a buffer the stretch reads
and does not write is left as the contents before it), rewrite those contents by what they are known to hold, and
compare with the stage by unfolding it down to the stages the stretch began from. -/

section Values

variable {V : Valuation τ sig (Elt F)}
  {x0 : (⟨S50000x128, .f32⟩ : BufTy).Contents (Elt F)} {x1 : (⟨S50000x3, .f32⟩ : BufTy).Contents (Elt F)}
  {x2 : (⟨S2x600000, .i32⟩ : BufTy).Contents (Elt F)} {x3 : (⟨S257x128, .f32⟩ : BufTy).Contents (Elt F)}
  {x4 : (⟨S128, .f32⟩ : BufTy).Contents (Elt F)} {x5 : (⟨S128x128, .f32⟩ : BufTy).Contents (Elt F)}
  {x6 : (⟨S128, .f32⟩ : BufTy).Contents (Elt F)} {x7 : (⟨S256x128, .f32⟩ : BufTy).Contents (Elt F)}
  {x8 : (⟨S128, .f32⟩ : BufTy).Contents (Elt F)} {x9 : (⟨S128x128, .f32⟩ : BufTy).Contents (Elt F)}
  {x10 : (⟨S128, .f32⟩ : BufTy).Contents (Elt F)} {x11 : (⟨S128x128, .f32⟩ : BufTy).Contents (Elt F)}
  {x12 : (⟨S128, .f32⟩ : BufTy).Contents (Elt F)} {x13 : (⟨S128x1, .f32⟩ : BufTy).Contents (Elt F)}

/-- The first index row (each edge's first node). -/
theorem A_v1 (h2 : V main_arg2 = x2) : after opsA V main_v1 = val_main_v1 x2 := by
  unfold opsA; after_results_simp; rw [h2]; rfl

/-- The second index row (each edge's second node). -/
theorem A_v3 (h2 : V main_arg2 = x2) : after opsA V main_v3 = val_main_v3 x2 := by
  unfold opsA; after_results_simp; rw [h2]; rfl

/-- The coordinates of each edge's first node. -/
theorem A_v10 (h1 : V main_arg1 = x1) (h2 : V main_arg2 = x2) : after opsA V main_v10 = val_main_v10 x1 x2 := by
  unfold opsA; after_results_simp; rw [h1, h2]; rfl

/-- The coordinate difference of each edge. -/
theorem B_v18 (h1 : V main_arg1 = x1) (h3 : V main_v3 = val_main_v3 x2) (h10 : V main_v10 = val_main_v10 x1 x2) :
    after opsB V main_v18 = val_main_v18 x1 x2 := by
  unfold opsB; after_results_simp; rw [h1, h3, h10]; rfl

/-- The squared length of each edge's coordinate difference, as a column. -/
theorem B_v21 (h1 : V main_arg1 = x1) (h3 : V main_v3 = val_main_v3 x2) (h10 : V main_v10 = val_main_v10 x1 x2) :
    after opsB V main_v21 = val_main_v21 x1 x2 := by
  unfold opsB; after_results_simp; rw [h1, h3, h10]; rfl

/-- The features of each edge's first node. -/
theorem C_v28 (h0 : V main_arg0 = x0) (hv1 : V main_v1 = val_main_v1 x2) :
    after opsC V main_v28 = val_main_v28 x0 x2 := by
  unfold opsC; after_results_simp; rw [h0, hv1]; rfl

/-- The features of each edge's second node. -/
theorem D_v35 (h0 : V main_arg0 = x0) (h3 : V main_v3 = val_main_v3 x2) :
    after opsD V main_v35 = val_main_v35 x0 x2 := by
  unfold opsD; after_results_simp; rw [h0, h3]; rfl

/-- The first edge layer before its activation: the joined row (first node's features, second node's features,
    squared length) through the matrix, plus the bias. -/
theorem E_v40 (h28 : V main_v28 = val_main_v28 x0 x2) (h35 : V main_v35 = val_main_v35 x0 x2)
    (h21 : V main_v21 = val_main_v21 x1 x2) (h3 : V main_arg3 = x3) (h4 : V main_arg4 = x4) :
    after opsE V main_v40 = val_main_v40 x0 x1 x2 x3 x4 := by
  have e : after opsE V main_v40
      = addf (Host.dotGeneral dot_S600000x257_S257x128_S600000x128_1_0_0_1_n_n none
          (concatenate S600000x257 1 [⟨S600000x128, V main_v28⟩, ⟨S600000x128, V main_v35⟩, ⟨S600000x1, V main_v21⟩]
            concatenates_S600000x128_S600000x128_S600000x1_S600000x257_d1) (V main_arg3))
        (broadcastInDim S600000x128 ![0, 1] bcast_S1x128_S600000x128_0_1
          (broadcastInDim S1x128 ![1] bcast_S128_S1x128_1 (V main_arg4))) := by
    unfold opsE; after_results_simp <;> rfl
  rw [e, h28, h35, h21, h3, h4]; rfl

/-- The second edge layer before its activation. -/
theorem F_v45 (h40 : V main_v40 = val_main_v40 x0 x1 x2 x3 x4) (h5 : V main_arg5 = x5) (h6 : V main_arg6 = x6) :
    after opsF V main_v45 = val_main_v45 x0 x1 x2 x3 x4 x5 x6 := by
  unfold opsF; after_results_simp; rw [h40, h5, h6]; rfl

/-- The edge feature. -/
theorem G_v46 (h45 : V main_v45 = val_main_v45 x0 x1 x2 x3 x4 x5 x6) :
    after opsG V main_v46 = val_main_v46 x0 x1 x2 x3 x4 x5 x6 := by
  unfold opsG; after_results_simp; rw [h45]; rfl

/-- The first coordinate layer before its activation. -/
theorem G_v50 (h45 : V main_v45 = val_main_v45 x0 x1 x2 x3 x4 x5 x6) (h11 : V main_arg11 = x11)
    (h12 : V main_arg12 = x12) :
    after opsG V main_v50 = val_main_v50 x0 x1 x2 x3 x4 x5 x6 x11 x12 := by
  unfold opsG; after_results_simp; rw [h45, h11, h12]; rfl

/-- The translation of each edge: its coordinate difference scaled by its coordinate weight. -/
theorem H_v54 (h50 : V main_v50 = val_main_v50 x0 x1 x2 x3 x4 x5 x6 x11 x12) (h13 : V main_arg13 = x13)
    (h18 : V main_v18 = val_main_v18 x1 x2) :
    after opsH V main_v54 = val_main_v54 x0 x1 x2 x3 x4 x5 x6 x11 x12 x13 := by
  unfold opsH; after_results_simp; rw [h50, h13, h18]; rfl

/-- The new coordinates: the mean translation added. -/
theorem I_v66 (h1 : V main_arg1 = x1) (hv1 : V main_v1 = val_main_v1 x2)
    (h54 : V main_v54 = val_main_v54 x0 x1 x2 x3 x4 x5 x6 x11 x12 x13) :
    after opsI V main_v66 = val_main_v66 x0 x1 x2 x3 x4 x5 x6 x11 x12 x13 := by
  unfold opsI; after_results_simp; rw [h1, hv1, h54]; rfl

/-- The edge features summed per node. -/
theorem J_v69 (hv1 : V main_v1 = val_main_v1 x2) (h46 : V main_v46 = val_main_v46 x0 x1 x2 x3 x4 x5 x6) :
    after opsJ V main_v69 = val_main_v69 x0 x1 x2 x3 x4 x5 x6 := by
  unfold opsJ; after_results_simp; rw [hv1, h46]; rfl

/-- The first node layer before its activation. -/
theorem K_v74 (h0 : V main_arg0 = x0) (h69 : V main_v69 = val_main_v69 x0 x1 x2 x3 x4 x5 x6)
    (h7 : V main_arg7 = x7) (h8 : V main_arg8 = x8) :
    after opsK V main_v74 = val_main_v74 x0 x1 x2 x3 x4 x5 x6 x7 x8 := by
  unfold opsK; after_results_simp; rw [h0, h69, h7, h8]; rfl

/-- The new features: the residual plus the second node layer. -/
theorem L_v80 (h0 : V main_arg0 = x0) (h74 : V main_v74 = val_main_v74 x0 x1 x2 x3 x4 x5 x6 x7 x8)
    (h9 : V main_arg9 = x9) (h10 : V main_arg10 = x10) :
    after opsL V main_v80 = val_main_v80 x0 x1 x2 x3 x4 x5 x6 x7 x8 x9 x10 := by
  unfold opsL; after_results_simp; rw [h0, h74, h9, h10]; rfl

end Values

/-! ## The line from its launch contents -/

section Chain

variable (x0 : (⟨S50000x128, .f32⟩ : BufTy).Contents (Elt F)) (x1 : (⟨S50000x3, .f32⟩ : BufTy).Contents (Elt F))
  (x2 : (⟨S2x600000, .i32⟩ : BufTy).Contents (Elt F)) (x3 : (⟨S257x128, .f32⟩ : BufTy).Contents (Elt F))
  (x4 : (⟨S128, .f32⟩ : BufTy).Contents (Elt F)) (x5 : (⟨S128x128, .f32⟩ : BufTy).Contents (Elt F))
  (x6 : (⟨S128, .f32⟩ : BufTy).Contents (Elt F)) (x7 : (⟨S256x128, .f32⟩ : BufTy).Contents (Elt F))
  (x8 : (⟨S128, .f32⟩ : BufTy).Contents (Elt F)) (x9 : (⟨S128x128, .f32⟩ : BufTy).Contents (Elt F))
  (x10 : (⟨S128, .f32⟩ : BufTy).Contents (Elt F)) (x11 : (⟨S128x128, .f32⟩ : BufTy).Contents (Elt F))
  (x12 : (⟨S128, .f32⟩ : BufTy).Contents (Elt F)) (x13 : (⟨S128x1, .f32⟩ : BufTy).Contents (Elt F))

/-- The fourteen argument buffers hold `x0 … x13`. -/
structure Args (V : Valuation τ sig (Elt F)) : Prop where
  a0 : V main_arg0 = x0
  a1 : V main_arg1 = x1
  a2 : V main_arg2 = x2
  a3 : V main_arg3 = x3
  a4 : V main_arg4 = x4
  a5 : V main_arg5 = x5
  a6 : V main_arg6 = x6
  a7 : V main_arg7 = x7
  a8 : V main_arg8 = x8
  a9 : V main_arg9 = x9
  a10 : V main_arg10 = x10
  a11 : V main_arg11 = x11
  a12 : V main_arg12 = x12
  a13 : V main_arg13 = x13

variable {x0 x1 x2 x3 x4 x5 x6 x7 x8 x9 x10 x11 x12 x13}

/-- A stretch that writes no argument leaves the arguments holding what they held. -/
theorem Args.step {ops : List (HloOp τ sig (Elt F))} {L : List (Ref sig .tc)} {V : Valuation τ sig (Elt F)}
    (hW : ops.Forall fun op => op.writes ⊆ (L.map (Proc.devRef (τ := τ) .tc)).toFinset)
    (hL : ∀ r ∈ [main_arg0, main_arg1, main_arg2, main_arg3, main_arg4, main_arg5, main_arg6, main_arg7, main_arg8,
      main_arg9, main_arg10, main_arg11, main_arg12, main_arg13], r ∉ L)
    (h : Args x0 x1 x2 x3 x4 x5 x6 x7 x8 x9 x10 x11 x12 x13 V) :
    Args x0 x1 x2 x3 x4 x5 x6 x7 x8 x9 x10 x11 x12 x13 (after ops V) where
  a0 := keep hW (hL main_arg0 (by decide)) h.a0
  a1 := keep hW (hL main_arg1 (by decide)) h.a1
  a2 := keep hW (hL main_arg2 (by decide)) h.a2
  a3 := keep hW (hL main_arg3 (by decide)) h.a3
  a4 := keep hW (hL main_arg4 (by decide)) h.a4
  a5 := keep hW (hL main_arg5 (by decide)) h.a5
  a6 := keep hW (hL main_arg6 (by decide)) h.a6
  a7 := keep hW (hL main_arg7 (by decide)) h.a7
  a8 := keep hW (hL main_arg8 (by decide)) h.a8
  a9 := keep hW (hL main_arg9 (by decide)) h.a9
  a10 := keep hW (hL main_arg10 (by decide)) h.a10
  a11 := keep hW (hL main_arg11 (by decide)) h.a11
  a12 := keep hW (hL main_arg12 (by decide)) h.a12
  a13 := keep hW (hL main_arg13 (by decide)) h.a13

/-- After the whole line the three results hold their stages of the arguments, and the arguments are unchanged:
    stretch by stretch, each buffer a later stretch reads carried across the stretches between. -/
theorem after_ops {V : Valuation τ sig (Elt F)} (h : Args x0 x1 x2 x3 x4 x5 x6 x7 x8 x9 x10 x11 x12 x13 V) :
    after ops V main_v80 = val_main_v80 x0 x1 x2 x3 x4 x5 x6 x7 x8 x9 x10
    ∧ after ops V main_v66 = val_main_v66 x0 x1 x2 x3 x4 x5 x6 x11 x12 x13
    ∧ after ops V main_v46 = val_main_v46 x0 x1 x2 x3 x4 x5 x6
    ∧ Args x0 x1 x2 x3 x4 x5 x6 x7 x8 x9 x10 x11 x12 x13 (after ops V) := by
  simp only [ops, after_append]
  -- the index rows and the first node's coordinates
  have gA := h.step opsA_wr (by decide)
  have v1A := A_v1 h.a2
  have v3A := A_v3 h.a2
  have v10A := A_v10 h.a1 h.a2
  -- the coordinate difference and its squared length
  have gB := gA.step opsB_wr (by decide)
  have v1B := keep opsB_wr (by decide) v1A
  have v3B := keep opsB_wr (by decide) v3A
  have v18B := B_v18 gA.a1 v3A v10A
  have v21B := B_v21 gA.a1 v3A v10A
  -- the first node's features
  have gC := gB.step opsC_wr (by decide)
  have v1C := keep opsC_wr (by decide) v1B
  have v3C := keep opsC_wr (by decide) v3B
  have v18C := keep opsC_wr (by decide) v18B
  have v21C := keep opsC_wr (by decide) v21B
  have v28C := C_v28 gB.a0 v1B
  -- the second node's features
  have gD := gC.step opsD_wr (by decide)
  have v1D := keep opsD_wr (by decide) v1C
  have v18D := keep opsD_wr (by decide) v18C
  have v21D := keep opsD_wr (by decide) v21C
  have v28D := keep opsD_wr (by decide) v28C
  have v35D := D_v35 gC.a0 v3C
  -- the first edge layer
  have gE := gD.step opsE_wr (by decide)
  have v1E := keep opsE_wr (by decide) v1D
  have v18E := keep opsE_wr (by decide) v18D
  have v40E := E_v40 v28D v35D v21D gD.a3 gD.a4
  -- the second edge layer
  have gF := gE.step opsF_wr (by decide)
  have v1F := keep opsF_wr (by decide) v1E
  have v18F := keep opsF_wr (by decide) v18E
  have v45F := F_v45 v40E gE.a5 gE.a6
  -- the edge feature and the first coordinate layer
  have gG := gF.step opsG_wr (by decide)
  have v1G := keep opsG_wr (by decide) v1F
  have v18G := keep opsG_wr (by decide) v18F
  have v46G := G_v46 v45F
  have v50G := G_v50 v45F gF.a11 gF.a12
  -- the translations
  have gH := gG.step opsH_wr (by decide)
  have v1H := keep opsH_wr (by decide) v1G
  have v46H := keep opsH_wr (by decide) v46G
  have v54H := H_v54 v50G gG.a13 v18G
  -- the new coordinates
  have gI := gH.step opsI_wr (by decide)
  have v1I := keep opsI_wr (by decide) v1H
  have v46I := keep opsI_wr (by decide) v46H
  have v66I := I_v66 gH.a1 v1H v54H
  -- the summed edge features
  have gJ := gI.step opsJ_wr (by decide)
  have v46J := keep opsJ_wr (by decide) v46I
  have v66J := keep opsJ_wr (by decide) v66I
  have v69J := J_v69 v1I v46I
  -- the first node layer
  have gK := gJ.step opsK_wr (by decide)
  have v46K := keep opsK_wr (by decide) v46J
  have v66K := keep opsK_wr (by decide) v66J
  have v74K := K_v74 gJ.a0 v69J gJ.a7 gJ.a8
  -- the new features
  have gL := gK.step opsL_wr (by decide)
  have v46L := keep opsL_wr (by decide) v46K
  have v66L := keep opsL_wr (by decide) v66K
  have v80L := L_v80 gK.a0 v74K gK.a9 gK.a10
  exact ⟨v80L, v66L, v46L, gL⟩

end Chain

/-! ## The run -/

/-- Joining two stretches keeps a property every operation of each has. -/
theorem forall_app {p : HloOp τ sig (Elt F) → Prop} {l₁ l₂ : List (HloOp τ sig (Elt F))}
    (h₁ : l₁.Forall p) (h₂ : l₂.Forall p) : (l₁ ++ l₂).Forall p :=
  List.forall_append.2 ⟨h₁, h₂⟩

theorem ops_sub : (ops : List (HloOp τ sig (Elt F))).Forall fun op => op.bufs ⊆ tcRefs τ sig :=
  forall_app (forall_app (forall_app (forall_app (forall_app (forall_app (forall_app (forall_app (forall_app (forall_app
    (forall_app opsA_sub opsB_sub) opsC_sub) opsD_sub) opsE_sub) opsF_sub) opsG_sub) opsH_sub) opsI_sub) opsJ_sub)
    opsK_sub) opsL_sub

theorem ops_fresh : (ops : List (HloOp τ sig (Elt F))).Forall fun op => op.fresh = ∅ :=
  forall_app (forall_app (forall_app (forall_app (forall_app (forall_app (forall_app (forall_app (forall_app (forall_app
    (forall_app opsA_fresh opsB_fresh) opsC_fresh) opsD_fresh) opsE_fresh) opsF_fresh) opsG_fresh) opsH_fresh) opsI_fresh)
    opsJ_fresh) opsK_fresh) opsL_fresh

/-- On every device, for any float values, from any memory with zero counters: every weakly fair execution of
    @main terminates with the three results at their stages of the arguments' launch contents, and the arguments
    unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v80) = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13))
      ∧ r.2.mem ((c.tc : Thread nD τ).loc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      have H := after_ops (V := launchContents m c)
        (⟨rfl, rfl, rfl, rfl, rfl, rfl, rfl, rfl, rfl, rfl, rfl, rfl, rfl, rfl⟩ :
          Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (launchContents m c))
      exact ⟨(h c main_v80).trans H.1, (h c main_v66).trans H.2.1, (h c main_v46).trans H.2.2.1,
        (h c main_arg0).trans H.2.2.2.a0, (h c main_arg1).trans H.2.2.2.a1, (h c main_arg2).trans H.2.2.2.a2,
        (h c main_arg3).trans H.2.2.2.a3, (h c main_arg4).trans H.2.2.2.a4, (h c main_arg5).trans H.2.2.2.a5,
        (h c main_arg6).trans H.2.2.2.a6, (h c main_arg7).trans H.2.2.2.a7, (h c main_arg8).trans H.2.2.2.a8,
        (h c main_arg9).trans H.2.2.2.a9, (h c main_arg10).trans H.2.2.2.a10, (h c main_arg11).trans H.2.2.2.a11,
        (h c main_arg12).trans H.2.2.2.a12, (h c main_arg13).trans H.2.2.2.a13⟩)
    (run_seq scopedRefs_eq scopedSems_eq defs main (fun _ => ops) main_eq (fun _ => ops_sub) m ρ
      (fun _ => List.forall_iff_forall_mem.1 ops_fresh))

/-- The run on the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v66) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13))
      ∧ r.2.mem ((c.tc : Thread nD τ).loc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  run_gen (F := Ideal) m ρ

end Cert.ReferenceIdeal.StageRun

end
-- ==== Proof.Spec.lean ====
/-
  One layer of an E(n)-equivariant graph convolution, written row by row on the extended reals.

  For an edge `e` from node `r` to node `c` the layer reads the two feature rows `h r`, `h c` (128 numbers each) and the
  coordinate difference `x r - x c` (3 numbers).  With `silu x = x · σ(x)`, σ the logistic function,
    • the hidden row is  `silu (h r · Wa + h c · Wb + ‖x r - x c‖² · wc + b₁)`,
    • the edge feature is  `silu (hidden · W₂ + b₂)`,
    • the coordinate weight is the number  `silu (feature · Wc₁ + bc₁) · wc₂`,
    • the translation is the coordinate difference scaled by that weight.
  For a node the layer reads its feature row, the sum `agg` of the features of the edges leaving it, the sum `ts` of
  their translations and their number `cnt`:
    • the new feature row is  `h + (silu (h · Wa + agg · Wb + b₁) · W₂ + b₂)`,
    • the new coordinates are  `x + ts / max cnt 1`.
  A matrix of 257 (or 256) rows applied to a concatenated row is the sum of its row blocks applied to the pieces:
  `sum_split257`, `sum_split256` — a regrouping of a finite sum, valid in any commutative additive monoid, so also on the
  extended reals with their infinities.
-/
import Idealize.ShloMosaic.PureOps.Ideal
import Mathlib.Algebra.BigOperators.Fin

noncomputable section

namespace Cert.Egcl

open Idealize.ShloMosaic

/-- `x · σ(x)`. -/
def silu (x : EReal) : EReal := x * Ideal.logistic x

/-- The first edge layer before its activation, at hidden unit `k`: the two feature rows through their blocks of the
    weight matrix, the squared length of the coordinate difference through the last weight row, and the bias. -/
def edgePre (hr hc : Fin 128 → EReal) (cd : Fin 3 → EReal) (wa wb : Fin 128 → Fin 128 → EReal) (wc b1 : Fin 128 → EReal)
    (k : Fin 128) : EReal :=
  (∑ i : Fin 128, hr i * wa i k) + (∑ i : Fin 128, hc i * wb i k) + (∑ d : Fin 3, cd d * cd d) * wc k + b1 k

/-- The edge feature at unit `j`. -/
def edgeFeat (hr hc : Fin 128 → EReal) (cd : Fin 3 → EReal) (wa wb : Fin 128 → Fin 128 → EReal) (wc b1 : Fin 128 → EReal)
    (w2 : Fin 128 → Fin 128 → EReal) (b2 : Fin 128 → EReal) (j : Fin 128) : EReal :=
  silu ((∑ k : Fin 128, silu (edgePre hr hc cd wa wb wc b1 k) * w2 k j) + b2 j)

/-- The coordinate weight of an edge, from its feature row. -/
def coordWeight (ef : Fin 128 → EReal) (wc1 : Fin 128 → Fin 128 → EReal) (bc1 wc2 : Fin 128 → EReal) : EReal :=
  ∑ k : Fin 128, silu ((∑ i : Fin 128, ef i * wc1 i k) + bc1 k) * wc2 k

/-- The translation an edge contributes, at coordinate `d`. -/
def edgeTrans (cd : Fin 3 → EReal) (ef : Fin 128 → EReal) (wc1 : Fin 128 → Fin 128 → EReal) (bc1 wc2 : Fin 128 → EReal)
    (d : Fin 3) : EReal :=
  cd d * coordWeight ef wc1 bc1 wc2

/-- A node's new feature at unit `j`: the residual row `h` plus the two-layer map of the row `hb` (the same features, as
    the matrix product reads them) and the aggregated edge features. -/
def nodeFeat (h hb agg : Fin 128 → EReal) (wa wb : Fin 128 → Fin 128 → EReal) (b1 : Fin 128 → EReal)
    (w2 : Fin 128 → Fin 128 → EReal) (b2 : Fin 128 → EReal) (j : Fin 128) : EReal :=
  h j + ((∑ k : Fin 128, silu ((∑ i : Fin 128, hb i * wa i k) + (∑ i : Fin 128, agg i * wb i k) + b1 k) * w2 k j) + b2 j)

/-- A node's new coordinate `d`: the mean translation (the sum over `max cnt one`) added. -/
def nodeCoord (x ts : Fin 3 → EReal) (cnt one : EReal) (d : Fin 3) : EReal :=
  x d + Ideal.div (ts d) (max cnt one)

/-- A sum over 256 terms is the sum of its two halves. -/
theorem sum_split256 {M : Type*} [AddCommMonoid M] (f : Fin 256 → M) :
    ∑ i : Fin 256, f i = (∑ i : Fin 128, f ⟨i.val, by omega⟩) + (∑ i : Fin 128, f ⟨128 + i.val, by omega⟩) := by
  exact Fin.sum_univ_add (a := 128) (b := 128) (f := (f : Fin (128 + 128) → M))

/-- A sum over 257 terms is the sum of two blocks of 128 and the last term. -/
theorem sum_split257 {M : Type*} [AddCommMonoid M] (f : Fin 257 → M) :
    ∑ i : Fin 257, f i
      = (∑ i : Fin 128, f ⟨i.val, by omega⟩) + (∑ i : Fin 128, f ⟨128 + i.val, by omega⟩) + f ⟨256, by omega⟩ := by
  have h := Fin.sum_univ_castSucc (M := M) (n := 256) f
  rw [h, sum_split256 (fun i : Fin 256 => f (Fin.castSucc i))]
  rfl

/-- The float word of `1.0` is the number one. -/
theorem ofBits_one_f32 : Ideal.ofBits .f32 0x3F800000#32 = 1 := by
  simp [Ideal.ofBits, Ideal.ieee, -EReal.coe_mul]
  norm_num

/-- `silu` spelt with its logistic expanded, the ones as float words: `x · (1 / (1 + e⁻ˣ))`. -/
theorem silu_expanded (x : EReal) :
    x * Ideal.div (Ideal.ofBits .f32 0x3F800000#32) (Ideal.ofBits .f32 0x3F800000#32 + Ideal.exp (-x)) = silu x := by
  rw [ofBits_one_f32]; rfl

end Cert.Egcl

end
-- ==== Proof.EdgeRegion.lean ====
/-
  The edge kernel's region, read as values on the extended reals.  The region walks the 600000 edges in 150 blocks of
  4000 rows; point `t` loads rows `4000 t … 4000 t + 3999` of the two gathered feature arrays and of the coordinate
  differences, the weight arrays whole, and writes back the same rows of the edge features (window 12) and of the
  translations (window 13).  Each written row depends only on the same row of the inputs, so after the last point the
  two output arrays hold, row by row, `Egcl.edgeFeat` and `Egcl.edgeTrans` of the input arrays' rows.
-/
import proofs.«167930_j21560735826057_1_alg».proof.Proof.Gen.KernelIdeal.Frame
import proofs.«167930_j21560735826057_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## Layout operations read at an index -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The products: a matrix product into the zero array, read at an index -/

theorem lhs_sq_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_sq_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_sq_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_sq_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] x [128,128] product into the zero array, at (p, q): the sum over the shared axis. -/
theorem matmul_sq_apply (lhs : FVec Ideal S4000x128 .bf16) (rhs : FVec Ideal S128x128 .bf16) (p : Fin 4000) (q : Fin 128) :
    matmul dot_S4000x128_S128x128_S4000x128_1_0_0_1_n_n none lhs rhs (constant (F := Ideal) S4000x128 .f32 0x00000000#32) (ix2 p q)
      = ∑ k : Fin 128, lhs (ix2 p k) * rhs (ix2 k q) := by
  refine (Ideal.matmul_constant_zero_apply dot_S4000x128_S128x128_S4000x128_1_0_0_1_n_n none lhs rhs (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_sq_0 _ _).trans hk
    | ⟨1, _⟩ => exact rhs_sq_1 _ _)
  rw [el, er]

theorem lhs_col_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_col_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_col_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_col_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- A [4000,128] x [128,1] product into the zero array, at (p, u): the sum over the shared axis. -/
theorem matmul_col_apply (lhs : FVec Ideal S4000x128 .bf16) (rhs : FVec Ideal S128x1 .bf16) (p : Fin 4000) (u : Fin 1) :
    matmul dot_S4000x128_S128x1_S4000x1_1_0_0_1_n_n none lhs rhs (constant (F := Ideal) S4000x1 .f32 0x00000000#32) (ix2 p u)
      = ∑ k : Fin 128, lhs (ix2 p k) * rhs (ix2 k u) := by
  refine (Ideal.matmul_constant_zero_apply dot_S4000x128_S128x1_S4000x1_1_0_0_1_n_n none lhs rhs (ix2 p u)).trans ?_
  rw [← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p u) ((ValueIdx.contrEquiv1 dot_S4000x128_S128x1_S4000x1_1_0_0_1_n_n 128 rfl rfl).symm k) = ix2 p k := funext fun a => Fin.ext (by
    match a with
    | ⟨0, _⟩ => exact lhs_col_0 _ _
    | ⟨1, _⟩ => exact (lhs_col_1 _ _).trans hk)
  have er : dot_S4000x128_S128x1_S4000x1_1_0_0_1_n_n.rhsIdx (ix2 p u) ((ValueIdx.contrEquiv1 dot_S4000x128_S128x1_S4000x1_1_0_0_1_n_n 128 rfl rfl).symm k) = ix2 k u := funext fun a => Fin.ext (by
    match a with
    | ⟨0, _⟩ => exact (rhs_col_0 _ _).trans hk
    | ⟨1, _⟩ => exact rhs_col_1 _ _)
  rw [el, er]

/-! ## The sum over the three coordinates -/

/-- The sum of a [4000, 3] array over its second axis, at row p. -/
theorem laneSum_apply (src : FVec Ideal S4000x3 .f32) (hφ : FKind.Formats FTy.f32)
    (hacc : (0x00000000#32 : BitVec FTy.f32.bits) = 0x00000000#32) (p : Fin 4000) :
    multiReduction (F := Ideal) .add [1] S4000 src 0x00000000#32 reduces_S4000x3_S4000 hφ hacc (ix1 p)
      = ∑ d : Fin 3, src (ix2 p d) := by
  refine (Ideal.multiReduction_add_single src 0x00000000#32 reduces_S4000x3_S4000 hφ hacc (ix1 p)).trans ?_
  refine Finset.sum_congr rfl fun d _ => congrArg src ?_
  funext a
  apply Fin.ext
  match a with
  | ⟨0, _⟩ => rfl
  | ⟨1, _⟩ => rfl

/-! ## The kernel's arithmetic at an index -/

/-- The logistic function is applied entry by entry. -/
theorem logistic_ix {s : Shape} {φ : FTy} (v : FVec Ideal s φ) (i : s.Idx) : logistic v i = Ideal.logistic (v i) := rfl

/-- The coordinate differences pass through unchanged. -/
theorem pay2_eq (x2 : Vec Ideal S4000x3 .f32) : k0_pay2 x2 = x2 := by
  unfold k0_pay2
  exact shapeCast_self _ _

/-- THE FEATURE PAYLOAD at row p, unit q: the edge feature of the block's row p. -/
theorem pay3_apply (x0 x1 : Vec Ideal S4000x128 .bf16) (x2 : Vec Ideal S4000x3 .f32) (x3 x4 : Vec Ideal S128x128 .bf16)
    (x5 : Vec Ideal S1x128 .f32) (x6 : Vec Ideal S128 .f32) (x7 : Vec Ideal S128x128 .bf16) (x8 : Vec Ideal S128 .f32)
    (p : Fin 4000) (q : Fin 128) :
    k0_pay3 x0 x1 x2 x3 x4 x5 x6 x7 x8 (ix2 p q)
      = Egcl.edgeFeat (fun a => x0 (ix2 p a)) (fun a => x1 (ix2 p a)) (fun d => x2 (ix2 p d)) (fun a k => x3 (ix2 a k))
          (fun a k => x4 (ix2 a k)) (fun k => x5 (ix2 (0 : Fin 1) k)) (fun k => x6 (ix1 k)) (fun a k => x7 (ix2 a k))
          (fun k => x8 (ix1 k)) q := by
  unfold k0_pay3 k0_pay2 Egcl.edgeFeat Egcl.edgePre Egcl.silu
  simp only [mulf_apply, addf_apply, truncf_apply, logistic_ix, shapeCast_self, matmul_sq_apply,
    broadcastTo_1b_ab_apply, broadcastTo_a1_ab_apply, shapeCast_a_1a_apply, shapeCast_a_a1_apply]
  rw [laneSum_apply]
  simp only [mulf_apply]

/-- THE TRANSLATION PAYLOAD at row p, coordinate d, over any coordinate differences and feature block. -/
theorem pay1_apply (v5 : FVec Ideal S4000x3 .f32) (v37 : FVec Ideal S4000x128 .f32) (x9 : Vec Ideal S128x128 .bf16)
    (x10 : Vec Ideal S128 .f32) (x11 : Vec Ideal S128x1 .bf16) (p : Fin 4000) (d : Fin 3) :
    k0_pay1 v5 v37 x9 x10 x11 (ix2 p d)
      = Egcl.edgeTrans (fun d => v5 (ix2 p d)) (fun j => v37 (ix2 p j)) (fun a k => x9 (ix2 a k)) (fun k => x10 (ix1 k))
          (fun k => x11 (ix2 k (0 : Fin 1))) d := by
  unfold k0_pay1 Egcl.edgeTrans Egcl.coordWeight Egcl.silu
  simp only [mulf_apply, addf_apply, truncf_apply, logistic_ix, shapeCast_self, matmul_sq_apply, matmul_col_apply,
    broadcastTo_1b_ab_apply, broadcastTo_a1_ab_apply, shapeCast_a_1a_apply]

/- The TensorCore's buffers as the region finds them: a parameter, which the run instantiates. -/
variable (V : (c : Dev nD) → (b : Ref sig .tc) → Buf (Elt Ideal) ((c : Thread nD τ).loc b))

/-! ## The region's input arrays, at their literal types -/

abbrev hrowA (c : Dev nD) : Vec Ideal S600000x128 .bf16 := V c main_v11
abbrev hcolA (c : Dev nD) : Vec Ideal S600000x128 .bf16 := V c main_v18
abbrev cdA (c : Dev nD) : Vec Ideal S600000x3 .f32 := V c main_v33
abbrev w1aA (c : Dev nD) : Vec Ideal S128x128 .bf16 := V c main_v35
abbrev w1bA (c : Dev nD) : Vec Ideal S128x128 .bf16 := V c main_v37
abbrev w1cA (c : Dev nD) : Vec Ideal S1x128 .f32 := V c main_v38
abbrev b1A (c : Dev nD) : Vec Ideal S128 .f32 := V c main_arg4
abbrev w2A (c : Dev nD) : Vec Ideal S128x128 .bf16 := V c main_v39
abbrev b2A (c : Dev nD) : Vec Ideal S128 .f32 := V c main_arg6
abbrev wc1A (c : Dev nD) : Vec Ideal S128x128 .bf16 := V c main_v40
abbrev bc1A (c : Dev nD) : Vec Ideal S128 .f32 := V c main_arg12
abbrev wc2A (c : Dev nD) : Vec Ideal S128x1 .bf16 := V c main_v41

/-- The feature row of edge `e`, from row `e` of the gathered arrays and the weights. -/
def featRow (c : Dev nD) (e : Fin 600000) (j : Fin 128) : EReal :=
  Egcl.edgeFeat (fun a => hrowA V c (ix2 e a)) (fun a => hcolA V c (ix2 e a)) (fun d => cdA V c (ix2 e d))
    (fun a k => w1aA V c (ix2 a k)) (fun a k => w1bA V c (ix2 a k)) (fun k => w1cA V c (ix2 (0 : Fin 1) k)) (fun k => b1A V c (ix1 k))
    (fun a k => w2A V c (ix2 a k)) (fun k => b2A V c (ix1 k)) j

/-- The translation row of edge `e`. -/
def transRow (c : Dev nD) (e : Fin 600000) (d : Fin 3) : EReal :=
  Egcl.edgeTrans (fun d => cdA V c (ix2 e d)) (featRow V c e) (fun a k => wc1A V c (ix2 a k)) (fun k => bc1A V c (ix1 k))
    (fun k => wc2A V c (ix2 k (0 : Fin 1))) d

/-! ## From the blocks to the arrays -/

theorem hz : (![0, 0] : Fin 2 → Nat) = fun _ => 0 := funext fun a => by fin_cases a <;> rfl
theorem hz1 : (![0] : Fin 1 → Nat) = fun _ => 0 := funext fun a => by fin_cases a; rfl

/-- The region has 150 points. -/
theorem pt_lt (t : Fin cfg0.N) : t.val < 150 := by
  have h : t.val < grid0.N := t.isLt
  rwa [N_0] at h

/-- Row p of point t's block is row 4000 t + p of the array. -/
def rowOf (t : Fin cfg0.N) (p : Fin 4000) : Fin 600000 :=
  ⟨t.val * 4000 + p.val, by have := pt_lt t; have := p.isLt; omega⟩

/-- The printed index maps of the row windows, decided over the grid: point t takes block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The printed index maps of the weight windows, decided over the grid: every point takes block zero. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0 :=
  (by decide +kernel : ∀ t : Fin grid0.N, _)

/-! ### Each input block, read where the output's rows say -/

theorem blk0_apply (c : Dev nD) (t : Fin cfg0.N) (p : Fin 4000) (a : Fin 128) :
    iblk0 V c 0 t (ix2 p a) = hrowA V c (ix2 (rowOf t p) a) := by
  obtain ⟨f0, f1, -⟩ := idx_rows t
  show V c main_v11 (((cfg0.win 0).blk t).view.emb (ix2 p a)) = V c main_v11 (ix2 (rowOf t p) a)
  refine congrArg _ (funext fun ax => Fin.ext ?_)
  match ax with
  | ⟨0, _⟩ => show win0_0.index t (0 : Fin 2) * 4000 + 1 * p.val = t.val * 4000 + p.val; omega
  | ⟨1, _⟩ => show win0_0.index t (1 : Fin 2) * 128 + 1 * a.val = a.val; omega

theorem blk1_apply (c : Dev nD) (t : Fin cfg0.N) (p : Fin 4000) (a : Fin 128) :
    iblk0 V c 1 t (ix2 p a) = hcolA V c (ix2 (rowOf t p) a) := by
  obtain ⟨-, -, f0, f1, -⟩ := idx_rows t
  show V c main_v18 (((cfg0.win 1).blk t).view.emb (ix2 p a)) = V c main_v18 (ix2 (rowOf t p) a)
  refine congrArg _ (funext fun ax => Fin.ext ?_)
  match ax with
  | ⟨0, _⟩ => show win0_1.index t (0 : Fin 2) * 4000 + 1 * p.val = t.val * 4000 + p.val; omega
  | ⟨1, _⟩ => show win0_1.index t (1 : Fin 2) * 128 + 1 * a.val = a.val; omega

theorem blk2_apply (c : Dev nD) (t : Fin cfg0.N) (p : Fin 4000) (d : Fin 3) :
    iblk0 V c 2 t (ix2 p d) = cdA V c (ix2 (rowOf t p) d) := by
  obtain ⟨-, -, -, -, f0, f1, -⟩ := idx_rows t
  show V c main_v33 (((cfg0.win 2).blk t).view.emb (ix2 p d)) = V c main_v33 (ix2 (rowOf t p) d)
  refine congrArg _ (funext fun ax => Fin.ext ?_)
  match ax with
  | ⟨0, _⟩ => show win0_2.index t (0 : Fin 2) * 4000 + 1 * p.val = t.val * 4000 + p.val; omega
  | ⟨1, _⟩ => show win0_2.index t (1 : Fin 2) * 3 + 1 * d.val = d.val; omega

theorem blk3_apply (c : Dev nD) (t : Fin cfg0.N) (a k : Fin 128) :
    iblk0 V c 3 t (ix2 a k) = w1aA V c (ix2 a k) := by
  obtain ⟨f0, f1, -⟩ := idx_whole t
  show V c main_v35 (((cfg0.win 3).blk t).view.emb (ix2 a k)) = V c main_v35 (ix2 a k)
  refine congrArg _ (funext fun ax => Fin.ext ?_)
  match ax with
  | ⟨0, _⟩ => show win0_3.index t (0 : Fin 2) * 128 + 1 * a.val = a.val; omega
  | ⟨1, _⟩ => show win0_3.index t (1 : Fin 2) * 128 + 1 * k.val = k.val; omega

theorem blk4_apply (c : Dev nD) (t : Fin cfg0.N) (a k : Fin 128) :
    iblk0 V c 4 t (ix2 a k) = w1bA V c (ix2 a k) := by
  obtain ⟨-, -, f0, f1, -⟩ := idx_whole t
  show V c main_v37 (((cfg0.win 4).blk t).view.emb (ix2 a k)) = V c main_v37 (ix2 a k)
  refine congrArg _ (funext fun ax => Fin.ext ?_)
  match ax with
  | ⟨0, _⟩ => show win0_4.index t (0 : Fin 2) * 128 + 1 * a.val = a.val; omega
  | ⟨1, _⟩ => show win0_4.index t (1 : Fin 2) * 128 + 1 * k.val = k.val; omega

theorem blk5_apply (c : Dev nD) (t : Fin cfg0.N) (u : Fin 1) (k : Fin 128) :
    iblk0 V c 5 t (ix2 u k) = w1cA V c (ix2 u k) := by
  obtain ⟨-, -, -, -, f0, f1, -⟩ := idx_whole t
  show V c main_v38 (((cfg0.win 5).blk t).view.emb (ix2 u k)) = V c main_v38 (ix2 u k)
  refine congrArg _ (funext fun ax => Fin.ext ?_)
  match ax with
  | ⟨0, _⟩ => show win0_5.index t (0 : Fin 2) * 1 + 1 * u.val = u.val; omega
  | ⟨1, _⟩ => show win0_5.index t (1 : Fin 2) * 128 + 1 * k.val = k.val; omega

theorem blk6_apply (c : Dev nD) (t : Fin cfg0.N) (k : Fin 128) :
    iblk0 V c 6 t (ix1 k) = b1A V c (ix1 k) := by
  obtain ⟨-, -, -, -, -, -, f0, -⟩ := idx_whole t
  show V c main_arg4 (((cfg0.win 6).blk t).view.emb (ix1 k)) = V c main_arg4 (ix1 k)
  refine congrArg _ (funext fun ax => Fin.ext ?_)
  match ax with
  | ⟨0, _⟩ => show win0_6.index t (0 : Fin 1) * 128 + 1 * k.val = k.val; omega

theorem blk7_apply (c : Dev nD) (t : Fin cfg0.N) (a k : Fin 128) :
    iblk0 V c 7 t (ix2 a k) = w2A V c (ix2 a k) := by
  obtain ⟨-, -, -, -, -, -, -, f0, f1, -⟩ := idx_whole t
  show V c main_v39 (((cfg0.win 7).blk t).view.emb (ix2 a k)) = V c main_v39 (ix2 a k)
  refine congrArg _ (funext fun ax => Fin.ext ?_)
  match ax with
  | ⟨0, _⟩ => show win0_7.index t (0 : Fin 2) * 128 + 1 * a.val = a.val; omega
  | ⟨1, _⟩ => show win0_7.index t (1 : Fin 2) * 128 + 1 * k.val = k.val; omega

theorem blk8_apply (c : Dev nD) (t : Fin cfg0.N) (k : Fin 128) :
    iblk0 V c 8 t (ix1 k) = b2A V c (ix1 k) := by
  obtain ⟨-, -, -, -, -, -, -, -, -, f0, -⟩ := idx_whole t
  show V c main_arg6 (((cfg0.win 8).blk t).view.emb (ix1 k)) = V c main_arg6 (ix1 k)
  refine congrArg _ (funext fun ax => Fin.ext ?_)
  match ax with
  | ⟨0, _⟩ => show win0_8.index t (0 : Fin 1) * 128 + 1 * k.val = k.val; omega

theorem blk9_apply (c : Dev nD) (t : Fin cfg0.N) (a k : Fin 128) :
    iblk0 V c 9 t (ix2 a k) = wc1A V c (ix2 a k) := by
  obtain ⟨-, -, -, -, -, -, -, -, -, -, f0, f1, -⟩ := idx_whole t
  show V c main_v40 (((cfg0.win 9).blk t).view.emb (ix2 a k)) = V c main_v40 (ix2 a k)
  refine congrArg _ (funext fun ax => Fin.ext ?_)
  match ax with
  | ⟨0, _⟩ => show win0_9.index t (0 : Fin 2) * 128 + 1 * a.val = a.val; omega
  | ⟨1, _⟩ => show win0_9.index t (1 : Fin 2) * 128 + 1 * k.val = k.val; omega

theorem blk10_apply (c : Dev nD) (t : Fin cfg0.N) (k : Fin 128) :
    iblk0 V c 10 t (ix1 k) = bc1A V c (ix1 k) := by
  obtain ⟨-, -, -, -, -, -, -, -, -, -, -, -, f0, -⟩ := idx_whole t
  show V c main_arg12 (((cfg0.win 10).blk t).view.emb (ix1 k)) = V c main_arg12 (ix1 k)
  refine congrArg _ (funext fun ax => Fin.ext ?_)
  match ax with
  | ⟨0, _⟩ => show win0_10.index t (0 : Fin 1) * 128 + 1 * k.val = k.val; omega

theorem blk11_apply (c : Dev nD) (t : Fin cfg0.N) (k : Fin 128) (u : Fin 1) :
    iblk0 V c 11 t (ix2 k u) = wc2A V c (ix2 k u) := by
  obtain ⟨-, -, -, -, -, -, -, -, -, -, -, -, -, f0, f1⟩ := idx_whole t
  show V c main_v41 (((cfg0.win 11).blk t).view.emb (ix2 k u)) = V c main_v41 (ix2 k u)
  refine congrArg _ (funext fun ax => Fin.ext ?_)
  match ax with
  | ⟨0, _⟩ => show win0_11.index t (0 : Fin 2) * 128 + 1 * k.val = k.val; omega
  | ⟨1, _⟩ => show win0_11.index t (1 : Fin 2) * 1 + 1 * u.val = u.val; omega

/-! ### Where an output block's entry sits in its array -/

theorem emb_feat (t : Fin cfg0.N) (p : Fin 4000) (q : Fin 128) :
    ((cfg0.win 12).blk t).view.emb (ix2 p q) = ix2 (rowOf t p) q := by
  obtain ⟨-, -, -, -, -, -, f0, f1, -⟩ := idx_rows t
  refine funext fun ax => Fin.ext ?_
  match ax with
  | ⟨0, _⟩ => show win0_12.index t (0 : Fin 2) * 4000 + 1 * p.val = t.val * 4000 + p.val; omega
  | ⟨1, _⟩ => show win0_12.index t (1 : Fin 2) * 128 + 1 * q.val = q.val; omega

theorem emb_trans (t : Fin cfg0.N) (p : Fin 4000) (d : Fin 3) :
    ((cfg0.win 13).blk t).view.emb (ix2 p d) = ix2 (rowOf t p) d := by
  obtain ⟨-, -, -, -, -, -, -, -, f0, f1⟩ := idx_rows t
  refine funext fun ax => Fin.ext ?_
  match ax with
  | ⟨0, _⟩ => show win0_13.index t (0 : Fin 2) * 4000 + 1 * p.val = t.val * 4000 + p.val; omega
  | ⟨1, _⟩ => show win0_13.index t (1 : Fin 2) * 3 + 1 * d.val = d.val; omega

/-! ### What a point writes back -/

/-- WHAT POINT t WRITES BACK to the feature array is block t of the feature rows. -/
theorem flushed_feat (c : Dev nD) (t : Fin cfg0.N) :
    (dat0 (F := Ideal) V c).flushed 12 t
      = ((cfg0.win 12).blk t).view.read (Elt Ideal) (fun i : S600000x128.Idx => featRow V c (i 0) (i 1)) := by
  show (cfg0.win 12).cut (grid0.coords t) ((dat0 (F := Ideal) V c).after 12 t) = _
  rw [after0_12]
  unfold out0_12
  rw [View.canon_unit_zero hz]
  simp only [View.ld_unit_zero (S := S4000x128) hz, View.ld_unit_zero (S := S4000x3) hz, View.ld_unit_zero (S := S128x128) hz,
    View.ld_unit_zero (S := S1x128) hz, View.ld_unit_zero (S := S128) hz1]
  funext j
  obtain ⟨p, q, rfl⟩ : ∃ (p : Fin 4000) (q : Fin 128), j = ix2 p q := ⟨j 0, j 1, eq_ix2 j⟩
  show k0_pay3 (iblk0 V c 0 t) (iblk0 V c 1 t) (iblk0 V c 2 t) (iblk0 V c 3 t) (iblk0 V c 4 t) (iblk0 V c 5 t) (iblk0 V c 6 t)
        (iblk0 V c 7 t) (iblk0 V c 8 t) (ix2 p q)
      = featRow V c ((((cfg0.win 12).blk t).view.emb (ix2 p q)) 0) ((((cfg0.win 12).blk t).view.emb (ix2 p q)) 1)
  rw [emb_feat t p q]
  show _ = featRow V c (rowOf t p) q
  refine (pay3_apply _ _ _ _ _ _ _ _ _ p q).trans ?_
  unfold featRow
  simp only [blk0_apply V c t p, blk1_apply V c t p, blk2_apply V c t p, blk3_apply V c t, blk4_apply V c t, blk5_apply V c t,
    blk6_apply V c t, blk7_apply V c t, blk8_apply V c t]

/-- WHAT POINT t WRITES BACK to the translation array is block t of the translation rows. -/
theorem flushed_trans (c : Dev nD) (t : Fin cfg0.N) :
    (dat0 (F := Ideal) V c).flushed 13 t
      = ((cfg0.win 13).blk t).view.read (Elt Ideal) (fun i : S600000x3.Idx => transRow V c (i 0) (i 1)) := by
  show (cfg0.win 13).cut (grid0.coords t) ((dat0 (F := Ideal) V c).after 13 t) = _
  rw [after0_13]
  unfold out0_13
  rw [View.canon_unit_zero hz]
  simp only [View.ld_unit_zero (S := S4000x128) hz, View.ld_unit_zero (S := S4000x3) hz, View.ld_unit_zero (S := S128x128) hz,
    View.ld_unit_zero (S := S1x128) hz, View.ld_unit_zero (S := S128) hz1, View.ld_unit_zero (S := S128x1) hz]
  funext j
  obtain ⟨p, d, rfl⟩ : ∃ (p : Fin 4000) (d : Fin 3), j = ix2 p d := ⟨j 0, j 1, eq_ix2 j⟩
  show k0_pay1 (k0_pay2 (iblk0 V c 2 t)) (k0_pay3 (iblk0 V c 0 t) (iblk0 V c 1 t) (iblk0 V c 2 t) (iblk0 V c 3 t) (iblk0 V c 4 t)
        (iblk0 V c 5 t) (iblk0 V c 6 t) (iblk0 V c 7 t) (iblk0 V c 8 t)) (iblk0 V c 9 t) (iblk0 V c 10 t) (iblk0 V c 11 t) (ix2 p d)
      = transRow V c ((((cfg0.win 13).blk t).view.emb (ix2 p d)) 0) ((((cfg0.win 13).blk t).view.emb (ix2 p d)) 1)
  rw [emb_trans t p d]
  show _ = transRow V c (rowOf t p) d
  refine (pay1_apply _ _ _ _ _ p d).trans ?_
  unfold transRow featRow
  simp only [pay2_eq, pay3_apply, blk0_apply V c t p, blk1_apply V c t p, blk2_apply V c t p, blk3_apply V c t, blk4_apply V c t,
    blk5_apply V c t, blk6_apply V c t, blk7_apply V c t, blk8_apply V c t, blk9_apply V c t, blk10_apply V c t, blk11_apply V c t]

/-! ### The blocks fill the arrays -/

theorem mem_blk_feat (t : Fin cfg0.N) (i : S600000x128.Idx) :
    i ∈ ((cfg0.win 12).blk t).view.set ↔ ∀ a : Fin 2, win0_12.index t a * S4000x128.size a ≤ (i a).val ∧ (i a).val < win0_12.index t a * S4000x128.size a + S4000x128.size a := by
  show i ∈ ((View.whole main_v42_0).slice (win0_12.rect t)).set ↔ _
  rw [View.set_slice_whole, Rect.mem_set_unit]
  exact Iff.rfl

theorem mem_blk_trans (t : Fin cfg0.N) (i : S600000x3.Idx) :
    i ∈ ((cfg0.win 13).blk t).view.set ↔ ∀ a : Fin 2, win0_13.index t a * S4000x3.size a ≤ (i a).val ∧ (i a).val < win0_13.index t a * S4000x3.size a + S4000x3.size a := by
  show i ∈ ((View.whole main_v42_1).slice (win0_13.rect t)).set ↔ _
  rw [View.set_slice_whole, Rect.mem_set_unit]
  exact Iff.rfl

/-- Row r of the feature array is in the block of point r / 4000. -/
theorem cover_feat (i : S600000x128.Idx) :
    ∃ t : Fin cfg0.N, (cfg0.win 12).flush t = true ∧ i ∈ ((cfg0.win 12).blk t).view.set := by
  have hi0 : (i 0).val < 600000 := (i 0).isLt
  have hi1 : (i 1).val < 128 := (i 1).isLt
  have hN : (i 0).val / 4000 < cfg0.N := by show (i 0).val / 4000 < grid0.N; rw [N_0]; omega
  refine ⟨⟨(i 0).val / 4000, hN⟩, flush0_12 _, ?_⟩
  rw [mem_blk_feat]
  obtain ⟨-, -, -, -, -, -, f0, f1, -⟩ := idx_rows ⟨(i 0).val / 4000, hN⟩
  intro a
  match a with
  | ⟨0, _⟩ =>
    show win0_12.index ⟨(i 0).val / 4000, hN⟩ (0 : Fin 2) * 4000 ≤ (i 0).val ∧ (i 0).val < win0_12.index ⟨(i 0).val / 4000, hN⟩ (0 : Fin 2) * 4000 + 4000
    rw [f0]; show (i 0).val / 4000 * 4000 ≤ (i 0).val ∧ (i 0).val < (i 0).val / 4000 * 4000 + 4000; omega
  | ⟨1, _⟩ =>
    show win0_12.index ⟨(i 0).val / 4000, hN⟩ (1 : Fin 2) * 128 ≤ (i 1).val ∧ (i 1).val < win0_12.index ⟨(i 0).val / 4000, hN⟩ (1 : Fin 2) * 128 + 128
    rw [f1]; omega

/-- Row r of the translation array is in the block of point r / 4000. -/
theorem cover_trans (i : S600000x3.Idx) :
    ∃ t : Fin cfg0.N, (cfg0.win 13).flush t = true ∧ i ∈ ((cfg0.win 13).blk t).view.set := by
  have hi0 : (i 0).val < 600000 := (i 0).isLt
  have hi1 : (i 1).val < 3 := (i 1).isLt
  have hN : (i 0).val / 4000 < cfg0.N := by show (i 0).val / 4000 < grid0.N; rw [N_0]; omega
  refine ⟨⟨(i 0).val / 4000, hN⟩, flush0_13 _, ?_⟩
  rw [mem_blk_trans]
  obtain ⟨-, -, -, -, -, -, -, -, f0, f1⟩ := idx_rows ⟨(i 0).val / 4000, hN⟩
  intro a
  match a with
  | ⟨0, _⟩ =>
    show win0_13.index ⟨(i 0).val / 4000, hN⟩ (0 : Fin 2) * 4000 ≤ (i 0).val ∧ (i 0).val < win0_13.index ⟨(i 0).val / 4000, hN⟩ (0 : Fin 2) * 4000 + 4000
    rw [f0]; show (i 0).val / 4000 * 4000 ≤ (i 0).val ∧ (i 0).val < (i 0).val / 4000 * 4000 + 4000; omega
  | ⟨1, _⟩ =>
    show win0_13.index ⟨(i 0).val / 4000, hN⟩ (1 : Fin 2) * 3 ≤ (i 1).val ∧ (i 1).val < win0_13.index ⟨(i 0).val / 4000, hN⟩ (1 : Fin 2) * 3 + 3
    rw [f1]; omega

/-- THE EDGE FEATURES after the region: row `e` is the feature row of edge `e`. -/
theorem feat_arr (c : Dev nD) :
    (dat0 (F := Ideal) V c).arrAt 12 cfg0.N = fun i : S600000x128.Idx => featRow V c (i 0) (i 1) :=
  (dat0 (F := Ideal) V c).arrAt_eq_of_cover 12 _ (fun t _ => flushed_feat V c t) cover_feat

/-- THE TRANSLATIONS after the region: row `e` is the translation row of edge `e`. -/
theorem trans_arr (c : Dev nD) :
    (dat0 (F := Ideal) V c).arrAt 13 cfg0.N = fun i : S600000x3.Idx => transRow V c (i 0) (i 1) :=
  (dat0 (F := Ideal) V c).arrAt_eq_of_cover 13 _ (fun t _ => flushed_trans V c t) cover_trans

end Cert.KernelIdeal.EdgeRegion

end
-- ==== Proof.NodeRegion.lean ====
/-
  The node kernel's region, read as values on the extended reals.  The region walks the 50000 nodes in 25 blocks of
  2000 rows; point `t` loads rows `2000 t … 2000 t + 1999` of the features (twice: as they are for the residual, and
  their copy for the matrix product), of the aggregated edge features, of the coordinates, of the summed translations
  and of the edge counts, the weight arrays whole, and writes back the same rows of the new features (window 11) and
  of the new coordinates (window 12).  Each written row depends only on the same row of the inputs.
-/
import proofs.«167930_j21560735826057_1_alg».proof.Proof.Gen.KernelIdeal.Frame
import proofs.«167930_j21560735826057_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen

/- The TensorCore's buffers as the region finds them: a parameter, which the run instantiates. -/
variable (V : (c : Dev nD) → (b : Ref sig .tc) → Buf (Elt Ideal) ((c : Thread nD τ).loc b))

/-! ## The region's input arrays, at their literal types -/

abbrev hA (c : Dev nD) : Vec Ideal S50000x128 .f32 := V c main_arg0
abbrev hbA (c : Dev nD) : Vec Ideal S50000x128 .bf16 := V c main_v4
abbrev aggA (c : Dev nD) : Vec Ideal S50000x128 .bf16 := V c main_v53
abbrev xA (c : Dev nD) : Vec Ideal S50000x3 .f32 := V c main_arg1
abbrev tsA (c : Dev nD) : Vec Ideal S50000x3 .f32 := V c main_v48
abbrev cntA (c : Dev nD) : Vec Ideal S50000x1 .f32 := V c main_v52
abbrev wn1aA (c : Dev nD) : Vec Ideal S128x128 .bf16 := V c main_v55
abbrev wn1bA (c : Dev nD) : Vec Ideal S128x128 .bf16 := V c main_v57
abbrev bn1A (c : Dev nD) : Vec Ideal S128 .f32 := V c main_arg8
abbrev wn2A (c : Dev nD) : Vec Ideal S128x128 .bf16 := V c main_v58
abbrev bn2A (c : Dev nD) : Vec Ideal S128 .f32 := V c main_arg10

/-- The new feature row of node `n`. -/
def featRow (c : Dev nD) (n : Fin 50000) (j : Fin 128) : EReal :=
  Egcl.nodeFeat (fun a => hA V c (ix2 n a)) (fun a => hbA V c (ix2 n a)) (fun a => aggA V c (ix2 n a))
    (fun a k => wn1aA V c (ix2 a k)) (fun a k => wn1bA V c (ix2 a k)) (fun k => bn1A V c (ix1 k))
    (fun a k => wn2A V c (ix2 a k)) (fun k => bn2A V c (ix1 k)) j

/-- The new coordinate row of node `n`. -/
def coordRow (c : Dev nD) (n : Fin 50000) (d : Fin 3) : EReal :=
  Egcl.nodeCoord (fun d => xA V c (ix2 n d)) (fun d => tsA V c (ix2 n d)) (cntA V c (ix2 n (0 : Fin 1)))
    (Ideal.ofBits .f32 0x3F800000#32) d

/-! ## The body's arithmetic at one entry of a block -/

section Payload

/-- A column of one number per row, spread over the columns of a wider block, reads its row's number everywhere. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the block's matrix product at output entry `i` and contraction position `q`: row `i 0` … -/
theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … column the contraction position; -/
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand: row the contraction position … -/
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … column `i 1`. -/
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a 128 × 128 matrix, accumulated into zeros: entry `(p, q)` is row `p` of the block against
    column `q` of the matrix. -/
theorem matmul_row (lhs : FVec Ideal S2000x128 .bf16) (rhs : FVec Ideal S128x128 .bf16) (p : Fin 2000) (q : Fin 128) :
    matmul (φ₁ := .bf16) (φ₂ := .bf16) dot_S2000x128_S128x128_S2000x128_1_0_0_1_n_n none lhs rhs (constant (F := Ideal) S2000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A bias of 128 numbers, laid out as one row and repeated down the block's rows, reads its `q`-th number in column `q`. -/
theorem bias_row (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ broadcasts_S1x128_S2000x128 p q).trans (shapeCast_a_1a_apply v shapeCasts_S128_S1x128 (0 : Fin 1) q)

/-- The hidden block before its activation: the two matrix products and the bias row. -/
def hiddenBlk (x1 x2 : FVec Ideal S2000x128 .bf16) (x6 x7 : FVec Ideal S128x128 .bf16) (x8 : FVec Ideal S128 .f32) :
    FVec Ideal S2000x128 .f32 :=
  addf (addf (matmul (φ₁ := .bf16) (φ₂ := .bf16) dot_S2000x128_S128x128_S2000x128_1_0_0_1_n_n none x1 x6 (constant (F := Ideal) S2000x128 .f32 0x00000000#32))
      (matmul (φ₁ := .bf16) (φ₂ := .bf16) dot_S2000x128_S128x128_S2000x128_1_0_0_1_n_n none x2 x7 (constant (F := Ideal) S2000x128 .f32 0x00000000#32)))
    (broadcastTo S2000x128 (shapeCast S1x128 x8 shapeCasts_S128_S1x128) broadcasts_S1x128_S2000x128)

/-- Its entry `(p, k)`: row `p` of the two blocks through column `k` of their matrices, plus the bias. -/
theorem hiddenBlk_apply (x1 x2 : FVec Ideal S2000x128 .bf16) (x6 x7 : FVec Ideal S128x128 .bf16) (x8 : FVec Ideal S128 .f32)
    (p : Fin 2000) (k : Fin 128) :
    hiddenBlk x1 x2 x6 x7 x8 (ix2 p k)
      = (∑ i : Fin 128, x1 (ix2 p i) * x6 (ix2 i k)) + (∑ i : Fin 128, x2 (ix2 p i) * x7 (ix2 i k)) + x8 (ix1 k) := by
  show matmul (φ₁ := .bf16) (φ₂ := .bf16) dot_S2000x128_S128x128_S2000x128_1_0_0_1_n_n none x1 x6 (constant (F := Ideal) S2000x128 .f32 0x00000000#32) (ix2 p k)
      + matmul (φ₁ := .bf16) (φ₂ := .bf16) dot_S2000x128_S128x128_S2000x128_1_0_0_1_n_n none x2 x7 (constant (F := Ideal) S2000x128 .f32 0x00000000#32) (ix2 p k)
      + broadcastTo S2000x128 (shapeCast S1x128 x8 shapeCasts_S128_S1x128) broadcasts_S1x128_S2000x128 (ix2 p k) = _
  rw [matmul_row, matmul_row, bias_row]

/-- The activated hidden block, as the second matrix product reads it. -/
def actBlk (x1 x2 : FVec Ideal S2000x128 .bf16) (x6 x7 : FVec Ideal S128x128 .bf16) (x8 : FVec Ideal S128 .f32) :
    FVec Ideal S2000x128 .bf16 :=
  fun i => Egcl.silu (hiddenBlk x1 x2 x6 x7 x8 i)

/-- THE NEW FEATURES' PAYLOAD at entry `(p, q)` of a block: the node layer's formula on row `p` of the loaded blocks. -/
theorem nodeFeat_pay (x0 : Vec Ideal S2000x128 .f32) (x1 x2 : Vec Ideal S2000x128 .bf16) (x6 x7 : Vec Ideal S128x128 .bf16)
    (x8 : Vec Ideal S128 .f32) (x9 : Vec Ideal S128x128 .bf16) (x10 : Vec Ideal S128 .f32) (p : Fin 2000) (q : Fin 128) :
    k1_pay2 x0 x1 x2 x6 x7 x8 x9 x10 (ix2 p q)
      = Egcl.nodeFeat (fun a => x0 (ix2 p a)) (fun a => x1 (ix2 p a)) (fun a => x2 (ix2 p a)) (fun a k => x6 (ix2 a k))
          (fun a k => x7 (ix2 a k)) (fun k => x8 (ix1 k)) (fun a k => x9 (ix2 a k)) (fun k => x10 (ix1 k)) q := by
  unfold k1_pay2
  rw [shapeCast_self x1, shapeCast_self x2, shapeCast_self x6, shapeCast_self x7, shapeCast_self x9]
  show x0 (ix2 p q) + (matmul (φ₁ := .bf16) (φ₂ := .bf16) dot_S2000x128_S128x128_S2000x128_1_0_0_1_n_n none (actBlk x1 x2 x6 x7 x8) x9 (constant (F := Ideal) S2000x128 .f32 0x00000000#32) (ix2 p q)
      + broadcastTo S2000x128 (shapeCast S1x128 x10 shapeCasts_S128_S1x128) broadcasts_S1x128_S2000x128 (ix2 p q)) = _
  rw [matmul_row, bias_row]
  unfold Egcl.nodeFeat actBlk
  simp only [hiddenBlk_apply]

/-- THE NEW COORDINATES' PAYLOAD at entry `(p, d)` of a block: the mean translation of row `p` added to its coordinates. -/
theorem nodeCoord_pay (x3 x4 : Vec Ideal S2000x3 .f32) (x5 : Vec Ideal S2000x1 .f32) (p : Fin 2000) (d : Fin 3) :
    k1_pay1 x3 (k1_pay3 x4) (k1_pay4 x5) (ix2 p d)
      = Egcl.nodeCoord (fun d => x3 (ix2 p d)) (fun d => x4 (ix2 p d)) (x5 (ix2 p (0 : Fin 1)))
          (Ideal.ofBits .f32 0x3F800000#32) d := by
  unfold k1_pay1 k1_pay3 k1_pay4
  rw [shapeCast_self x4, shapeCast_self x5]
  show x3 (ix2 p d) + Ideal.div (x4 (ix2 p d))
      (broadcastTo S2000x3 (maximumf x5 (broadcast S2000x1 (Scalar.ofBits (F := Ideal) .f32 0x3F800000#32))) broadcasts_S2000x1_S2000x3 (ix2 p d)) = _
  rw [broadcastTo_a1_ab_apply]
  rfl

end Payload

/-! ## From blocks to arrays -/

section Blocks

theorem zeros2 : (![0, 0] : Fin 2 → Nat) = fun _ => 0 := funext fun a => by fin_cases a <;> rfl
theorem zeros1 : (![0] : Fin 1 → Nat) = fun _ => 0 := funext fun a => by fin_cases a <;> rfl

/-! The index maps, decided over the 25 points: the windows over the node arrays (0 … 5, 11, 12) are at block `(t, 0)` at
    point `t`, the windows over the weights (6 … 10) at block zero throughout. -/
theorem index1_0 : ∀ t : Fin cfg1.N, win1_0.index t (0 : Fin 2) = t.val ∧ win1_0.index t (1 : Fin 2) = 0 :=
  (by decide +kernel : ∀ t : Fin grid1.N, _)
theorem index1_1 : ∀ t : Fin cfg1.N, win1_1.index t (0 : Fin 2) = t.val ∧ win1_1.index t (1 : Fin 2) = 0 :=
  (by decide +kernel : ∀ t : Fin grid1.N, _)
theorem index1_2 : ∀ t : Fin cfg1.N, win1_2.index t (0 : Fin 2) = t.val ∧ win1_2.index t (1 : Fin 2) = 0 :=
  (by decide +kernel : ∀ t : Fin grid1.N, _)
theorem index1_3 : ∀ t : Fin cfg1.N, win1_3.index t (0 : Fin 2) = t.val ∧ win1_3.index t (1 : Fin 2) = 0 :=
  (by decide +kernel : ∀ t : Fin grid1.N, _)
theorem index1_4 : ∀ t : Fin cfg1.N, win1_4.index t (0 : Fin 2) = t.val ∧ win1_4.index t (1 : Fin 2) = 0 :=
  (by decide +kernel : ∀ t : Fin grid1.N, _)
theorem index1_5 : ∀ t : Fin cfg1.N, win1_5.index t (0 : Fin 2) = t.val ∧ win1_5.index t (1 : Fin 2) = 0 :=
  (by decide +kernel : ∀ t : Fin grid1.N, _)
theorem index1_6 : ∀ t : Fin cfg1.N, win1_6.index t (0 : Fin 2) = 0 ∧ win1_6.index t (1 : Fin 2) = 0 :=
  (by decide +kernel : ∀ t : Fin grid1.N, _)
theorem index1_7 : ∀ t : Fin cfg1.N, win1_7.index t (0 : Fin 2) = 0 ∧ win1_7.index t (1 : Fin 2) = 0 :=
  (by decide +kernel : ∀ t : Fin grid1.N, _)
theorem index1_8 : ∀ t : Fin cfg1.N, win1_8.index t (0 : Fin 1) = 0 :=
  (by decide +kernel : ∀ t : Fin grid1.N, _)
theorem index1_9 : ∀ t : Fin cfg1.N, win1_9.index t (0 : Fin 2) = 0 ∧ win1_9.index t (1 : Fin 2) = 0 :=
  (by decide +kernel : ∀ t : Fin grid1.N, _)
theorem index1_10 : ∀ t : Fin cfg1.N, win1_10.index t (0 : Fin 1) = 0 :=
  (by decide +kernel : ∀ t : Fin grid1.N, _)
theorem index1_11 : ∀ t : Fin cfg1.N, win1_11.index t (0 : Fin 2) = t.val ∧ win1_11.index t (1 : Fin 2) = 0 :=
  (by decide +kernel : ∀ t : Fin grid1.N, _)
theorem index1_12 : ∀ t : Fin cfg1.N, win1_12.index t (0 : Fin 2) = t.val ∧ win1_12.index t (1 : Fin 2) = 0 :=
  (by decide +kernel : ∀ t : Fin grid1.N, _)

/-- Row `p` of the block of point `t` is row `2000 t + p` of the node arrays. -/
def rowAt (t : Fin cfg1.N) (p : Fin 2000) : Fin 50000 :=
  ⟨t.val * 2000 + p.val, by have h : t.val < 25 := Nat.lt_of_lt_of_eq t.isLt N_1; omega⟩

/-- The residual features' block at point `t` is rows `2000 t …` of the features. -/
theorem blk0_read (c : Dev nD) (t : Fin cfg1.N) (p : Fin 2000) (a : Fin 128) :
    iblk1 (F := Ideal) V c 0 t (ix2 p a) = hA V c (ix2 (rowAt t p) a) := by
  obtain ⟨e0, e1⟩ := index1_0 t
  show hA V c (((cfg1.win 0).blk t).view.emb (ix2 p a)) = _
  refine congrArg _ (funext fun ax => Fin.ext ?_)
  match ax with
  | ⟨0, _⟩ => show win1_0.index t (0 : Fin 2) * 2000 + 1 * p.val = t.val * 2000 + p.val; rw [e0]; omega
  | ⟨1, _⟩ => show win1_0.index t (1 : Fin 2) * 128 + 1 * a.val = a.val; rw [e1]; omega
/-- The same rows of the features' copy for the matrix product. -/
theorem blk1_read (c : Dev nD) (t : Fin cfg1.N) (p : Fin 2000) (a : Fin 128) :
    iblk1 (F := Ideal) V c 1 t (ix2 p a) = hbA V c (ix2 (rowAt t p) a) := by
  obtain ⟨e0, e1⟩ := index1_1 t
  show hbA V c (((cfg1.win 1).blk t).view.emb (ix2 p a)) = _
  refine congrArg _ (funext fun ax => Fin.ext ?_)
  match ax with
  | ⟨0, _⟩ => show win1_1.index t (0 : Fin 2) * 2000 + 1 * p.val = t.val * 2000 + p.val; rw [e0]; omega
  | ⟨1, _⟩ => show win1_1.index t (1 : Fin 2) * 128 + 1 * a.val = a.val; rw [e1]; omega
/-- The same rows of the aggregated edge features. -/
theorem blk2_read (c : Dev nD) (t : Fin cfg1.N) (p : Fin 2000) (a : Fin 128) :
    iblk1 (F := Ideal) V c 2 t (ix2 p a) = aggA V c (ix2 (rowAt t p) a) := by
  obtain ⟨e0, e1⟩ := index1_2 t
  show aggA V c (((cfg1.win 2).blk t).view.emb (ix2 p a)) = _
  refine congrArg _ (funext fun ax => Fin.ext ?_)
  match ax with
  | ⟨0, _⟩ => show win1_2.index t (0 : Fin 2) * 2000 + 1 * p.val = t.val * 2000 + p.val; rw [e0]; omega
  | ⟨1, _⟩ => show win1_2.index t (1 : Fin 2) * 128 + 1 * a.val = a.val; rw [e1]; omega
/-- The same rows of the coordinates. -/
theorem blk3_read (c : Dev nD) (t : Fin cfg1.N) (p : Fin 2000) (a : Fin 3) :
    iblk1 (F := Ideal) V c 3 t (ix2 p a) = xA V c (ix2 (rowAt t p) a) := by
  obtain ⟨e0, e1⟩ := index1_3 t
  show xA V c (((cfg1.win 3).blk t).view.emb (ix2 p a)) = _
  refine congrArg _ (funext fun ax => Fin.ext ?_)
  match ax with
  | ⟨0, _⟩ => show win1_3.index t (0 : Fin 2) * 2000 + 1 * p.val = t.val * 2000 + p.val; rw [e0]; omega
  | ⟨1, _⟩ => show win1_3.index t (1 : Fin 2) * 3 + 1 * a.val = a.val; rw [e1]; omega
/-- The same rows of the summed translations. -/
theorem blk4_read (c : Dev nD) (t : Fin cfg1.N) (p : Fin 2000) (a : Fin 3) :
    iblk1 (F := Ideal) V c 4 t (ix2 p a) = tsA V c (ix2 (rowAt t p) a) := by
  obtain ⟨e0, e1⟩ := index1_4 t
  show tsA V c (((cfg1.win 4).blk t).view.emb (ix2 p a)) = _
  refine congrArg _ (funext fun ax => Fin.ext ?_)
  match ax with
  | ⟨0, _⟩ => show win1_4.index t (0 : Fin 2) * 2000 + 1 * p.val = t.val * 2000 + p.val; rw [e0]; omega
  | ⟨1, _⟩ => show win1_4.index t (1 : Fin 2) * 3 + 1 * a.val = a.val; rw [e1]; omega
/-- The counts' block at point `t` is rows `2000 t …` of the counts. -/
theorem blk5_read (c : Dev nD) (t : Fin cfg1.N) (p : Fin 2000) (a : Fin 1) :
    iblk1 (F := Ideal) V c 5 t (ix2 p a) = cntA V c (ix2 (rowAt t p) a) := by
  obtain ⟨e0, e1⟩ := index1_5 t
  show cntA V c (((cfg1.win 5).blk t).view.emb (ix2 p a)) = _
  refine congrArg _ (funext fun ax => Fin.ext ?_)
  match ax with
  | ⟨0, _⟩ => show win1_5.index t (0 : Fin 2) * 2000 + 1 * p.val = t.val * 2000 + p.val; rw [e0]; omega
  | ⟨1, _⟩ => show win1_5.index t (1 : Fin 2) * 1 + 1 * a.val = a.val; rw [e1]; omega
/-- The first layer's matrix for the features is loaded whole at every point. -/
theorem blk6_read (c : Dev nD) (t : Fin cfg1.N) (a k : Fin 128) :
    iblk1 (F := Ideal) V c 6 t (ix2 a k) = wn1aA V c (ix2 a k) := by
  obtain ⟨e0, e1⟩ := index1_6 t
  show wn1aA V c (((cfg1.win 6).blk t).view.emb (ix2 a k)) = _
  refine congrArg _ (funext fun ax => Fin.ext ?_)
  match ax with
  | ⟨0, _⟩ => show win1_6.index t (0 : Fin 2) * 128 + 1 * a.val = a.val; rw [e0]; omega
  | ⟨1, _⟩ => show win1_6.index t (1 : Fin 2) * 128 + 1 * k.val = k.val; rw [e1]; omega
/-- So is its matrix for the aggregated edge features, -/
theorem blk7_read (c : Dev nD) (t : Fin cfg1.N) (a k : Fin 128) :
    iblk1 (F := Ideal) V c 7 t (ix2 a k) = wn1bA V c (ix2 a k) := by
  obtain ⟨e0, e1⟩ := index1_7 t
  show wn1bA V c (((cfg1.win 7).blk t).view.emb (ix2 a k)) = _
  refine congrArg _ (funext fun ax => Fin.ext ?_)
  match ax with
  | ⟨0, _⟩ => show win1_7.index t (0 : Fin 2) * 128 + 1 * a.val = a.val; rw [e0]; omega
  | ⟨1, _⟩ => show win1_7.index t (1 : Fin 2) * 128 + 1 * k.val = k.val; rw [e1]; omega
/-- the first layer's bias, -/
theorem blk8_read (c : Dev nD) (t : Fin cfg1.N) (k : Fin 128) :
    iblk1 (F := Ideal) V c 8 t (ix1 k) = bn1A V c (ix1 k) := by
  have e0 := index1_8 t
  show bn1A V c (((cfg1.win 8).blk t).view.emb (ix1 k)) = _
  refine congrArg _ (funext fun ax => Fin.ext ?_)
  match ax with
  | ⟨0, _⟩ => show win1_8.index t (0 : Fin 1) * 128 + 1 * k.val = k.val; rw [e0]; omega
/-- the second layer's matrix -/
theorem blk9_read (c : Dev nD) (t : Fin cfg1.N) (a k : Fin 128) :
    iblk1 (F := Ideal) V c 9 t (ix2 a k) = wn2A V c (ix2 a k) := by
  obtain ⟨e0, e1⟩ := index1_9 t
  show wn2A V c (((cfg1.win 9).blk t).view.emb (ix2 a k)) = _
  refine congrArg _ (funext fun ax => Fin.ext ?_)
  match ax with
  | ⟨0, _⟩ => show win1_9.index t (0 : Fin 2) * 128 + 1 * a.val = a.val; rw [e0]; omega
  | ⟨1, _⟩ => show win1_9.index t (1 : Fin 2) * 128 + 1 * k.val = k.val; rw [e1]; omega
/-- and the second layer's bias. -/
theorem blk10_read (c : Dev nD) (t : Fin cfg1.N) (k : Fin 128) :
    iblk1 (F := Ideal) V c 10 t (ix1 k) = bn2A V c (ix1 k) := by
  have e0 := index1_10 t
  show bn2A V c (((cfg1.win 10).blk t).view.emb (ix1 k)) = _
  refine congrArg _ (funext fun ax => Fin.ext ?_)
  match ax with
  | ⟨0, _⟩ => show win1_10.index t (0 : Fin 1) * 128 + 1 * k.val = k.val; rw [e0]; omega

/-- Entry `(p, q)` of an output block of point `t` sits at row `2000 t + p`, column `q` of the new features … -/
theorem emb11 (t : Fin cfg1.N) (p : Fin 2000) (q : Fin 128) :
    (((cfg1.win 11).blk t).view.emb (ix2 p q) : S50000x128.Idx) = ix2 (rowAt t p) q := by
  obtain ⟨e0, e1⟩ := index1_11 t
  refine funext fun ax => Fin.ext ?_
  match ax with
  | ⟨0, _⟩ => show win1_11.index t (0 : Fin 2) * 2000 + 1 * p.val = t.val * 2000 + p.val; rw [e0]; omega
  | ⟨1, _⟩ => show win1_11.index t (1 : Fin 2) * 128 + 1 * q.val = q.val; rw [e1]; omega
/-- … and of the new coordinates. -/
theorem emb12 (t : Fin cfg1.N) (p : Fin 2000) (d : Fin 3) :
    (((cfg1.win 12).blk t).view.emb (ix2 p d) : S50000x3.Idx) = ix2 (rowAt t p) d := by
  obtain ⟨e0, e1⟩ := index1_12 t
  refine funext fun ax => Fin.ext ?_
  match ax with
  | ⟨0, _⟩ => show win1_12.index t (0 : Fin 2) * 2000 + 1 * p.val = t.val * 2000 + p.val; rw [e0]; omega
  | ⟨1, _⟩ => show win1_12.index t (1 : Fin 2) * 3 + 1 * d.val = d.val; rw [e1]; omega

/-- WHAT POINT `t` WRITES BACK to the new features is block `t` of the node layer's formula on the arrays' rows. -/
theorem feat_flushed (c : Dev nD) (t : Fin cfg1.N) :
    (dat1 (F := Ideal) V c).flushed 11 t
      = ((cfg1.win 11).blk t).view.read (Elt Ideal) (fun i : S50000x128.Idx => featRow V c (i 0) (i 1)) := by
  show (cfg1.win 11).cut (grid1.coords t) ((dat1 (F := Ideal) V c).after 11 t) = _
  rw [after1_11]
  unfold out1_11
  rw [View.canon_unit_zero zeros2]
  simp only [View.ld_unit_zero (S := S2000x128) zeros2, View.ld_unit_zero (S := S128x128) zeros2, View.ld_unit_zero (S := S128) zeros1]
  funext j
  obtain ⟨p, q, rfl⟩ : ∃ (p : Fin 2000) (q : Fin 128), j = ix2 p q := ⟨j 0, j 1, eq_ix2 j⟩
  show k1_pay2 (iblk1 V c 0 t) (iblk1 V c 1 t) (iblk1 V c 2 t) (iblk1 V c 6 t) (iblk1 V c 7 t) (iblk1 V c 8 t) (iblk1 V c 9 t) (iblk1 V c 10 t) (ix2 p q)
    = featRow V c ((((cfg1.win 11).blk t).view.emb (ix2 p q) : S50000x128.Idx) 0) ((((cfg1.win 11).blk t).view.emb (ix2 p q) : S50000x128.Idx) 1)
  rw [emb11, nodeFeat_pay]
  unfold featRow
  simp only [blk0_read, blk1_read, blk2_read, blk6_read, blk7_read, blk8_read, blk9_read, blk10_read]
  rfl

/-- WHAT POINT `t` WRITES BACK to the new coordinates is block `t` of the rows' new coordinates. -/
theorem coord_flushed (c : Dev nD) (t : Fin cfg1.N) :
    (dat1 (F := Ideal) V c).flushed 12 t
      = ((cfg1.win 12).blk t).view.read (Elt Ideal) (fun i : S50000x3.Idx => coordRow V c (i 0) (i 1)) := by
  show (cfg1.win 12).cut (grid1.coords t) ((dat1 (F := Ideal) V c).after 12 t) = _
  rw [after1_12]
  unfold out1_12
  rw [View.canon_unit_zero zeros2]
  simp only [View.ld_unit_zero (S := S2000x3) zeros2, View.ld_unit_zero (S := S2000x1) zeros2]
  funext j
  obtain ⟨p, d, rfl⟩ : ∃ (p : Fin 2000) (d : Fin 3), j = ix2 p d := ⟨j 0, j 1, eq_ix2 j⟩
  show k1_pay1 (iblk1 V c 3 t) (k1_pay3 (iblk1 V c 4 t)) (k1_pay4 (iblk1 V c 5 t)) (ix2 p d)
    = coordRow V c ((((cfg1.win 12).blk t).view.emb (ix2 p d) : S50000x3.Idx) 0) ((((cfg1.win 12).blk t).view.emb (ix2 p d) : S50000x3.Idx) 1)
  rw [emb12, nodeCoord_pay]
  unfold coordRow
  simp only [blk3_read, blk4_read, blk5_read]
  rfl

/-- An index of the new features is in point `t`'s block iff each coordinate is in the block's range on its axis. -/
theorem mem_blk11 (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v59_0).slice (win1_11.rect t)).set ↔ _
  rw [View.set_slice_whole, Rect.mem_set_unit]
  exact Iff.rfl

/-- The same for the new coordinates. -/
theorem mem_blk12 (t : Fin cfg1.N) (i : S50000x3.Idx) :
    i ∈ ((cfg1.win 12).blk t).view.set ↔ ∀ a : Fin 2, win1_12.index t a * S2000x3.size a ≤ (i a).val ∧ (i a).val < win1_12.index t a * S2000x3.size a + S2000x3.size a := by
  show i ∈ ((View.whole main_v59_1).slice (win1_12.rect t)).set ↔ _
  rw [View.set_slice_whole, Rect.mem_set_unit]
  exact Iff.rfl

/-- Row `r` is in the block of point `r / 2000`: the 25 blocks tile the new features … -/
theorem feat_cover (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, Nat.lt_of_lt_of_eq (by omega : (i 0).val / 2000 < 25) N_1.symm⟩, rfl⟩
  obtain ⟨e0, e1⟩ := index1_11 t
  refine ⟨t, flush1_11 t, ?_⟩
  rw [mem_blk11]
  intro a
  match a with
  | ⟨0, _⟩ => show win1_11.index t (0 : Fin 2) * 2000 ≤ (i 0).val ∧ (i 0).val < win1_11.index t (0 : Fin 2) * 2000 + 2000; rw [e0, ht]; omega
  | ⟨1, _⟩ => show win1_11.index t (1 : Fin 2) * 128 ≤ (i 1).val ∧ (i 1).val < win1_11.index t (1 : Fin 2) * 128 + 128; rw [e1]; omega

/-- … and the new coordinates. -/
theorem coord_cover (i : S50000x3.Idx) :
    ∃ t : Fin cfg1.N, (cfg1.win 12).flush t = true ∧ i ∈ ((cfg1.win 12).blk t).view.set := by
  have hi0 : (i 0).val < 50000 := (i 0).isLt
  have hi1 : (i 1).val < 3 := (i 1).isLt
  obtain ⟨t, ht⟩ : ∃ t : Fin cfg1.N, t.val = (i 0).val / 2000 :=
    ⟨⟨(i 0).val / 2000, Nat.lt_of_lt_of_eq (by omega : (i 0).val / 2000 < 25) N_1.symm⟩, rfl⟩
  obtain ⟨e0, e1⟩ := index1_12 t
  refine ⟨t, flush1_12 t, ?_⟩
  rw [mem_blk12]
  intro a
  match a with
  | ⟨0, _⟩ => show win1_12.index t (0 : Fin 2) * 2000 ≤ (i 0).val ∧ (i 0).val < win1_12.index t (0 : Fin 2) * 2000 + 2000; rw [e0, ht]; omega
  | ⟨1, _⟩ => show win1_12.index t (1 : Fin 2) * 3 ≤ (i 1).val ∧ (i 1).val < win1_12.index t (1 : Fin 2) * 3 + 3; rw [e1]; omega

end Blocks

/-- THE NEW FEATURES after the region. -/
theorem feat_arr (c : Dev nD) :
    (dat1 (F := Ideal) V c).arrAt 11 cfg1.N = fun i : S50000x128.Idx => featRow V c (i 0) (i 1) :=
  (dat1 (F := Ideal) V c).arrAt_eq_of_cover 11 _ (fun t _ => feat_flushed V c t) feat_cover

/-- THE NEW COORDINATES after the region. -/
theorem coord_arr (c : Dev nD) :
    (dat1 (F := Ideal) V c).arrAt 12 cfg1.N = fun i : S50000x3.Idx => coordRow V c (i 0) (i 1) :=
  (dat1 (F := Ideal) V c).arrAt_eq_of_cover 12 _ (fun t _ => coord_flushed V c t) coord_cover

end Cert.KernelIdeal.NodeRegion

end
-- ==== Proof.RefEdgeRows.lean ====
/-
  The reference's edge stages at an index, on the extended reals.  The reference joins the two gathered feature rows
  and the squared length of the coordinate difference into one row of 257 numbers and multiplies it by the whole
  257-row weight matrix; split into its two blocks of 128 rows and its last row (`Egcl.sum_split257`) that product is
  the sum the spec's `edgePre` writes.  Its `silu` is spelt `x · (1 / (1 + e⁻ˣ))` (`Egcl.silu_expanded`).
-/
import proofs.«167930_j21560735826057_1_alg».proof.Proof.RefRead
import proofs.«167930_j21560735826057_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.EdgeRows

open Idealize.ShloMosaic Idealize.ShloMosaic.TcCoe Idealize.SL.Sem Idealize.ShloMosaic.ValueIdx
open Cert.ReferenceIdeal Cert.ReferenceIdeal.Gen Cert.ReferenceIdeal.Read

variable (x0 : (⟨S50000x128, .f32⟩ : BufTy).Contents (Elt Ideal)) (x1 : (⟨S50000x3, .f32⟩ : BufTy).Contents (Elt Ideal)) (x2 : (⟨S2x600000, .i32⟩ : BufTy).Contents (Elt Ideal))
  (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x11 : (⟨S128x128, .f32⟩ : BufTy).Contents (Elt Ideal)) (x12 : (⟨S128, .f32⟩ : BufTy).Contents (Elt Ideal)) (x13 : (⟨S128x1, .f32⟩ : BufTy).Contents (Elt Ideal))

/-- The feature row of edge `e`, from row `e` of the reference's gathered arrays (`val_main_v28`, `val_main_v35`: the
    features of the edge's two nodes; `val_main_v18`: their coordinate difference) and the weights. -/
def featRow (e : Fin 600000) (j : Fin 128) : EReal :=
  Egcl.edgeFeat (fun a => val_main_v28 (F := Ideal) x0 x2 (ix2 e a)) (fun a => val_main_v35 (F := Ideal) x0 x2 (ix2 e a))
    (fun d => val_main_v18 (F := Ideal) x1 x2 (ix2 e d))
    (fun a k => x3 (ix2 (⟨a.val, by omega⟩ : Fin 257) k)) (fun a k => x3 (ix2 (⟨128 + a.val, by omega⟩ : Fin 257) k))
    (fun k => x3 (ix2 (⟨256, by omega⟩ : Fin 257) k)) (fun k => x4 (ix1 k))
    (fun a k => x5 (ix2 a k)) (fun k => x6 (ix1 k)) j

/-- The translation row of edge `e`. -/
def transRow (e : Fin 600000) (d : Fin 3) : EReal :=
  Egcl.edgeTrans (fun d => val_main_v18 (F := Ideal) x1 x2 (ix2 e d)) (featRow x0 x1 x2 x3 x4 x5 x6 e)
    (fun a k => x11 (ix2 a k)) (fun k => x12 (ix1 k)) (fun k => x13 (ix2 k (0 : Fin 1))) d

/-! ### The generated reads' index functions at explicit coordinates -/

private theorem lidx37 (e : Fin 600000) (k : Fin 128) (q : Fin 257) : lidx_main_v37 (ix2 e k) q = ix2 e q :=
  funext fun a => Fin.ext (by match a with | ⟨0, _⟩ => rfl | ⟨1, _⟩ => rfl)

private theorem ridx37 (e : Fin 600000) (k : Fin 128) (q : Fin 257) : ridx_main_v37 (ix2 e k) q = ix2 q k :=
  funext fun a => Fin.ext (by match a with | ⟨0, _⟩ => rfl | ⟨1, _⟩ => rfl)

private theorem bias39 (e : Fin 600000) (k : Fin 128) : idx_main_v38 (idx_main_v39 (ix2 e k)) = ix1 k :=
  funext fun a => Fin.ext (by match a with | ⟨0, _⟩ => rfl)

private theorem lidx42 (e : Fin 600000) (k q : Fin 128) : lidx_main_v42 (ix2 e k) q = ix2 e q :=
  funext fun a => Fin.ext (by match a with | ⟨0, _⟩ => rfl | ⟨1, _⟩ => rfl)

private theorem ridx42 (e : Fin 600000) (k q : Fin 128) : ridx_main_v42 (ix2 e k) q = ix2 q k :=
  funext fun a => Fin.ext (by match a with | ⟨0, _⟩ => rfl | ⟨1, _⟩ => rfl)

private theorem bias44 (e : Fin 600000) (k : Fin 128) : idx_main_v43 (idx_main_v44 (ix2 e k)) = ix1 k :=
  funext fun a => Fin.ext (by match a with | ⟨0, _⟩ => rfl)

private theorem lidx47 (e : Fin 600000) (k q : Fin 128) : lidx_main_v47 (ix2 e k) q = ix2 e q :=
  funext fun a => Fin.ext (by match a with | ⟨0, _⟩ => rfl | ⟨1, _⟩ => rfl)

private theorem ridx47 (e : Fin 600000) (k q : Fin 128) : ridx_main_v47 (ix2 e k) q = ix2 q k :=
  funext fun a => Fin.ext (by match a with | ⟨0, _⟩ => rfl | ⟨1, _⟩ => rfl)

private theorem bias49 (e : Fin 600000) (k : Fin 128) : idx_main_v48 (idx_main_v49 (ix2 e k)) = ix1 k :=
  funext fun a => Fin.ext (by match a with | ⟨0, _⟩ => rfl)

private theorem idx53 (e : Fin 600000) (d : Fin 3) : idx_main_v53 (ix2 e d) = ix2 e (0 : Fin 1) :=
  funext fun a => Fin.ext (by match a with | ⟨0, _⟩ => rfl | ⟨1, _⟩ => rfl)

private theorem lidx52 (e : Fin 600000) (q : Fin 128) : lidx_main_v52 (ix2 e (0 : Fin 1)) q = ix2 e q :=
  funext fun a => Fin.ext (by match a with | ⟨0, _⟩ => rfl | ⟨1, _⟩ => rfl)

private theorem ridx52 (e : Fin 600000) (q : Fin 128) : ridx_main_v52 (ix2 e (0 : Fin 1)) q = ix2 q (0 : Fin 1) :=
  funext fun a => Fin.ext (by match a with | ⟨0, _⟩ => rfl | ⟨1, _⟩ => rfl)

private theorem idx20 (e : Fin 600000) (d : Fin 3) : idx_main_v20 (idx_main_v21 (ix2 e (0 : Fin 1))) d = ix2 e d :=
  funext fun a => Fin.ext (by match a with | ⟨0, _⟩ => rfl | ⟨1, _⟩ => rfl)

/-! ### `silu` as the reference spells it -/

/-- The reference's `silu`: negate, exponential, add one, divide one by it, multiply. -/
private theorem silu_host (x : EReal) :
    FloatOps.mulf (F := Ideal) (φ := .f32) x (FloatOps.hostDivf (FloatOps.ofBits .f32 0x3F800000#32)
      (FloatOps.addf (FloatOps.ofBits .f32 0x3F800000#32) (FloatOps.hostUnary .exp (FloatOps.hostNegf x)))) = Egcl.silu x :=
  Egcl.silu_expanded x

/-! ### The joined row of 257 numbers, piece by piece -/

/-- The squared length of the coordinate difference of edge `e`: the zero word plus the three squares. -/
private theorem sq_apply (e : Fin 600000) :
    val_main_v21 (F := Ideal) x1 x2 (ix2 e (0 : Fin 1))
      = ∑ d : Fin 3, val_main_v18 (F := Ideal) x1 x2 (ix2 e d) * val_main_v18 (F := Ideal) x1 x2 (ix2 e d) := by
  rw [val_main_v21_apply, val_main_v20_apply, val_main_cst_apply, Ideal.ofBits_def, Ideal.ofBits_zero_f32, zero_add]
  refine Finset.sum_congr rfl fun d _ => ?_
  rw [idx20, val_main_v19_apply, Ideal.mulf_def]

/-- Columns 0…127 of the joined row are the first node's features. -/
private theorem cat_left (e : Fin 600000) (a : Fin 128) :
    val_main_v36 (F := Ideal) x0 x1 x2 (ix2 e (⟨a.val, by omega⟩ : Fin 257)) = val_main_v28 (F := Ideal) x0 x2 (ix2 e a) := by
  unfold val_main_v36
  exact concatenate_apply_piece (t := S600000x257) 1
    [⟨S600000x128, val_main_v28 (F := Ideal) x0 x2⟩, ⟨S600000x128, val_main_v35 (F := Ideal) x0 x2⟩, ⟨S600000x1, val_main_v21 (F := Ideal) x1 x2⟩]
    concatenates_S600000x128_S600000x128_S600000x1_S600000x257_d1 _ 0 (by simp) S600000x128 (val_main_v28 (F := Ideal) x0 x2) rfl rfl 0 rfl
    (ix2 e a) (fun b hb => by match b with | ⟨0, _⟩ => rfl | ⟨1, _⟩ => exact absurd rfl hb) (Nat.zero_add _)

/-- Columns 128…255 of the joined row are the second node's features. -/
private theorem cat_mid (e : Fin 600000) (a : Fin 128) :
    val_main_v36 (F := Ideal) x0 x1 x2 (ix2 e (⟨128 + a.val, by omega⟩ : Fin 257)) = val_main_v35 (F := Ideal) x0 x2 (ix2 e a) := by
  unfold val_main_v36
  exact concatenate_apply_piece (t := S600000x257) 1
    [⟨S600000x128, val_main_v28 (F := Ideal) x0 x2⟩, ⟨S600000x128, val_main_v35 (F := Ideal) x0 x2⟩, ⟨S600000x1, val_main_v21 (F := Ideal) x1 x2⟩]
    concatenates_S600000x128_S600000x128_S600000x1_S600000x257_d1 _ 1 (by simp) S600000x128 (val_main_v35 (F := Ideal) x0 x2) rfl rfl 128 rfl
    (ix2 e a) (fun b hb => by match b with | ⟨0, _⟩ => rfl | ⟨1, _⟩ => exact absurd rfl hb) rfl

/-- Column 256 of the joined row is the squared length of the coordinate difference. -/
private theorem cat_last (e : Fin 600000) :
    val_main_v36 (F := Ideal) x0 x1 x2 (ix2 e (⟨256, by omega⟩ : Fin 257)) = val_main_v21 (F := Ideal) x1 x2 (ix2 e (0 : Fin 1)) := by
  unfold val_main_v36
  exact concatenate_apply_piece (t := S600000x257) 1
    [⟨S600000x128, val_main_v28 (F := Ideal) x0 x2⟩, ⟨S600000x128, val_main_v35 (F := Ideal) x0 x2⟩, ⟨S600000x1, val_main_v21 (F := Ideal) x1 x2⟩]
    concatenates_S600000x128_S600000x128_S600000x1_S600000x257_d1 _ 2 (by simp) S600000x1 (val_main_v21 (F := Ideal) x1 x2) rfl rfl 256 rfl
    (ix2 e (0 : Fin 1)) (fun b hb => by match b with | ⟨0, _⟩ => rfl | ⟨1, _⟩ => exact absurd rfl hb) rfl

/-! ### The edge layers, stage by stage -/

/-- The first edge layer before its activation, for edge `e` at hidden unit `k`, from the gathered rows. -/
private abbrev preRow (e : Fin 600000) (k : Fin 128) : EReal :=
  Egcl.edgePre (fun a => val_main_v28 (F := Ideal) x0 x2 (ix2 e a)) (fun a => val_main_v35 (F := Ideal) x0 x2 (ix2 e a))
    (fun d => val_main_v18 (F := Ideal) x1 x2 (ix2 e d))
    (fun a k => x3 (ix2 (⟨a.val, by omega⟩ : Fin 257) k)) (fun a k => x3 (ix2 (⟨128 + a.val, by omega⟩ : Fin 257) k))
    (fun k => x3 (ix2 (⟨256, by omega⟩ : Fin 257) k)) (fun k => x4 (ix1 k)) k

/-- The product of the joined row with the whole weight matrix, split into its two blocks of 128 rows and its last row,
    plus the bias. -/
private theorem pre_apply (e : Fin 600000) (k : Fin 128) :
    val_main_v40 (F := Ideal) x0 x1 x2 x3 x4 (ix2 e k) = preRow x0 x1 x2 x3 x4 e k := by
  rw [val_main_v40_apply, Ideal.addf_def, val_main_v37_apply, Egcl.sum_split257, val_main_v39_apply, val_main_v38_apply, bias39]
  simp only [lidx37, ridx37, cat_left, cat_mid, cat_last, sq_apply]
  rfl

/-- The hidden row. -/
private theorem hid_apply (e : Fin 600000) (k : Fin 128) :
    val_main_v41 (F := Ideal) x0 x1 x2 x3 x4 (ix2 e k) = Egcl.silu (preRow x0 x1 x2 x3 x4 e k) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply, silu_host, pre_apply]

/-- The edge feature at explicit coordinates. -/
private theorem feat_ix (e : Fin 600000) (j : Fin 128) :
    val_main_v46 (F := Ideal) x0 x1 x2 x3 x4 x5 x6 (ix2 e j) = featRow x0 x1 x2 x3 x4 x5 x6 e j := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, silu_host, val_main_v45_apply, Ideal.addf_def, val_main_v42_apply, val_main_v44_apply,
    val_main_v43_apply, bias44]
  simp only [lidx42, ridx42, hid_apply]
  rfl

/-- The coordinate layer before its activation: the feature row through the matrix, plus the bias. -/
private theorem cpre_apply (e : Fin 600000) (k : Fin 128) :
    val_main_v50 (F := Ideal) x0 x1 x2 x3 x4 x5 x6 x11 x12 (ix2 e k)
      = (∑ i : Fin 128, featRow x0 x1 x2 x3 x4 x5 x6 e i * x11 (ix2 i k)) + x12 (ix1 k) := by
  rw [val_main_v50_apply, Ideal.addf_def, val_main_v47_apply, val_main_v49_apply, val_main_v48_apply, bias49]
  simp only [lidx47, ridx47, feat_ix]

/-- The coordinate layer's hidden row. -/
private theorem chid_apply (e : Fin 600000) (k : Fin 128) :
    val_main_v51 (F := Ideal) x0 x1 x2 x3 x4 x5 x6 x11 x12 (ix2 e k)
      = Egcl.silu ((∑ i : Fin 128, featRow x0 x1 x2 x3 x4 x5 x6 e i * x11 (ix2 i k)) + x12 (ix1 k)) := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply, silu_host, cpre_apply]

/-- The translation at explicit coordinates. -/
private theorem trans_ix (e : Fin 600000) (d : Fin 3) :
    val_main_v54 (F := Ideal) x0 x1 x2 x3 x4 x5 x6 x11 x12 x13 (ix2 e d) = transRow x0 x1 x2 x3 x4 x5 x6 x11 x12 x13 e d := by
  rw [val_main_v54_apply, Ideal.mulf_def, val_main_v53_apply, idx53, val_main_v52_apply]
  simp only [lidx52, ridx52, chid_apply]
  rfl

/-- The reference's edge features (its third result), index by index. -/
theorem feat (i : S600000x128.Idx) :
    val_main_v46 (F := Ideal) x0 x1 x2 x3 x4 x5 x6 i = featRow x0 x1 x2 x3 x4 x5 x6 (i 0) (i 1) := by
  exact (congrArg (val_main_v46 (F := Ideal) x0 x1 x2 x3 x4 x5 x6) (eq_ix2 i)).trans (feat_ix x0 x1 x2 x3 x4 x5 x6 (i 0) (i 1))

/-- The reference's translations, index by index. -/
theorem trans (i : S600000x3.Idx) :
    val_main_v54 (F := Ideal) x0 x1 x2 x3 x4 x5 x6 x11 x12 x13 i = transRow x0 x1 x2 x3 x4 x5 x6 x11 x12 x13 (i 0) (i 1) := by
  exact (congrArg (val_main_v54 (F := Ideal) x0 x1 x2 x3 x4 x5 x6 x11 x12 x13) (eq_ix2 i)).trans
    (trans_ix x0 x1 x2 x3 x4 x5 x6 x11 x12 x13 (i 0) (i 1))

end Cert.ReferenceIdeal.EdgeRows

end
-- ==== Proof.RefNodeRows.lean ====
/-
  The reference's node stages at an index, on the extended reals.  The reference joins a node's feature row and its
  aggregated edge features into one row of 256 numbers and multiplies it by the whole 256-row weight matrix; split into
  its two blocks of 128 rows (`Egcl.sum_split256`) that product is the sum the spec's `nodeFeat` writes.
-/
import proofs.«167930_j21560735826057_1_alg».proof.Proof.RefRead
import proofs.«167930_j21560735826057_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.NodeRows

open Idealize.ShloMosaic Idealize.ShloMosaic.TcCoe Idealize.SL.Sem Idealize.ShloMosaic.ValueIdx
open Cert.ReferenceIdeal Cert.ReferenceIdeal.Gen Cert.ReferenceIdeal.Read

variable (x0 : (⟨S50000x128, .f32⟩ : BufTy).Contents (Elt Ideal)) (x1 : (⟨S50000x3, .f32⟩ : BufTy).Contents (Elt Ideal)) (x2 : (⟨S2x600000, .i32⟩ : BufTy).Contents (Elt Ideal))
  (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal)) (x13 : (⟨S128x1, .f32⟩ : BufTy).Contents (Elt Ideal))

/-- The index the second product reads of its left operand is row `n`, column `k`. -/
private theorem lidx76_eq (n : Fin 50000) (j k : Fin 128) : lidx_main_v76 (ix2 n j) k = ix2 n k :=
  funext fun a => Fin.ext (by match a with | ⟨0, _⟩ => rfl | ⟨1, _⟩ => rfl)

/-- The index the second product reads of its weight matrix is row `k`, column `j`. -/
private theorem ridx76_eq (n : Fin 50000) (j k : Fin 128) : ridx_main_v76 (ix2 n j) k = ix2 k j :=
  funext fun a => Fin.ext (by match a with | ⟨0, _⟩ => rfl | ⟨1, _⟩ => rfl)

/-- The index the first product reads of the joined row is row `n`, column `c`. -/
private theorem lidx71_eq (n : Fin 50000) (k : Fin 128) (c : Fin 256) : lidx_main_v71 (ix2 n k) c = ix2 n c :=
  funext fun a => Fin.ext (by match a with | ⟨0, _⟩ => rfl | ⟨1, _⟩ => rfl)

/-- The index the first product reads of its weight matrix is row `c`, column `k`. -/
private theorem ridx71_eq (n : Fin 50000) (k : Fin 128) (c : Fin 256) : ridx_main_v71 (ix2 n k) c = ix2 c k :=
  funext fun a => Fin.ext (by match a with | ⟨0, _⟩ => rfl | ⟨1, _⟩ => rfl)

/-- The joined row at a column of its first half is the node's own feature. -/
private theorem v70_left (n : Fin 50000) (a : Fin 128) :
    val_main_v70 (F := Ideal) x0 x1 x2 x3 x4 x5 x6 (ix2 n (⟨a.val, by omega⟩ : Fin 256)) = x0 (ix2 n a) := by
  unfold val_main_v70
  exact concatenate_pair_apply_left (t := S50000x256) (s₁ := S50000x128) (s₂ := S50000x128) 1 x0 _ _
    (ix2 n (⟨a.val, by omega⟩ : Fin 256)) rfl (ix2 n a) (fun b => by
    match b with
    | ⟨0, _⟩ => rfl
    | ⟨1, _⟩ => rfl)

/-- The joined row at a column of its second half is the aggregated edge feature. -/
private theorem v70_right (n : Fin 50000) (a : Fin 128) :
    val_main_v70 (F := Ideal) x0 x1 x2 x3 x4 x5 x6 (ix2 n (⟨128 + a.val, by omega⟩ : Fin 256))
      = val_main_v69 (F := Ideal) x0 x1 x2 x3 x4 x5 x6 (ix2 n a) := by
  unfold val_main_v70
  exact concatenate_pair_apply_right (t := S50000x256) (s₁ := S50000x128) (s₂ := S50000x128) 1 x0 _ _
    (ix2 n (⟨128 + a.val, by omega⟩ : Fin 256)) rfl rfl (ix2 n a) (fun b => by
    match b with
    | ⟨0, _⟩ => exact fun _ => rfl
    | ⟨1, _⟩ => exact fun h => absurd rfl h) (by show a.val + 128 = 128 + a.val; omega)

/-- The first layer before its activation, at row `n` and hidden unit `k`: the 256-term product split into the node's
    own block and the aggregated block, plus the bias. -/
private theorem pre_apply (n : Fin 50000) (k : Fin 128) :
    val_main_v74 (F := Ideal) x0 x1 x2 x3 x4 x5 x6 x7 x8 (ix2 n k)
      = (∑ a : Fin 128, x0 (ix2 n a) * x7 (ix2 (⟨a.val, by omega⟩ : Fin 256) k))
        + (∑ a : Fin 128, val_main_v69 (F := Ideal) x0 x1 x2 x3 x4 x5 x6 (ix2 n a) * x7 (ix2 (⟨128 + a.val, by omega⟩ : Fin 256) k))
        + x8 (ix1 k) := by
  rw [val_main_v74_apply, val_main_v71_apply, val_main_v73_apply, val_main_v72_apply]
  simp only [Ideal.addf_def]
  rw [Egcl.sum_split256]
  refine congrArg₂ (· + ·) (congrArg₂ (· + ·) (Finset.sum_congr rfl fun a _ => ?_) (Finset.sum_congr rfl fun a _ => ?_)) ?_
  · beta_reduce
    rw [lidx71_eq, ridx71_eq, v70_left]
  · beta_reduce
    rw [lidx71_eq, ridx71_eq, v70_right]
  · exact congrArg x8 (funext fun a => Fin.ext (by match a with | ⟨0, _⟩ => rfl))

/-- The activation stage: negate, exponential, add one, divide one by it, multiply — the `silu` of the stage before. -/
private theorem act_apply (j : S50000x128.Idx) :
    val_main_v75 (F := Ideal) x0 x1 x2 x3 x4 x5 x6 x7 x8 j
      = Egcl.silu (val_main_v74 (F := Ideal) x0 x1 x2 x3 x4 x5 x6 x7 x8 j) := by
  rw [val_main_v75_apply, val_main_call3_v5_apply, val_main_call3_v4_apply, val_main_call3_cst_0_apply,
    val_main_call3_v3_apply, val_main_call3_v2_apply, val_main_call3_cst_apply, val_main_call3_v1_apply,
    val_main_call3_v0_apply]
  simp only [Ideal.mulf_def, Ideal.hostDivf_def, Ideal.addf_def, Ideal.hostUnary_exp_def, Ideal.hostNegf_def,
    Ideal.negf_def, Ideal.ofBits_def]
  exact Egcl.silu_expanded _

/-- The reference's new features (its first result), index by index: the node's own row, twice, and row `n` of the
    aggregated edge features `val_main_v69`. -/
theorem feat (i : S50000x128.Idx) :
    val_main_v80 (F := Ideal) x0 x1 x2 x3 x4 x5 x6 x7 x8 x9 x10 i
      = Egcl.nodeFeat (fun a => x0 (ix2 (i 0) a)) (fun a => x0 (ix2 (i 0) a))
          (fun a => val_main_v69 (F := Ideal) x0 x1 x2 x3 x4 x5 x6 (ix2 (i 0) a))
          (fun a k => x7 (ix2 (⟨a.val, by omega⟩ : Fin 256) k)) (fun a k => x7 (ix2 (⟨128 + a.val, by omega⟩ : Fin 256) k))
          (fun k => x8 (ix1 k)) (fun a k => x9 (ix2 a k)) (fun k => x10 (ix1 k)) (i 1) := by
  obtain ⟨n, j, rfl⟩ : ∃ n j, i = ix2 n j := ⟨i 0, i 1, eq_ix2 i⟩
  rw [val_main_v80_apply, val_main_v79_apply, val_main_v76_apply, val_main_v78_apply, val_main_v77_apply]
  simp only [Ideal.addf_def]
  show _ = x0 (ix2 n j) + ((∑ k : Fin 128, Egcl.silu ((∑ a : Fin 128, x0 (ix2 n a) * x7 (ix2 (⟨a.val, by omega⟩ : Fin 256) k))
      + (∑ a : Fin 128, val_main_v69 (F := Ideal) x0 x1 x2 x3 x4 x5 x6 (ix2 n a) * x7 (ix2 (⟨128 + a.val, by omega⟩ : Fin 256) k))
      + x8 (ix1 k)) * x9 (ix2 k j)) + x10 (ix1 j))
  refine congrArg (x0 (ix2 n j) + ·) (congrArg₂ (· + ·) (Finset.sum_congr rfl fun k _ => ?_) ?_)
  · rw [lidx76_eq, ridx76_eq, act_apply, pre_apply]
  · exact congrArg x10 (funext fun a => Fin.ext (by match a with | ⟨0, _⟩ => rfl))

/-- The reference's new coordinates (its second result), index by index: the node's coordinates, row `n` of the
    summed translations `val_main_v57` and entry `n` of the edge counts `val_main_v61`. -/
theorem coord (i : S50000x3.Idx) :
    val_main_v66 (F := Ideal) x0 x1 x2 x3 x4 x5 x6 x11 x12 x13 i
      = Egcl.nodeCoord (fun d => x1 (ix2 (i 0) d))
          (fun d => val_main_v57 (F := Ideal) x0 x1 x2 x3 x4 x5 x6 x11 x12 x13 (ix2 (i 0) d))
          (val_main_v61 (F := Ideal) x2 (ix2 (i 0) (0 : Fin 1))) (Ideal.ofBits .f32 0x3F800000#32) (i 1) := by
  obtain ⟨n, d, rfl⟩ : ∃ n d, i = ix2 n d := ⟨i 0, i 1, eq_ix2 i⟩
  rw [val_main_v66_apply, val_main_v65_apply, val_main_v64_apply, val_main_v63_apply, val_main_v62_apply,
    val_main_cst_10_apply]
  simp only [Ideal.addf_def, Ideal.hostDivf_def, Ideal.maximumf_def, Ideal.ofBits_def]
  have e : idx_main_v64 (ix2 n d) = ix2 n (0 : Fin 1) :=
    funext fun a => Fin.ext (by match a with | ⟨0, _⟩ => rfl | ⟨1, _⟩ => rfl)
  rw [e]
  rfl

end Cert.ReferenceIdeal.NodeRows

end
-- ==== Proof.BridgeArgs.lean ====
/-
  The kernel program's argument arrays, named at the types the reference's stages take them.  Both programs have the
  same fourteen arguments with the same shapes; a float array is a function from indices to extended reals whatever its
  format.
-/
import proofs.«167930_j21560735826057_1_alg».proof.Proof.Gen.KernelIdeal.Frame
import proofs.«167930_j21560735826057_1_alg».proof.Proof.RefRead

noncomputable section

namespace Cert.Bridge

open Idealize.ShloMosaic Idealize.ShloMosaic.TcCoe Idealize.SL.Sem
open Cert.KernelIdeal Cert.KernelIdeal.Gen

variable (m : (ℓ : Loc nD τ sig) → Buf (Elt Ideal) ℓ)

/-! ## The kernel program's argument arrays at launch, at the types the reference's stages take them -/

abbrev a0 (c : Dev nD) : (⟨Cert.ReferenceIdeal.S50000x128, .f32⟩ : BufTy).Contents (Elt Ideal) := m ((c.tc : Thread nD τ).loc main_arg0)
abbrev a1 (c : Dev nD) : (⟨Cert.ReferenceIdeal.S50000x3, .f32⟩ : BufTy).Contents (Elt Ideal) := m ((c.tc : Thread nD τ).loc main_arg1)
abbrev a2 (c : Dev nD) : (⟨Cert.ReferenceIdeal.S2x600000, .i32⟩ : BufTy).Contents (Elt Ideal) := m ((c.tc : Thread nD τ).loc main_arg2)
abbrev a3 (c : Dev nD) : (⟨Cert.ReferenceIdeal.S257x128, .f32⟩ : BufTy).Contents (Elt Ideal) := m ((c.tc : Thread nD τ).loc main_arg3)
abbrev a4 (c : Dev nD) : (⟨Cert.ReferenceIdeal.S128, .f32⟩ : BufTy).Contents (Elt Ideal) := m ((c.tc : Thread nD τ).loc main_arg4)
abbrev a5 (c : Dev nD) : (⟨Cert.ReferenceIdeal.S128x128, .f32⟩ : BufTy).Contents (Elt Ideal) := m ((c.tc : Thread nD τ).loc main_arg5)
abbrev a6 (c : Dev nD) : (⟨Cert.ReferenceIdeal.S128, .f32⟩ : BufTy).Contents (Elt Ideal) := m ((c.tc : Thread nD τ).loc main_arg6)
abbrev a7 (c : Dev nD) : (⟨Cert.ReferenceIdeal.S256x128, .f32⟩ : BufTy).Contents (Elt Ideal) := m ((c.tc : Thread nD τ).loc main_arg7)
abbrev a8 (c : Dev nD) : (⟨Cert.ReferenceIdeal.S128, .f32⟩ : BufTy).Contents (Elt Ideal) := m ((c.tc : Thread nD τ).loc main_arg8)
abbrev a9 (c : Dev nD) : (⟨Cert.ReferenceIdeal.S128x128, .f32⟩ : BufTy).Contents (Elt Ideal) := m ((c.tc : Thread nD τ).loc main_arg9)
abbrev a10 (c : Dev nD) : (⟨Cert.ReferenceIdeal.S128, .f32⟩ : BufTy).Contents (Elt Ideal) := m ((c.tc : Thread nD τ).loc main_arg10)
abbrev a11 (c : Dev nD) : (⟨Cert.ReferenceIdeal.S128x128, .f32⟩ : BufTy).Contents (Elt Ideal) := m ((c.tc : Thread nD τ).loc main_arg11)
abbrev a12 (c : Dev nD) : (⟨Cert.ReferenceIdeal.S128, .f32⟩ : BufTy).Contents (Elt Ideal) := m ((c.tc : Thread nD τ).loc main_arg12)
abbrev a13 (c : Dev nD) : (⟨Cert.ReferenceIdeal.S128x1, .f32⟩ : BufTy).Contents (Elt Ideal) := m ((c.tc : Thread nD τ).loc main_arg13)

end Cert.Bridge

end
-- ==== Proof.BridgeHost0.lean ====
/-
  What the edge kernel's region finds in its input arrays.  Before the region the host gathers the feature rows and
  the coordinates of each edge's two nodes (the same index arithmetic and the same gathers as the reference's, the
  features first passed through a change of float format, which is the identity on the extended reals), subtracts the
  coordinates, cuts the first weight matrix into its two blocks of 128 rows and its last row, and changes the format
  of the other weight matrices.  So each input array of the region is the reference's stage of the same name, or the
  argument array itself, read at the same index.
-/
import proofs.«167930_j21560735826057_1_alg».proof.Proof.BridgeArgs
import Idealize.ShloMosaic.Lib.Pipeline.Value
import Idealize.ShloMosaic.Lib.ValueIdx
import Idealize.ShloMosaic.Lib.StableHlo.Run

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## The two programs' gathers are the same gather

Each program declares its own record of a gather's dimension numbers; the two records have the same fields. -/

/-- The gather of feature rows (one row of 128 numbers per index). -/
private theorem gather128_eq :
    (gather_S50000x128_S600000x1_S600000x128_1_0_n_n_0_1_1128
      : GatherDims Cert.ReferenceIdeal.S50000x128 Cert.ReferenceIdeal.S600000x1 Cert.ReferenceIdeal.S600000x128)
      = Cert.ReferenceIdeal.gather_S50000x128_S600000x1_S600000x128_1_0_n_n_0_1_1128 := rfl

/-- The gather of coordinates (one row of 3 numbers per index). -/
private theorem gather3_eq :
    (gather_S50000x3_S600000x1_S600000x3_1_0_n_n_0_1_13
      : GatherDims Cert.ReferenceIdeal.S50000x3 Cert.ReferenceIdeal.S600000x1 Cert.ReferenceIdeal.S600000x3)
      = Cert.ReferenceIdeal.gather_S50000x3_S600000x1_S600000x3_1_0_n_n_0_1_13 := rfl

/-- A gather is a function of its dimension numbers, its operand and its indices. -/
private theorem gather_congr {α : Type} {s si t : Shape} {w : Nat} {d d' : GatherDims s si t} (hd : d = d')
    {x x' : s.Idx → α} (hx : x = x') {i i' : IVec si w} (hi : i = i') :
    Host.gather d x i = Host.gather d' x' i' := by subst hd hx hi; rfl

/-- The index column a gather takes: an index `r` below `z` (zero) is moved up by `n` (the number of nodes), the others
    are kept, and the vector is made a one-column matrix. A function of `r`, `z` and `n`. -/
private theorem wrapCol_congr {s t : Shape} {dims : Fin s.rank → Fin t.rank} {h h' : s.BroadcastsInDim t dims}
    {r r' z z' n n' : IVec s 32} (hr : r = r') (hz : z = z') (hn : n = n') :
    broadcastInDim t dims h (select (cmpi .slt r z) (addi r n) r)
      = broadcastInDim t dims h' (select (cmpi .slt r' z') (addi r' n') r') := by
  subst hr hz hn; rfl

set_option maxHeartbeats 400000 in
/-- The features of each edge's source node. -/
theorem hrow_eq (c : Dev nD) :
    (V1 m ρ c main_v11 : (⟨Cert.ReferenceIdeal.S600000x128, .f32⟩ : BufTy).Contents (Elt Ideal)) = Cert.ReferenceIdeal.Read.val_main_v28 (F := Ideal) (a0 m c) (a2 m c) := by
  -- the source indices are row 0 of the edge list; both programs wrap them and gather the same rows of the same features
  show StableHlo.after hostOps0 (W0 m ρ c) (Proc.devRef .tc main_v11) = _
  after_results_simp
  unfold Cert.ReferenceIdeal.Read.val_main_v28 Cert.ReferenceIdeal.Read.val_main_v27 Cert.ReferenceIdeal.Read.val_main_v26 Cert.ReferenceIdeal.Read.val_main_v23 Cert.ReferenceIdeal.Read.val_main_v22 Cert.ReferenceIdeal.Read.val_main_c_3
    Cert.ReferenceIdeal.Read.val_main_v25 Cert.ReferenceIdeal.Read.val_main_v24 Cert.ReferenceIdeal.Read.val_main_c_4 Cert.ReferenceIdeal.Read.val_main_v1 Cert.ReferenceIdeal.Read.val_main_v0
  refine gather_congr gather128_eq (funext fun _ => rfl) (wrapCol_congr ?_ rfl rfl)
  rfl

set_option maxHeartbeats 400000 in
/-- The features of each edge's target node. -/
theorem hcol_eq (c : Dev nD) :
    (V1 m ρ c main_v18 : (⟨Cert.ReferenceIdeal.S600000x128, .f32⟩ : BufTy).Contents (Elt Ideal)) = Cert.ReferenceIdeal.Read.val_main_v35 (F := Ideal) (a0 m c) (a2 m c) := by
  -- the target indices are row 1 of the edge list
  show StableHlo.after hostOps0 (W0 m ρ c) (Proc.devRef .tc main_v18) = _
  after_results_simp
  unfold Cert.ReferenceIdeal.Read.val_main_v35 Cert.ReferenceIdeal.Read.val_main_v34 Cert.ReferenceIdeal.Read.val_main_v33 Cert.ReferenceIdeal.Read.val_main_v30 Cert.ReferenceIdeal.Read.val_main_v29 Cert.ReferenceIdeal.Read.val_main_c_5
    Cert.ReferenceIdeal.Read.val_main_v32 Cert.ReferenceIdeal.Read.val_main_v31 Cert.ReferenceIdeal.Read.val_main_c_6 Cert.ReferenceIdeal.Read.val_main_v3 Cert.ReferenceIdeal.Read.val_main_v2
  refine gather_congr gather128_eq (funext fun _ => rfl) (wrapCol_congr ?_ rfl rfl)
  rfl

set_option maxHeartbeats 400000 in
/-- The coordinate difference of each edge. -/
theorem cd_eq (c : Dev nD) :
    (V1 m ρ c main_v33 : (⟨Cert.ReferenceIdeal.S600000x3, .f32⟩ : BufTy).Contents (Elt Ideal)) = Cert.ReferenceIdeal.Read.val_main_v18 (F := Ideal) (a1 m c) (a2 m c) := by
  -- the difference of two gathers of the coordinates, by the source and by the target indices
  show StableHlo.after hostOps0 (W0 m ρ c) (Proc.devRef .tc main_v33) = _
  after_results_simp
  unfold Cert.ReferenceIdeal.Read.val_main_v18
    Cert.ReferenceIdeal.Read.val_main_v10 Cert.ReferenceIdeal.Read.val_main_v9 Cert.ReferenceIdeal.Read.val_main_v8 Cert.ReferenceIdeal.Read.val_main_v5 Cert.ReferenceIdeal.Read.val_main_v4 Cert.ReferenceIdeal.Read.val_main_c
    Cert.ReferenceIdeal.Read.val_main_v7 Cert.ReferenceIdeal.Read.val_main_v6 Cert.ReferenceIdeal.Read.val_main_c_0
    Cert.ReferenceIdeal.Read.val_main_v17 Cert.ReferenceIdeal.Read.val_main_v16 Cert.ReferenceIdeal.Read.val_main_v15 Cert.ReferenceIdeal.Read.val_main_v12 Cert.ReferenceIdeal.Read.val_main_v11 Cert.ReferenceIdeal.Read.val_main_c_1
    Cert.ReferenceIdeal.Read.val_main_v14 Cert.ReferenceIdeal.Read.val_main_v13 Cert.ReferenceIdeal.Read.val_main_c_2
    Cert.ReferenceIdeal.Read.val_main_v1 Cert.ReferenceIdeal.Read.val_main_v0 Cert.ReferenceIdeal.Read.val_main_v3 Cert.ReferenceIdeal.Read.val_main_v2
  refine congrArg₂ subf (gather_congr gather3_eq rfl (wrapCol_congr ?_ rfl rfl))
    (gather_congr gather3_eq rfl (wrapCol_congr ?_ rfl rfl))
  · rfl
  · rfl

/-- The first 128 rows of the first edge weight matrix. -/
theorem w1a_eq (c : Dev nD) (a k : Fin 128) :
    (V1 m ρ c main_v35 : Vec Ideal S128x128 .bf16) (ix2 a k) = a3 m c (ix2 (⟨a.val, by omega⟩ : Fin 257) k) := by
  show (StableHlo.after hostOps0 (W0 m ρ c) (Proc.devRef .tc main_v35) : Vec Ideal S128x128 .bf16) (ix2 a k) = _
  after_results_simp
  rw [truncf_apply]
  exact extractStridedSlice_apply ![0, 0] (a3 m c) _ (ix2 a k) (ix2 (⟨a.val, by omega⟩ : Fin 257) k) (fun d => match d with
    | ⟨0, _⟩ => by show a.val = 0 + a.val; omega
    | ⟨1, _⟩ => by show k.val = 0 + k.val; omega)

/-- Its rows 128 to 255. -/
theorem w1b_eq (c : Dev nD) (a k : Fin 128) :
    (V1 m ρ c main_v37 : Vec Ideal S128x128 .bf16) (ix2 a k) = a3 m c (ix2 (⟨128 + a.val, by omega⟩ : Fin 257) k) := by
  show (StableHlo.after hostOps0 (W0 m ρ c) (Proc.devRef .tc main_v37) : Vec Ideal S128x128 .bf16) (ix2 a k) = _
  after_results_simp
  rw [truncf_apply]
  exact extractStridedSlice_apply ![128, 0] (a3 m c) _ (ix2 a k) (ix2 (⟨128 + a.val, by omega⟩ : Fin 257) k) (fun d => match d with
    | ⟨0, _⟩ => by show 128 + a.val = 128 + a.val; omega
    | ⟨1, _⟩ => by show k.val = 0 + k.val; omega)

/-- Its last row. -/
theorem w1c_eq (c : Dev nD) (k : Fin 128) :
    (V1 m ρ c main_v38 : Vec Ideal S1x128 .f32) (ix2 (0 : Fin 1) k) = a3 m c (ix2 (⟨256, by omega⟩ : Fin 257) k) := by
  show (StableHlo.after hostOps0 (W0 m ρ c) (Proc.devRef .tc main_v38) : Vec Ideal S1x128 .f32) (ix2 (0 : Fin 1) k) = _
  after_results_simp
  exact extractStridedSlice_apply ![256, 0] (a3 m c) _ (ix2 (0 : Fin 1) k) (ix2 (⟨256, by omega⟩ : Fin 257) k) (fun d => match d with
    | ⟨0, _⟩ => by show 256 = 256 + (0 : Fin 1).val; rfl
    | ⟨1, _⟩ => by show k.val = 0 + k.val; omega)

theorem b1_eq (c : Dev nD) : (V1 m ρ c main_arg4 : (⟨Cert.ReferenceIdeal.S128, .f32⟩ : BufTy).Contents (Elt Ideal)) = a4 m c := by
  -- no host operation writes this argument
  show StableHlo.after hostOps0 (W0 m ρ c) (Proc.devRef .tc main_arg4) = _
  after_results_simp

theorem w2_eq (c : Dev nD) : (V1 m ρ c main_v39 : (⟨Cert.ReferenceIdeal.S128x128, .f32⟩ : BufTy).Contents (Elt Ideal)) = a5 m c := by
  -- the argument through a change of float format, the identity on the extended reals
  show StableHlo.after hostOps0 (W0 m ρ c) (Proc.devRef .tc main_v39) = _
  after_results_simp
  exact funext fun _ => rfl

theorem b2_eq (c : Dev nD) : (V1 m ρ c main_arg6 : (⟨Cert.ReferenceIdeal.S128, .f32⟩ : BufTy).Contents (Elt Ideal)) = a6 m c := by
  -- no host operation writes this argument
  show StableHlo.after hostOps0 (W0 m ρ c) (Proc.devRef .tc main_arg6) = _
  after_results_simp

theorem wc1_eq (c : Dev nD) : (V1 m ρ c main_v40 : (⟨Cert.ReferenceIdeal.S128x128, .f32⟩ : BufTy).Contents (Elt Ideal)) = a11 m c := by
  -- the argument through a change of float format, the identity on the extended reals
  show StableHlo.after hostOps0 (W0 m ρ c) (Proc.devRef .tc main_v40) = _
  after_results_simp
  exact funext fun _ => rfl

theorem bc1_eq (c : Dev nD) : (V1 m ρ c main_arg12 : (⟨Cert.ReferenceIdeal.S128, .f32⟩ : BufTy).Contents (Elt Ideal)) = a12 m c := by
  -- no host operation writes this argument
  show StableHlo.after hostOps0 (W0 m ρ c) (Proc.devRef .tc main_arg12) = _
  after_results_simp

theorem wc2_eq (c : Dev nD) : (V1 m ρ c main_v41 : (⟨Cert.ReferenceIdeal.S128x1, .f32⟩ : BufTy).Contents (Elt Ideal)) = a13 m c := by
  -- the argument through a change of float format, the identity on the extended reals
  show StableHlo.after hostOps0 (W0 m ρ c) (Proc.devRef .tc main_v41) = _
  after_results_simp
  exact funext fun _ => rfl

end Cert.Bridge

end
-- ==== Proof.BridgeHost1.lean ====
/-
  What the node kernel's region finds in its input arrays, and where the three results sit at the end.  Between the two
  regions the host sums, for every node, the edge features, the translations and a one per edge over the edges leaving
  it (three scatter-adds into zero arrays at the edges' source indices, the reference's own), changes the format of the
  aggregated features and of the weight matrices, and cuts the node weight matrix into its two blocks of 128 rows.  The
  edge features and translations it reads are the edge region's two output arrays.
-/
import proofs.«167930_j21560735826057_1_alg».proof.Proof.BridgeArgs
import Idealize.ShloMosaic.Lib.Pipeline.Value
import Idealize.ShloMosaic.Lib.ValueIdx
import Idealize.ShloMosaic.Lib.StableHlo.Run

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## Walking a buffer back through the boundaries

A buffer that no operation of a host stretch writes holds after the stretch what it held before it: the stretch's
operations are listed, each writes one named buffer, and the names differ. -/

local macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- An argument array that is no array of the edge region holds at that region's exit what it held at launch. -/
private theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := by keeps hostOps0
    _ = m ((c : Thread nD τ).loc main_arg0) := rfl

private theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by keeps hostOps0
    _ = m ((c : Thread nD τ).loc main_arg1) := rfl

private theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by keeps hostOps0
    _ = m ((c : Thread nD τ).loc main_arg7) := rfl

private theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by keeps hostOps0
    _ = m ((c : Thread nD τ).loc main_arg8) := rfl

private theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by keeps hostOps0
    _ = m ((c : Thread nD τ).loc main_arg9) := rfl

private theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by keeps hostOps0
    _ = m ((c : Thread nD τ).loc main_arg10) := rfl

/-- A change of float format is the identity on arrays of extended reals. -/
private theorem truncf_bf16_eq {s : Shape} (x : FVec Ideal s .f32) (h : FTy.bits .bf16 < FTy.bits .f32) :
    (truncf (F := Ideal) (φ := .f32) .bf16 x h : FVec Ideal s .bf16) = x := funext fun _ => rfl

/-- The index array the three sums scatter at is the reference's: the first row of the edge list, cut out and
    flattened, read at the edge region's exit as the launch left it. -/
private theorem src_eq (c : Dev nD) :
    (W2 m ρ c (Proc.devRef .tc main_v1) : (⟨Cert.ReferenceIdeal.S600000, .i32⟩ : BufTy).Contents (Elt Ideal))
      = Cert.ReferenceIdeal.Read.val_main_v1 (F := Ideal) (a2 m c) := by
  have h2 : W2 m ρ c (Proc.devRef .tc main_v1) = W1 m ρ c (Proc.devRef .tc main_v1) := W2_of_ne m ρ c main_v1 (by decide)
  have h1 : W1 m ρ c (Proc.devRef .tc main_v1)
      = (shapeCast S600000 (extractStridedSlice S1x600000 ![0, 0]
            (W0 m ρ c (Proc.devRef .tc main_arg2) : (⟨S2x600000, .i32⟩ : BufTy).Contents (Elt Ideal)) slices_S2x600000_S1x600000_0_0)
          shapeCasts_S1x600000_S600000 : (⟨S600000, .i32⟩ : BufTy).Contents (Elt Ideal)) := by
    show StableHlo.after hostOps0 (W0 m ρ c) (Proc.devRef .tc main_v1) = _
    after_results
    first | done | rfl
  refine (h2.trans h1).trans ?_
  unfold Cert.ReferenceIdeal.Read.val_main_v1 Cert.ReferenceIdeal.Read.val_main_v0
  rfl

/-! ## The edge region's outputs at its exit -/

theorem W2_feat (c : Dev nD) : W2 m ρ c (Proc.devRef .tc main_v42_0) = (dat0 (F := Ideal) (V1 m ρ) c).arrAt 12 cfg0.N :=
  W2_arr m ρ c 12

theorem W2_trans (c : Dev nD) : W2 m ρ c (Proc.devRef .tc main_v42_1) = (dat0 (F := Ideal) (V1 m ρ) c).arrAt 13 cfg0.N :=
  W2_arr m ρ c 13

/-! ## The node region's input arrays -/

theorem h_eq (c : Dev nD) : (V3 m ρ c main_arg0 : (⟨Cert.ReferenceIdeal.S50000x128, .f32⟩ : BufTy).Contents (Elt Ideal)) = a0 m c :=
  calc W3 m ρ c (Proc.devRef .tc main_arg0)
    _ = W2 m ρ c (Proc.devRef .tc main_arg0) := by keeps hostOps1
    _ = m ((c : Thread nD τ).loc main_arg0) := W2_arg0 m ρ c

theorem hb_eq (c : Dev nD) : (V3 m ρ c main_v4 : (⟨Cert.ReferenceIdeal.S50000x128, .f32⟩ : BufTy).Contents (Elt Ideal)) = a0 m c := by
  have h3 : W3 m ρ c (Proc.devRef .tc main_v4) = W2 m ρ c (Proc.devRef .tc main_v4) := by keeps hostOps1
  have h2 : W2 m ρ c (Proc.devRef .tc main_v4) = W1 m ρ c (Proc.devRef .tc main_v4) := W2_of_ne m ρ c main_v4 (by decide)
  have h1 : W1 m ρ c (Proc.devRef .tc main_v4)
      = (truncf (F := Ideal) (φ := .f32) .bf16 (W0 m ρ c (Proc.devRef .tc main_arg0) : (⟨S50000x128, .f32⟩ : BufTy).Contents (Elt Ideal)) bitsLt_bf16_f32
          : (⟨S50000x128, .bf16⟩ : BufTy).Contents (Elt Ideal)) := by
    show StableHlo.after hostOps0 (W0 m ρ c) (Proc.devRef .tc main_v4) = _
    after_results
  exact (h3.trans (h2.trans h1)).trans (truncf_bf16_eq _ _)

/-- The aggregated edge features: the reference's scatter-add (its zero array, its index array) of the edge region's
    first output. -/
theorem agg_eq (c : Dev nD) :
    (V3 m ρ c main_v53 : (⟨Cert.ReferenceIdeal.S50000x128, .f32⟩ : BufTy).Contents (Elt Ideal))
      = Host.scatterAdd (F := Ideal) (φ := .f32) Cert.ReferenceIdeal.scatter_S50000x128_S600000x1_S600000x128_1_0_0_1 (Cert.ReferenceIdeal.Read.val_main_v67 (F := Ideal))
          (Cert.ReferenceIdeal.Read.val_main_v68 (F := Ideal) (a2 m c)) (W2 m ρ c (Proc.devRef .tc main_v42_0) : (⟨Cert.ReferenceIdeal.S600000x128, .f32⟩ : BufTy).Contents (Elt Ideal)) := by
  have h3 : W3 m ρ c (Proc.devRef .tc main_v53)
      = (truncf (F := Ideal) (φ := .f32) .bf16 (Host.scatterAdd (F := Ideal) (φ := .f32) scatter_S50000x128_S600000x1_S600000x128_1_0_0_1
          (broadcastInDim S50000x128 ![] bcast_S_S50000x128 (constant (F := Ideal) S_ .f32 0x00000000#32))
          (broadcastInDim S600000x1 ![0] bcast_S600000_S600000x1_0
            (W2 m ρ c (Proc.devRef .tc main_v1) : (⟨S600000, .i32⟩ : BufTy).Contents (Elt Ideal)))
          (W2 m ρ c (Proc.devRef .tc main_v42_0) : (⟨S600000x128, .f32⟩ : BufTy).Contents (Elt Ideal))) bitsLt_bf16_f32
          : (⟨S50000x128, .bf16⟩ : BufTy).Contents (Elt Ideal)) := by
    show StableHlo.after hostOps1 (W2 m ρ c) (Proc.devRef .tc main_v53) = _
    after_results
  refine h3.trans ((truncf_bf16_eq _ _).trans ?_)
  rw [src_eq]
  unfold Cert.ReferenceIdeal.Read.val_main_v67 Cert.ReferenceIdeal.Read.val_main_v68 Cert.ReferenceIdeal.Read.val_main_cst_11
  rfl

theorem x_eq (c : Dev nD) : (V3 m ρ c main_arg1 : (⟨Cert.ReferenceIdeal.S50000x3, .f32⟩ : BufTy).Contents (Elt Ideal)) = a1 m c :=
  calc W3 m ρ c (Proc.devRef .tc main_arg1)
    _ = W2 m ρ c (Proc.devRef .tc main_arg1) := by keeps hostOps1
    _ = m ((c : Thread nD τ).loc main_arg1) := W2_arg1 m ρ c

/-- The summed translations: the reference's scatter-add of the edge region's second output. -/
theorem ts_eq (c : Dev nD) :
    (V3 m ρ c main_v48 : (⟨Cert.ReferenceIdeal.S50000x3, .f32⟩ : BufTy).Contents (Elt Ideal))
      = Host.scatterAdd (F := Ideal) (φ := .f32) Cert.ReferenceIdeal.scatter_S50000x3_S600000x1_S600000x3_1_0_0_1 (Cert.ReferenceIdeal.Read.val_main_v55 (F := Ideal))
          (Cert.ReferenceIdeal.Read.val_main_v56 (F := Ideal) (a2 m c)) (W2 m ρ c (Proc.devRef .tc main_v42_1) : (⟨Cert.ReferenceIdeal.S600000x3, .f32⟩ : BufTy).Contents (Elt Ideal)) := by
  have h3 : W3 m ρ c (Proc.devRef .tc main_v48)
      = Host.scatterAdd (F := Ideal) (φ := .f32) scatter_S50000x3_S600000x1_S600000x3_1_0_0_1
          (broadcastInDim S50000x3 ![] bcast_S_S50000x3 (constant (F := Ideal) S_ .f32 0x00000000#32))
          (broadcastInDim S600000x1 ![0] bcast_S600000_S600000x1_0
            (W2 m ρ c (Proc.devRef .tc main_v1) : (⟨S600000, .i32⟩ : BufTy).Contents (Elt Ideal)))
          (W2 m ρ c (Proc.devRef .tc main_v42_1) : (⟨S600000x3, .f32⟩ : BufTy).Contents (Elt Ideal)) := by
    show StableHlo.after hostOps1 (W2 m ρ c) (Proc.devRef .tc main_v48) = _
    after_results
  refine h3.trans ?_
  rw [src_eq]
  unfold Cert.ReferenceIdeal.Read.val_main_v55 Cert.ReferenceIdeal.Read.val_main_v56 Cert.ReferenceIdeal.Read.val_main_cst_7
  rfl

/-- The edge counts: the reference's stage. -/
theorem cnt_eq (c : Dev nD) : (V3 m ρ c main_v52 : (⟨Cert.ReferenceIdeal.S50000x1, .f32⟩ : BufTy).Contents (Elt Ideal)) = Cert.ReferenceIdeal.Read.val_main_v61 (F := Ideal) (a2 m c) := by
  have h3 : W3 m ρ c (Proc.devRef .tc main_v52)
      = Host.scatterAdd (F := Ideal) (φ := .f32) scatter_S50000x1_S600000x1_S600000x1_1_0_0_1
          (broadcastInDim S50000x1 ![] bcast_S_S50000x1 (constant (F := Ideal) S_ .f32 0x00000000#32))
          (broadcastInDim S600000x1 ![0] bcast_S600000_S600000x1_0
            (W2 m ρ c (Proc.devRef .tc main_v1) : (⟨S600000, .i32⟩ : BufTy).Contents (Elt Ideal)))
          (broadcastInDim S600000x1 ![] bcast_S_S600000x1 (constant (F := Ideal) S_ .f32 0x3F800000#32)) := by
    show StableHlo.after hostOps1 (W2 m ρ c) (Proc.devRef .tc main_v52) = _
    after_results
  refine h3.trans ?_
  rw [src_eq]
  unfold Cert.ReferenceIdeal.Read.val_main_v61 Cert.ReferenceIdeal.Read.val_main_v59 Cert.ReferenceIdeal.Read.val_main_v60
    Cert.ReferenceIdeal.Read.val_main_v58 Cert.ReferenceIdeal.Read.val_main_cst_9 Cert.ReferenceIdeal.Read.val_main_cst_8
  rfl

theorem wn1a_eq (c : Dev nD) (a k : Fin 128) :
    (V3 m ρ c main_v55 : Vec Ideal S128x128 .bf16) (ix2 a k) = a7 m c (ix2 (⟨a.val, by omega⟩ : Fin 256) k) := by
  have h3 : W3 m ρ c (Proc.devRef .tc main_v55)
      = (truncf (F := Ideal) (φ := .f32) .bf16 (extractStridedSlice S128x128 ![0, 0]
            (W2 m ρ c (Proc.devRef .tc main_arg7) : (⟨S256x128, .f32⟩ : BufTy).Contents (Elt Ideal)) slices_S256x128_S128x128_0_0) bitsLt_bf16_f32
          : (⟨S128x128, .bf16⟩ : BufTy).Contents (Elt Ideal)) := by
    show StableHlo.after hostOps1 (W2 m ρ c) (Proc.devRef .tc main_v55) = _
    after_results
  show W3 m ρ c (Proc.devRef .tc main_v55) (ix2 a k) = _
  rw [h3, truncf_bf16_eq, W2_arg7]
  exact extractStridedSlice_apply ![0, 0] _ slices_S256x128_S128x128_0_0 (ix2 a k) (ix2 (⟨a.val, by omega⟩ : Fin 256) k)
    (fun d => match d with
      | ⟨0, _⟩ => by show a.val = 0 + a.val; omega
      | ⟨1, _⟩ => by show k.val = 0 + k.val; omega)

theorem wn1b_eq (c : Dev nD) (a k : Fin 128) :
    (V3 m ρ c main_v57 : Vec Ideal S128x128 .bf16) (ix2 a k) = a7 m c (ix2 (⟨128 + a.val, by omega⟩ : Fin 256) k) := by
  have h3 : W3 m ρ c (Proc.devRef .tc main_v57)
      = (truncf (F := Ideal) (φ := .f32) .bf16 (extractStridedSlice S128x128 ![128, 0]
            (W2 m ρ c (Proc.devRef .tc main_arg7) : (⟨S256x128, .f32⟩ : BufTy).Contents (Elt Ideal)) slices_S256x128_S128x128_128_0) bitsLt_bf16_f32
          : (⟨S128x128, .bf16⟩ : BufTy).Contents (Elt Ideal)) := by
    show StableHlo.after hostOps1 (W2 m ρ c) (Proc.devRef .tc main_v57) = _
    after_results
  show W3 m ρ c (Proc.devRef .tc main_v57) (ix2 a k) = _
  rw [h3, truncf_bf16_eq, W2_arg7]
  exact extractStridedSlice_apply ![128, 0] _ slices_S256x128_S128x128_128_0 (ix2 a k) (ix2 (⟨128 + a.val, by omega⟩ : Fin 256) k)
    (fun d => match d with
      | ⟨0, _⟩ => by show 128 + a.val = 128 + a.val; omega
      | ⟨1, _⟩ => by show k.val = 0 + k.val; omega)

theorem bn1_eq (c : Dev nD) : (V3 m ρ c main_arg8 : (⟨Cert.ReferenceIdeal.S128, .f32⟩ : BufTy).Contents (Elt Ideal)) = a8 m c :=
  calc W3 m ρ c (Proc.devRef .tc main_arg8)
    _ = W2 m ρ c (Proc.devRef .tc main_arg8) := by keeps hostOps1
    _ = m ((c : Thread nD τ).loc main_arg8) := W2_arg8 m ρ c

theorem wn2_eq (c : Dev nD) : (V3 m ρ c main_v58 : (⟨Cert.ReferenceIdeal.S128x128, .f32⟩ : BufTy).Contents (Elt Ideal)) = a9 m c := by
  have h3 : W3 m ρ c (Proc.devRef .tc main_v58)
      = (truncf (F := Ideal) (φ := .f32) .bf16 (W2 m ρ c (Proc.devRef .tc main_arg9) : (⟨S128x128, .f32⟩ : BufTy).Contents (Elt Ideal)) bitsLt_bf16_f32
          : (⟨S128x128, .bf16⟩ : BufTy).Contents (Elt Ideal)) := by
    show StableHlo.after hostOps1 (W2 m ρ c) (Proc.devRef .tc main_v58) = _
    after_results
  refine h3.trans ((truncf_bf16_eq _ _).trans ?_)
  exact W2_arg9 m ρ c

theorem bn2_eq (c : Dev nD) : (V3 m ρ c main_arg10 : (⟨Cert.ReferenceIdeal.S128, .f32⟩ : BufTy).Contents (Elt Ideal)) = a10 m c :=
  calc W3 m ρ c (Proc.devRef .tc main_arg10)
    _ = W2 m ρ c (Proc.devRef .tc main_arg10) := by keeps hostOps1
    _ = m ((c : Thread nD τ).loc main_arg10) := W2_arg10 m ρ c

/-! ## The three results at the last boundary -/

theorem W4_hnew (c : Dev nD) : W4 m ρ c (Proc.devRef .tc main_v59_0) = (dat1 (F := Ideal) (V3 m ρ) c).arrAt 11 cfg1.N :=
  W4_arr m ρ c 11

theorem W4_xnew (c : Dev nD) : W4 m ρ c (Proc.devRef .tc main_v59_1) = (dat1 (F := Ideal) (V3 m ρ) c).arrAt 12 cfg1.N :=
  W4_arr m ρ c 12

theorem W4_feat (c : Dev nD) : W4 m ρ c (Proc.devRef .tc main_v42_0) = W2 m ρ c (Proc.devRef .tc main_v42_0) :=
  calc W4 m ρ c (Proc.devRef .tc main_v42_0)
    _ = W3 m ρ c (Proc.devRef .tc main_v42_0) := W4_of_ne m ρ c main_v42_0 (by decide)
    _ = W2 m ρ c (Proc.devRef .tc main_v42_0) := by keeps hostOps1

end Cert.Bridge

end
-- ==== Proof.Results.lean ====
/-
  The kernel program's three results are the reference's three stages of the kernel program's own argument arrays.
  Edge features: the edge region leaves, row by row, `Egcl.edgeFeat` of the rows of its input arrays; those arrays are
  the reference's gathered arrays and weight blocks; and the reference's edge features are the same function of the same
  rows.  Translations likewise.  New node features and coordinates: the node region leaves `Egcl.nodeFeat` /
  `Egcl.nodeCoord` of the rows of its inputs, which are the arguments and the scatter-adds of the two edge arrays — the
  reference's own scatter-adds once the edge arrays are known to be the reference's.
-/
import proofs.«167930_j21560735826057_1_alg».proof.Proof.EdgeRegion
import proofs.«167930_j21560735826057_1_alg».proof.Proof.NodeRegion
import proofs.«167930_j21560735826057_1_alg».proof.Proof.RefEdgeRows
import proofs.«167930_j21560735826057_1_alg».proof.Proof.RefNodeRows
import proofs.«167930_j21560735826057_1_alg».proof.Proof.BridgeHost0
import proofs.«167930_j21560735826057_1_alg».proof.Proof.BridgeHost1

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## The edge rows agree -/

/-- Edge `e`'s feature row as the edge region computes it is the reference's. -/
theorem featRow_eq (c : Dev nD) (e : Fin 600000) :
    EdgeRegion.featRow (V1 m ρ) c e
      = Cert.ReferenceIdeal.EdgeRows.featRow (a0 m c) (a1 m c) (a2 m c) (a3 m c) (a4 m c) (a5 m c) (a6 m c) e := by
  funext j
  unfold EdgeRegion.featRow Cert.ReferenceIdeal.EdgeRows.featRow
  have h1 : (fun a : Fin 128 => EdgeRegion.hrowA (V1 m ρ) c (ix2 e a))
      = fun a => Cert.ReferenceIdeal.Read.val_main_v28 (F := Ideal) (a0 m c) (a2 m c) (ix2 e a) := funext fun a => congrFun (hrow_eq m ρ c) _
  have h2 : (fun a : Fin 128 => EdgeRegion.hcolA (V1 m ρ) c (ix2 e a))
      = fun a => Cert.ReferenceIdeal.Read.val_main_v35 (F := Ideal) (a0 m c) (a2 m c) (ix2 e a) := funext fun a => congrFun (hcol_eq m ρ c) _
  have h3 : (fun d : Fin 3 => EdgeRegion.cdA (V1 m ρ) c (ix2 e d))
      = fun d => Cert.ReferenceIdeal.Read.val_main_v18 (F := Ideal) (a1 m c) (a2 m c) (ix2 e d) := funext fun d => congrFun (cd_eq m ρ c) _
  have h4 : (fun a k : Fin 128 => EdgeRegion.w1aA (V1 m ρ) c (ix2 a k))
      = fun a k => a3 m c (ix2 (⟨a.val, by omega⟩ : Fin 257) k) := funext fun a => funext fun k => w1a_eq m ρ c a k
  have h5 : (fun a k : Fin 128 => EdgeRegion.w1bA (V1 m ρ) c (ix2 a k))
      = fun a k => a3 m c (ix2 (⟨128 + a.val, by omega⟩ : Fin 257) k) := funext fun a => funext fun k => w1b_eq m ρ c a k
  have h6 : (fun k : Fin 128 => EdgeRegion.w1cA (V1 m ρ) c (ix2 (0 : Fin 1) k))
      = fun k => a3 m c (ix2 (⟨256, by omega⟩ : Fin 257) k) := funext fun k => w1c_eq m ρ c k
  have h7 : (fun k : Fin 128 => EdgeRegion.b1A (V1 m ρ) c (ix1 k)) = fun k => a4 m c (ix1 k) :=
    funext fun k => congrFun (b1_eq m ρ c) _
  have h8 : (fun a k : Fin 128 => EdgeRegion.w2A (V1 m ρ) c (ix2 a k)) = fun a k => a5 m c (ix2 a k) :=
    funext fun a => funext fun k => congrFun (w2_eq m ρ c) _
  have h9 : (fun k : Fin 128 => EdgeRegion.b2A (V1 m ρ) c (ix1 k)) = fun k => a6 m c (ix1 k) :=
    funext fun k => congrFun (b2_eq m ρ c) _
  rw [h1, h2, h3, h4, h5, h6, h7, h8, h9]

/-- Edge `e`'s translation row as the edge region computes it is the reference's. -/
theorem transRow_eq (c : Dev nD) (e : Fin 600000) :
    EdgeRegion.transRow (V1 m ρ) c e
      = Cert.ReferenceIdeal.EdgeRows.transRow (a0 m c) (a1 m c) (a2 m c) (a3 m c) (a4 m c) (a5 m c) (a6 m c)
          (a11 m c) (a12 m c) (a13 m c) e := by
  funext d
  unfold EdgeRegion.transRow Cert.ReferenceIdeal.EdgeRows.transRow
  have h3 : (fun d : Fin 3 => EdgeRegion.cdA (V1 m ρ) c (ix2 e d))
      = fun d => Cert.ReferenceIdeal.Read.val_main_v18 (F := Ideal) (a1 m c) (a2 m c) (ix2 e d) := funext fun d => congrFun (cd_eq m ρ c) _
  have h10 : (fun a k : Fin 128 => EdgeRegion.wc1A (V1 m ρ) c (ix2 a k)) = fun a k => a11 m c (ix2 a k) :=
    funext fun a => funext fun k => congrFun (wc1_eq m ρ c) _
  have h11 : (fun k : Fin 128 => EdgeRegion.bc1A (V1 m ρ) c (ix1 k)) = fun k => a12 m c (ix1 k) :=
    funext fun k => congrFun (bc1_eq m ρ c) _
  have h12 : (fun k : Fin 128 => EdgeRegion.wc2A (V1 m ρ) c (ix2 k (0 : Fin 1))) = fun k => a13 m c (ix2 k (0 : Fin 1)) :=
    funext fun k => congrFun (wc2_eq m ρ c) _
  rw [h3, h10, h11, h12, featRow_eq m ρ c e]

/-! ## The edge region's two arrays are the reference's stages -/

/-- The edge features at the edge region's exit. -/
theorem feat_exit (c : Dev nD) :
    (W2 m ρ c (Proc.devRef .tc main_v42_0) : (⟨Cert.ReferenceIdeal.S600000x128, .f32⟩ : BufTy).Contents (Elt Ideal))
      = Cert.ReferenceIdeal.Read.val_main_v46 (F := Ideal) (a0 m c) (a1 m c) (a2 m c) (a3 m c) (a4 m c) (a5 m c) (a6 m c) := by
  rw [W2_feat, EdgeRegion.feat_arr]
  funext i
  rw [Cert.ReferenceIdeal.EdgeRows.feat, featRow_eq m ρ c (i 0)]

/-- The translations at the edge region's exit. -/
theorem trans_exit (c : Dev nD) :
    (W2 m ρ c (Proc.devRef .tc main_v42_1) : (⟨Cert.ReferenceIdeal.S600000x3, .f32⟩ : BufTy).Contents (Elt Ideal))
      = Cert.ReferenceIdeal.Read.val_main_v54 (F := Ideal) (a0 m c) (a1 m c) (a2 m c) (a3 m c) (a4 m c) (a5 m c) (a6 m c) (a11 m c) (a12 m c) (a13 m c) := by
  rw [W2_trans, EdgeRegion.trans_arr]
  funext i
  rw [Cert.ReferenceIdeal.EdgeRows.trans, transRow_eq m ρ c (i 0)]

/-! ## The three results -/

/-- The third result, the edge features. -/
theorem feat_result (c : Dev nD) :
    (W4 m ρ c (Proc.devRef .tc main_v42_0) : (⟨Cert.ReferenceIdeal.S600000x128, .f32⟩ : BufTy).Contents (Elt Ideal))
      = Cert.ReferenceIdeal.Read.val_main_v46 (F := Ideal) (a0 m c) (a1 m c) (a2 m c) (a3 m c) (a4 m c) (a5 m c) (a6 m c) := by
  rw [W4_feat]; exact feat_exit m ρ c

/-- The aggregated edge features the node region reads are the reference's. -/
theorem agg_ref (c : Dev nD) :
    (V3 m ρ c main_v53 : (⟨Cert.ReferenceIdeal.S50000x128, .f32⟩ : BufTy).Contents (Elt Ideal))
      = Cert.ReferenceIdeal.Read.val_main_v69 (F := Ideal) (a0 m c) (a1 m c) (a2 m c) (a3 m c) (a4 m c) (a5 m c) (a6 m c) := by
  rw [agg_eq, feat_exit]; rfl

/-- The summed translations the node region reads are the reference's. -/
theorem ts_ref (c : Dev nD) :
    (V3 m ρ c main_v48 : (⟨Cert.ReferenceIdeal.S50000x3, .f32⟩ : BufTy).Contents (Elt Ideal))
      = Cert.ReferenceIdeal.Read.val_main_v57 (F := Ideal) (a0 m c) (a1 m c) (a2 m c) (a3 m c) (a4 m c) (a5 m c) (a6 m c) (a11 m c) (a12 m c) (a13 m c) := by
  rw [ts_eq, trans_exit]; rfl

/-- The first result, the new node features. -/
theorem hnew_result (c : Dev nD) :
    (W4 m ρ c (Proc.devRef .tc main_v59_0) : (⟨Cert.ReferenceIdeal.S50000x128, .f32⟩ : BufTy).Contents (Elt Ideal))
      = Cert.ReferenceIdeal.Read.val_main_v80 (F := Ideal) (a0 m c) (a1 m c) (a2 m c) (a3 m c) (a4 m c) (a5 m c) (a6 m c) (a7 m c) (a8 m c) (a9 m c) (a10 m c) := by
  rw [W4_hnew, NodeRegion.feat_arr]
  funext i
  rw [Cert.ReferenceIdeal.NodeRows.feat]
  unfold NodeRegion.featRow
  have h1 : (fun a : Fin 128 => NodeRegion.hA (V3 m ρ) c (ix2 (i 0) a)) = fun a => a0 m c (ix2 (i 0) a) :=
    funext fun a => congrFun (h_eq m ρ c) _
  have h2 : (fun a : Fin 128 => NodeRegion.hbA (V3 m ρ) c (ix2 (i 0) a)) = fun a => a0 m c (ix2 (i 0) a) :=
    funext fun a => congrFun (hb_eq m ρ c) _
  have h3 : (fun a : Fin 128 => NodeRegion.aggA (V3 m ρ) c (ix2 (i 0) a))
      = fun a => Cert.ReferenceIdeal.Read.val_main_v69 (F := Ideal) (a0 m c) (a1 m c) (a2 m c) (a3 m c) (a4 m c) (a5 m c) (a6 m c) (ix2 (i 0) a) :=
    funext fun a => congrFun (agg_ref m ρ c) _
  have h4 : (fun a k : Fin 128 => NodeRegion.wn1aA (V3 m ρ) c (ix2 a k))
      = fun a k => a7 m c (ix2 (⟨a.val, by omega⟩ : Fin 256) k) := funext fun a => funext fun k => wn1a_eq m ρ c a k
  have h5 : (fun a k : Fin 128 => NodeRegion.wn1bA (V3 m ρ) c (ix2 a k))
      = fun a k => a7 m c (ix2 (⟨128 + a.val, by omega⟩ : Fin 256) k) := funext fun a => funext fun k => wn1b_eq m ρ c a k
  have h6 : (fun k : Fin 128 => NodeRegion.bn1A (V3 m ρ) c (ix1 k)) = fun k => a8 m c (ix1 k) :=
    funext fun k => congrFun (bn1_eq m ρ c) _
  have h7 : (fun a k : Fin 128 => NodeRegion.wn2A (V3 m ρ) c (ix2 a k)) = fun a k => a9 m c (ix2 a k) :=
    funext fun a => funext fun k => congrFun (wn2_eq m ρ c) _
  have h8 : (fun k : Fin 128 => NodeRegion.bn2A (V3 m ρ) c (ix1 k)) = fun k => a10 m c (ix1 k) :=
    funext fun k => congrFun (bn2_eq m ρ c) _
  rw [h1, h2, h3, h4, h5, h6, h7, h8]

/-- The second result, the new coordinates. -/
theorem xnew_result (c : Dev nD) :
    (W4 m ρ c (Proc.devRef .tc main_v59_1) : (⟨Cert.ReferenceIdeal.S50000x3, .f32⟩ : BufTy).Contents (Elt Ideal))
      = Cert.ReferenceIdeal.Read.val_main_v66 (F := Ideal) (a0 m c) (a1 m c) (a2 m c) (a3 m c) (a4 m c) (a5 m c) (a6 m c) (a11 m c) (a12 m c) (a13 m c) := by
  rw [W4_xnew, NodeRegion.coord_arr]
  funext i
  rw [Cert.ReferenceIdeal.NodeRows.coord]
  unfold NodeRegion.coordRow
  have h1 : (fun d : Fin 3 => NodeRegion.xA (V3 m ρ) c (ix2 (i 0) d)) = fun d => a1 m c (ix2 (i 0) d) :=
    funext fun d => congrFun (x_eq m ρ c) _
  have h2 : (fun d : Fin 3 => NodeRegion.tsA (V3 m ρ) c (ix2 (i 0) d))
      = fun d => Cert.ReferenceIdeal.Read.val_main_v57 (F := Ideal) (a0 m c) (a1 m c) (a2 m c) (a3 m c) (a4 m c) (a5 m c) (a6 m c) (a11 m c) (a12 m c) (a13 m c) (ix2 (i 0) d) :=
    funext fun d => congrFun (ts_ref m ρ c) _
  have h3 : NodeRegion.cntA (V3 m ρ) c (ix2 (i 0) (0 : Fin 1)) = Cert.ReferenceIdeal.Read.val_main_v61 (F := Ideal) (a2 m c) (ix2 (i 0) (0 : Fin 1)) :=
    congrFun (cnt_eq m ρ c) _
  rw [h1, h2, h3]

end Cert.Bridge

end
-- ==== Proof.lean ====
/-
  One layer of an E(n)-equivariant graph convolution on 50000 nodes and 600000 edges of width 128: a Pallas
  implementation against its jnp reference, equal on the extended reals.

  The implementation gathers, for every edge, the feature rows of its two nodes and their coordinate difference on the
  host, runs the edge network (two layers, then the coordinate weight) in a kernel over blocks of 4000 edges, sums edge
  features, translations and edge counts per source node on the host, and runs the node network and the coordinate
  update in a second kernel over blocks of 2000 nodes.  The reference does the same on whole arrays, with the first edge
  layer and the first node layer applied to concatenated rows (257 and 256 columns).  Over the extended reals a change
  of float format is the identity and every operation is exact, so the two differ only in how two finite sums are
  grouped: a product with a 257-row (256-row) matrix is the sum of the products with its row blocks
  (`Egcl.sum_split257`, `Egcl.sum_split256`), which holds in any commutative additive monoid; no finiteness of the
  inputs is used.  The logistic function inside `silu` is one function on both sides (the reference spells it
  `1 / (1 + e⁻ˣ)`).

  The frames of the two kernel programs are their generated frames; the reference's frame is its run (Proof/RefRun.lean, stated over its stages) with the
  results dropped; nothing was rewritten by the idealization, so `preserves` is trivial; `algebraic` takes the
  reference's three results as the common values: the kernel program's run ends with each result array at the last
  segment boundary's contents (Proof/KRun.lean), and those are the reference's stages of the same arguments
  (Proof/Results.lean, over the two regions read as values, the reference's stages read at an index, and the host
  stretches between them).
-/
import proofs.«167930_j21560735826057_1_alg».proof.Defs
import proofs.«167930_j21560735826057_1_alg».proof.Proof.Gen.Kernel
import proofs.«167930_j21560735826057_1_alg».proof.Proof.Gen.Kernel.Skeleton
import proofs.«167930_j21560735826057_1_alg».proof.Proof.Gen.Kernel.Launch
import proofs.«167930_j21560735826057_1_alg».proof.Proof.Gen.Kernel.Points
import proofs.«167930_j21560735826057_1_alg».proof.Proof.Gen.Kernel.Frame
import proofs.«167930_j21560735826057_1_alg».proof.Proof.Gen.KernelIdeal
import proofs.«167930_j21560735826057_1_alg».proof.Proof.Gen.KernelIdeal.Skeleton
import proofs.«167930_j21560735826057_1_alg».proof.Proof.Gen.KernelIdeal.Launch
import proofs.«167930_j21560735826057_1_alg».proof.Proof.Gen.KernelIdeal.Points
import proofs.«167930_j21560735826057_1_alg».proof.Proof.Gen.KernelIdeal.Frame
import proofs.«167930_j21560735826057_1_alg».proof.Proof.Gen.ReferenceIdeal
import proofs.«167930_j21560735826057_1_alg».proof.Proof.Gen.Pre_finite_inputs
import proofs.«167930_j21560735826057_1_alg».proof.Proof.RefRun
import proofs.«167930_j21560735826057_1_alg».proof.Proof.KRun
import proofs.«167930_j21560735826057_1_alg».proof.Proof.Results
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.StageRun.run m ρ)

theorem preserves : Cert.preserves_Kernel_KernelIdeal := trivial

/-- Both programs end with the reference's three results of the common arguments: the reference by its run, the kernel
    program by its run and `Bridge.hnew_result`, `xnew_result`, `feat_result`. -/
theorem algebraic : Cert.algebraic_KernelIdeal_ReferenceIdeal := by
  intro m ρ m' ρ' _ hagree
  refine ⟨fun c => Cert.ReferenceIdeal.Read.val_main_v80 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)),
    fun c => Cert.ReferenceIdeal.Read.val_main_v66 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)),
    fun c => Cert.ReferenceIdeal.Read.val_main_v46 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)),
    ?_, Cert.ReferenceIdeal.StageRun.run m' ρ'⟩
  refine (θ_run Cert.KernelIdeal.defs _ _).mono (fun r h c => ?_) (Cert.KernelIdeal.Gen.run_results (F := Ideal) m ρ)
  obtain ⟨h0, h1, h2, hargs⟩ := h c
  obtain ⟨e0, e1, e2, e3, e4, e5, e6, e7, e8, e9, e10, e11, e12, e13⟩ := hagree c
  refine ⟨h0.trans ?_, h1.trans ?_, h2.trans ?_, hargs⟩
  · dsimp only
    rw [e0, e1, e2, e3, e4, e5, e6, e7, e8, e9, e10]
    exact Cert.Bridge.hnew_result m ρ c
  · dsimp only
    rw [e0, e1, e2, e3, e4, e5, e6, e11, e12, e13]
    exact Cert.Bridge.xnew_result m ρ c
  · dsimp only
    rw [e0, e1, e2, e3, e4, e5, e6]
    exact Cert.Bridge.feat_result m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
